-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v18_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x640000 : Shape := ⟨2, ![2, 640000]⟩
abbrev S640000x8 : Shape := ⟨2, ![640000, 8]⟩
abbrev S265x128 : Shape := ⟨2, ![265, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S640000x8 : S_.BroadcastsInDim S640000x8 (![] : Fin 0 → Fin S640000x8.rank)
  reducesTo_S640000x8_S_d0_1 : S640000x8.ReducesTo [0, 1] S_
  bcast_S_S265x128 : S_.BroadcastsInDim S265x128 (![] : Fin 0 → Fin S265x128.rank)
  reducesTo_S265x128_S_d0_1 : S265x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_arg2 : IVec S2x640000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x640000 32 := broadcastInDim S2x640000 ![] bcast_S_S2x640000 main_c_26
  let main_v70 : IVec S2x640000 1 := cmpi .sge main_arg2 main_v69
  let main_c_27 : IVec S_ 32 := constantI S_ 32 50000#32
  let main_v71 : IVec S2x640000 32 := broadcastInDim S2x640000 ![] bcast_S_S2x640000 main_c_27
  let main_v72 : IVec S2x640000 1 := cmpi .slt main_arg2 main_v71
  let main_v73 : IVec S2x640000 1 := andi main_v70 main_v72
  let main_c_28 : IVec S_ 1 := constantI S_ 1 1#1
  let main_v74 : IVec S_ 1 := (fun x v => Host.reduce IntOp.andi x v reducesTo_S2x640000_S_d0_1 h_S_) main_v73 main_c_28
  let main_v75 : IVec S_ 1 := andi main_v68 main_v74
  main_v75

def fn_part3 {F : FTy → Type} [FloatOps F] (main_arg2 : IVec S2x640000 32) (main_arg12 : FVec F S128x128 .f32) (main_arg13 : FVec F S128 .f32) (main_arg14 : FVec F S128x1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg2 main_v63 main_v67

def fn_part2 {F : FTy → Type} [FloatOps F] (main_arg2 : IVec S2x640000 32) (main_arg8 : FVec F S128x1 .f32) (main_arg9 : FVec F S1 .f32) (main_arg10 : FVec F S256x128 .f32) (main_arg11 : FVec F S128 .f32) (main_arg12 : FVec F S128x128 .f32) (main_arg13 : FVec F S128 .f32) (main_arg14 : FVec F S128x1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_arg14 main_v48 main_v49 main_v50

def fn_part1 {F : FTy → Type} [FloatOps F] (main_arg2 : IVec S2x640000 32) (main_arg5 : FVec F S128 .f32) (main_arg6 : FVec F S128x128 .f32) (main_arg7 : FVec F S128 .f32) (main_arg8 : FVec F S128x1 .f32) (main_arg9 : FVec F S1 .f32) (main_arg10 : FVec F S256x128 .f32) (main_arg11 : FVec F S128 .f32) (main_arg12 : FVec F S128x128 .f32) (main_arg13 : FVec F S128 .f32) (main_arg14 : FVec F S128x1 .f32) (main_v13 : IVec S_ 1) (main_v16 : IVec S265x128 1) : IVec S_ 1 :=
  let main_c_5 : IVec S_ 1 := constantI S_ 1 1#1
  let main_v17 : IVec S_ 1 := (fun x v => Host.reduce IntOp.andi x v reducesTo_S265x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S50000x128 .f32) (main_arg1 : FVec F S50000x3 .f32) (main_arg2 : IVec S2x640000 32) (main_arg3 : FVec F S640000x8 .f32) (main_arg4 : FVec F S265x128 .f32) (main_arg5 : FVec F S128 .f32) (main_arg6 : FVec F S128x128 .f32) (main_arg7 : FVec F S128 .f32) (main_arg8 : FVec F S128x1 .f32) (main_arg9 : FVec F S1 .f32) (main_arg10 : FVec F S256x128 .f32) (main_arg11 : FVec F S128 .f32) (main_arg12 : FVec F S128x128 .f32) (main_arg13 : FVec F S128 .f32) (main_arg14 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S640000x8 .f32 := Host.absf main_arg3
  let main_cst_2 : FVec F S_ .f32 := constant S_ .f32 0x7F800000#32
  let main_v10 : FVec F S640000x8 .f32 := broadcastInDim S640000x8 ![] bcast_S_S640000x8 main_cst_2
  let main_v11 : IVec S640000x8 1 := cmpf .olt main_v9 main_v10
  let main_c_3 : IVec S_ 1 := constantI S_ 1 1#1
  let main_v12 : IVec S_ 1 := (fun x v => Host.reduce IntOp.andi x v reducesTo_S640000x8_S_d0_1 h_S_) main_v11 main_c_3
  let main_v13 : IVec S_ 1 := andi main_v8 main_v12
  let main_v14 : FVec F S265x128 .f32 := Host.absf main_arg4
  let main_cst_4 : FVec F S_ .f32 := constant S_ .f32 0x7F800000#32
  let main_v15 : FVec F S265x128 .f32 := broadcastInDim S265x128 ![] bcast_S_S265x128 main_cst_4
  let main_v16 : IVec S265x128 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S50000x128 : Shape := ⟨2, ![50000, 128]⟩
abbrev S50000x3 : Shape := ⟨2, ![50000, 3]⟩
abbrev S2x640000 : Shape := ⟨2, ![2, 640000]⟩
abbrev S640000x8 : Shape := ⟨2, ![640000, 8]⟩
abbrev S265x128 : Shape := ⟨2, ![265, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S640000x3 : Shape := ⟨2, ![640000, 3]⟩
abbrev S640000x12 : Shape := ⟨2, ![640000, 12]⟩
abbrev S1x128 : Shape := ⟨2, ![1, 128]⟩
abbrev S2000x128 : Shape := ⟨2, ![2000, 128]⟩
abbrev S2000x12 : Shape := ⟨2, ![2000, 12]⟩
abbrev S2000x3 : Shape := ⟨2, ![2000, 3]⟩
abbrev S2000x1 : Shape := ⟨2, ![2000, 1]⟩
abbrev S2000x8 : Shape := ⟨2, ![2000, 8]⟩
abbrev S2000x265 : Shape := ⟨2, ![2000, 265]⟩
abbrev S50000x1 : Shape := ⟨2, ![50000, 1]⟩
abbrev S2000x256 : Shape := ⟨2, ![2000, 256]⟩

abbrev nBuf : Space → Nat
  | .hbm => 145
  | .vmem => 27
  | .smem => 0
  | _ => 0

abbrev hbmTy0_0 (i : Nat) : BufTy := match i % 128 with
  | 0 => ⟨S50000x128, .f32⟩
  | 1 => ⟨S50000x3, .f32⟩
  | 2 => ⟨S2x640000, .i32⟩
  | 3 => ⟨S640000x8, .f32⟩
  | 4 => ⟨S265x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S256x128, .f32⟩
  | 11 => ⟨S128, .f32⟩
  | 12 => ⟨S128x128, .f32⟩
  | 13 => ⟨S128, .f32⟩
  | 14 => ⟨S128x1, .f32⟩
  | 15 => ⟨S1x640000, .i32⟩
  | 16 => ⟨S640000, .i32⟩
  | 17 => ⟨S1x640000, .i32⟩
  | 18 => ⟨S640000, .i32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S1, .i32⟩
  | 28 => ⟨S_, .i32⟩
  | 29 => ⟨S640000x1, .i32⟩
  | 30 => ⟨S640000x1, .i1⟩
  | 31 => ⟨S1x1, .i32⟩
  | 32 => ⟨S640000x1, .i32⟩
  | 33 => ⟨S640000x1, .i1⟩
  | 34 => ⟨S640000x1, .i1⟩
  | 35 => ⟨S_, .i1⟩
  | 36 => ⟨S640000, .i1⟩
  | 37 => ⟨S640000x128, .f32⟩
  | 38 => ⟨S640000x128, .i1⟩
  | 39 => ⟨S_, .f32⟩
  | 40 => ⟨S640000x128, .f32⟩
  | 41 => ⟨S640000x128, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S1, .i32⟩
  | 51 => ⟨S_, .i32⟩
  | 52 => ⟨S640000x1, .i32⟩
  | 53 => ⟨S640000x1, .i1⟩
  | 54 => ⟨S1x1, .i32⟩
  | 55 => ⟨S640000x1, .i32⟩
  | 56 => ⟨S640000x1, .i1⟩
  | 57 => ⟨S640000x1, .i1⟩
  | 58 => ⟨S_, .i1⟩
  | 59 => ⟨S640000, .i1⟩
  | 60 => ⟨S640000x128, .f32⟩
  | 61 => ⟨S640000x128, .i1⟩
  | 62 => ⟨S_, .f32⟩
  | 63 => ⟨S640000x128, .f32⟩
  | 64 => ⟨S640000x128, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S1, .i32⟩
  | 74 => ⟨S_, .i32⟩
  | 75 => ⟨S640000x1, .i32⟩
  | 76 => ⟨S640000x1, .i1⟩
  | 77 => ⟨S1x1, .i32⟩
  | 78 => ⟨S640000x1, .i32⟩
  | 79 => ⟨S640000x1, .i1⟩
  | 80 => ⟨S640000x1, .i1⟩
  | 81 => ⟨S_, .i1⟩
  | 82 => ⟨S640000, .i1⟩
  | 83 => ⟨S640000x3, .f32⟩
  | 84 => ⟨S640000x3, .i1⟩
  | 85 => ⟨S_, .f32⟩
  | 86 => ⟨S640000x3, .f32⟩
  | 87 => ⟨S640000x3, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S1, .i32⟩
  | 97 => ⟨S_, .i32⟩
  | 98 => ⟨S640000x1, .i32⟩
  | 99 => ⟨S640000x1, .i1⟩
  | 100 => ⟨S1x1, .i32⟩
  | 101 => ⟨S640000x1, .i32⟩
  | 102 => ⟨S640000x1, .i1⟩
  | 103 => ⟨S640000x1, .i1⟩
  | 104 => ⟨S_, .i1⟩
  | 105 => ⟨S640000, .i1⟩
  | 106 => ⟨S640000x3, .f32⟩
  | 107 => ⟨S640000x3, .i1⟩
  | 108 => ⟨S_, .f32⟩
  | 109 => ⟨S640000x3, .f32⟩
  | 110 => ⟨S640000x3, .f32⟩
  | 111 => ⟨S640000x3, .f32⟩
  | 112 => ⟨S640000x3, .f32⟩
  | 113 => ⟨S_, .f32⟩
  | 114 => ⟨S640000, .f32⟩
  | 115 => ⟨S640000x1, .f32⟩
  | 116 => ⟨S640000x12, .f32⟩
  | 117 => ⟨S1x128, .f32⟩
  | 118 => ⟨S1x128, .f32⟩
  | 119 => ⟨S1x1, .f32⟩
  | 120 => ⟨S1x128, .f32⟩
  | 121 => ⟨S1x128, .f32⟩
  | 122 => ⟨S640000x128, .f32⟩
  | 123 => ⟨S640000x3, .f32⟩
  | 124 => ⟨S_, .f32⟩
  | 125 => ⟨S640000x1, .f32⟩
  | 126 => ⟨S_, .f32⟩
  | 127 => ⟨S50000x1, .f32⟩
  | _ => ⟨S50000x128, .f32⟩

abbrev hbmTy0_1 (i : Nat) : BufTy := match i % 128 with
  | 0 => ⟨S640000x1, .i32⟩
  | 1 => ⟨S50000x1, .f32⟩
  | 2 => ⟨S_, .f32⟩
  | 3 => ⟨S50000x3, .f32⟩
  | 4 => ⟨S640000x1, .i32⟩
  | 5 => ⟨S50000x3, .f32⟩
  | 6 => ⟨S_, .f32⟩
  | 7 => ⟨S50000x1, .f32⟩
  | 8 => ⟨S50000x1, .f32⟩
  | 9 => ⟨S50000x3, .f32⟩
  | 10 => ⟨S50000x3, .f32⟩
  | 11 => ⟨S50000x3, .f32⟩
  | 12 => ⟨S_, .f32⟩
  | 13 => ⟨S50000x128, .f32⟩
  | 14 => ⟨S640000x1, .i32⟩
  | 15 => ⟨S50000x128, .f32⟩
  | 16 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x12, .f32⟩
  | .local _ .vmem, ⟨5, _⟩ => ⟨S2000x12, .f32⟩
  | .local _ .vmem, ⟨6, _⟩ => ⟨S265x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x1, .f32⟩
  | .local _ .vmem, ⟨11, _⟩ => ⟨S1x1, .f32⟩
  | .local _ .vmem, ⟨12, _⟩ => ⟨S128x1, .f32⟩
  | .local _ .vmem, ⟨13, _⟩ => ⟨S2000x128, .f32⟩
  | .local _ .vmem, ⟨14, _⟩ => ⟨S2000x128, .f32⟩
  | .local _ .vmem, ⟨15, _⟩ => ⟨S2000x3, .f32⟩
  | .local _ .vmem, ⟨16, _⟩ => ⟨S2000x3, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S256x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v6 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v7 : Ref sig .tc := ⟨.hbm, 110, rfl⟩
abbrev main_v8 : Ref sig .tc := ⟨.hbm, 111, rfl⟩
abbrev main_v9 : Ref sig .tc := ⟨.hbm, 112, rfl⟩
abbrev main_cst : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩
abbrev main_v15 : Ref sig .tc := ⟨.hbm, 119, rfl⟩
abbrev main_v16 : Ref sig .tc := ⟨.hbm, 120, rfl⟩
abbrev main_v17 : Ref sig .tc := ⟨.hbm, 121, rfl⟩
abbrev main_v18_0 : Ref sig .tc := ⟨.hbm, 122, rfl⟩
abbrev main_v18_1 : Ref sig .tc := ⟨.hbm, 123, rfl⟩
abbrev main_cst_0 : Ref sig .tc := ⟨.hbm, 124, rfl⟩
abbrev main_v19 : Ref sig .tc := ⟨.hbm, 125, rfl⟩
abbrev main_cst_1 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_cst_2 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_cst_3 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_cst_4 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S265x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000_S640000x3_0 : S640000.BroadcastsInDim S640000x3 (![0] : Fin 1 → Fin S640000x3.rank)
  bcast_S_S640000x3 : S_.BroadcastsInDim S640000x3 (![] : Fin 0 → Fin S640000x3.rank)
  reducesTo_S640000x3_S640000_d1 : S640000x3.ReducesTo [1] S640000
  concatenates_S640000x3_S640000x1_S640000x8_S640000x12_d1 : Shape.Concatenates [S640000x3, S640000x1, S640000x8] S640000x12 1
  shapeCasts_S128_S1x128 : S128.ShapeCasts S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x12_S2000x12_0_0 : ∀ a, (![0, 0] : Fin 2 → Nat) a + S2000x12.size a ≤ S2000x12.size a
  h_S2000x12 : 0 < S2000x12.numel
  shapeCasts_S2000x12_S2000x12 : S2000x12.ShapeCasts S2000x12
  slices_S2000x12_o0_0_S2000x3 : S2000x12.Slices ![0, 0] S2000x3
  slices_S2000x12_o0_3_S2000x1 : S2000x12.Slices ![0, 3] S2000x1
  slices_S2000x12_o0_4_S2000x8 : S2000x12.Slices ![0, 4] S2000x8
  concatenates_S2000x128_S2000x128_S2000x1_S2000x8_S2000x265_d1 : Shape.Concatenates [S2000x128, S2000x128, S2000x1, S2000x8] S2000x265 1
  inb_S265x128_S265x128_0_0 : ∀ a, (![0, 0] : Fin 2 → Nat) a + S265x128.size a ≤ S265x128.size a
  h_S265x128 : 0 < S265x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x128 : S2000x1.Broadcasts S2000x128
  broadcasts_S2000x1_S2000x3 : S2000x1.Broadcasts S2000x3
  inb_S2000x3_S2000x3_0_0 : ∀ a, (![0, 0] : Fin 2 → Nat) a + S2000x3.size a ≤ S2000x3.size a
  h_S2000x3 : 0 < S2000x3.numel
  bcast_S_S50000x1 : S_.BroadcastsInDim S50000x1 (![] : Fin 0 → Fin S50000x1.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  gather_S50000x128_S640000x1_S640000x128_1_0_n_n_0_1_1128_wf : GatherDims.WF S50000x128 S640000x1 S640000x128 [1] [0] [] [0] [] 1 ![1, 128]
  gather_S50000x3_S640000x1_S640000x3_1_0_n_n_0_1_13_wf : GatherDims.WF S50000x3 S640000x1 S640000x3 [1] [0] [] [0] [] 1 ![1, 3]
  dot_S2000x265_S265x128_S2000x128_1_0_0_1_n_n_wf : DotDims.WF S2000x265 S265x128 S2000x128 [1] [0] [0] [1] [] []
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  scatter_S50000x1_S640000x1_S640000x1_1_0_0_1_wf : ScatterDims.WF S50000x1 S640000x1 S640000x1 [1] [0] [0] 1
  scatter_S50000x3_S640000x1_S640000x3_1_0_0_1_wf : ScatterDims.WF S50000x3 S640000x1 S640000x3 [1] [0] [0] 1
  scatter_S50000x128_S640000x1_S640000x128_1_0_0_1_wf : ScatterDims.WF S50000x128 S640000x1 S640000x128 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S640000x128.size a
  hwx0_0 : ∀ i : grid0.Coords, EltTy.bits .f32 = 32 ∨ (Rect.block (s := S640000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S640000x128.size a
  hwx0_1 : ∀ i : grid0.Coords, EltTy.bits .f32 = 32 ∨ (Rect.block (s := S640000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x12.size a ≤ S640000x12.size a
  hwx0_2 : ∀ i : grid0.Coords, EltTy.bits .f32 = 32 ∨ (Rect.block (s := S640000x12) S2000x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S265x128.size a ≤ S265x128.size a
  hwx0_3 : ∀ i : grid0.Coords, EltTy.bits .f32 = 32 ∨ (Rect.block (s := S265x128) S265x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S640000x128.size a
  hwx0_10 : ∀ i : grid0.Coords, EltTy.bits .f32 = 32 ∨ (Rect.block (s := S640000x128) S2000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x3.size a ≤ S640000x3.size a
  hwx0_11 : ∀ i : grid0.Coords, EltTy.bits .f32 = 32 ∨ (Rect.block (s := S640000x3) S2000x3.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def dot_S2000x265_S265x128_S2000x128_1_0_0_1_n_n : DotDims S2000x265 S265x128 S2000x128 where
  lhsContracting := [1]
  rhsContracting := [0]
  lhsNonContracting := [0]
  rhsNonContracting := [1]
  lhsBatch := []
  rhsBatch := []
  wf := dot_S2000x265_S265x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S265x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18_0) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v18_1) S2000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x640000 : Shape := ⟨2, ![2, 640000]⟩
abbrev S640000x8 : Shape := ⟨2, ![640000, 8]⟩
abbrev S265x128 : Shape := ⟨2, ![265, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x265 : Shape := ⟨2, ![640000, 265]⟩
abbrev S1x128 : Shape := ⟨2, ![1, 128]⟩
abbrev S1x1 : Shape := ⟨2, ![1, 1]⟩
abbrev S50000x1 : Shape := ⟨2, ![50000, 1]⟩
abbrev S50000x256 : Shape := ⟨2, ![50000, 256]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S50000x3, .f32⟩
  | 2 => ⟨S2x640000, .i32⟩
  | 3 => ⟨S640000x8, .f32⟩
  | 4 => ⟨S265x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S256x128, .f32⟩
  | 11 => ⟨S128, .f32⟩
  | 12 => ⟨S128x128, .f32⟩
  | 13 => ⟨S128, .f32⟩
  | 14 => ⟨S128x1, .f32⟩
  | 15 => ⟨S1x640000, .i32⟩
  | 16 => ⟨S640000, .i32⟩
  | 17 => ⟨S1x640000, .i32⟩
  | 18 => ⟨S640000, .i32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000x3, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x3, .f32⟩
  | 37 => ⟨S640000x3, .f32⟩
  | 38 => ⟨S640000x3, .f32⟩
  | 39 => ⟨S_, .f32⟩
  | 40 => ⟨S640000, .f32⟩
  | 41 => ⟨S640000x1, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x128, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x265, .f32⟩
  | 61 => ⟨S640000x128, .f32⟩
  | 62 => ⟨S1x128, .f32⟩
  | 63 => ⟨S640000x128, .f32⟩
  | 64 => ⟨S640000x128, .f32⟩
  | 65 => ⟨S640000x128, .f32⟩
  | 66 => ⟨S640000x128, .f32⟩
  | 67 => ⟨S_, .f32⟩
  | 68 => ⟨S640000x128, .f32⟩
  | 69 => ⟨S640000x128, .f32⟩
  | 70 => ⟨S_, .f32⟩
  | 71 => ⟨S640000x128, .f32⟩
  | 72 => ⟨S640000x128, .f32⟩
  | 73 => ⟨S640000x128, .f32⟩
  | 74 => ⟨S640000x128, .f32⟩
  | 75 => ⟨S1x128, .f32⟩
  | 76 => ⟨S640000x128, .f32⟩
  | 77 => ⟨S640000x128, .f32⟩
  | 78 => ⟨S640000x128, .f32⟩
  | 79 => ⟨S640000x128, .f32⟩
  | 80 => ⟨S_, .f32⟩
  | 81 => ⟨S640000x128, .f32⟩
  | 82 => ⟨S640000x128, .f32⟩
  | 83 => ⟨S_, .f32⟩
  | 84 => ⟨S640000x128, .f32⟩
  | 85 => ⟨S640000x128, .f32⟩
  | 86 => ⟨S640000x128, .f32⟩
  | 87 => ⟨S640000x1, .f32⟩
  | 88 => ⟨S1x1, .f32⟩
  | 89 => ⟨S640000x1, .f32⟩
  | 90 => ⟨S640000x1, .f32⟩
  | 91 => ⟨S640000x1, .f32⟩
  | 92 => ⟨S640000x1, .f32⟩
  | 93 => ⟨S_, .f32⟩
  | 94 => ⟨S640000x1, .f32⟩
  | 95 => ⟨S640000x1, .f32⟩
  | 96 => ⟨S_, .f32⟩
  | 97 => ⟨S640000x1, .f32⟩
  | 98 => ⟨S640000x1, .f32⟩
  | 99 => ⟨S640000x128, .f32⟩
  | 100 => ⟨S640000x128, .f32⟩
  | 101 => ⟨S640000x1, .f32⟩
  | 102 => ⟨S640000x3, .f32⟩
  | 103 => ⟨S640000x3, .f32⟩
  | 104 => ⟨S_, .f32⟩
  | 105 => ⟨S50000x3, .f32⟩
  | 106 => ⟨S640000x1, .i32⟩
  | 107 => ⟨S50000x3, .f32⟩
  | 108 => ⟨S_, .f32⟩
  | 109 => ⟨S640000x1, .f32⟩
  | 110 => ⟨S_, .f32⟩
  | 111 => ⟨S50000x1, .f32⟩
  | 112 => ⟨S640000x1, .i32⟩
  | 113 => ⟨S50000x1, .f32⟩
  | 114 => ⟨S_, .f32⟩
  | 115 => ⟨S50000x1, .f32⟩
  | 116 => ⟨S50000x1, .f32⟩
  | 117 => ⟨S50000x3, .f32⟩
  | 118 => ⟨S50000x3, .f32⟩
  | 119 => ⟨S50000x3, .f32⟩
  | 120 => ⟨S_, .f32⟩
  | 121 => ⟨S50000x128, .f32⟩
  | 122 => ⟨S640000x1, .i32⟩
  | 123 => ⟨S50000x128, .f32⟩
  | 124 => ⟨S50000x256, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_7 : Ref sig .tc := ⟨.hbm, 93, rfl⟩
abbrev main_v53 : Ref sig .tc := ⟨.hbm, 94, rfl⟩
abbrev main_v54 : Ref sig .tc := ⟨.hbm, 95, rfl⟩
abbrev main_cst_8 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_9 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_10 : Ref sig .tc := ⟨.hbm, 108, rfl⟩
abbrev main_v65 : Ref sig .tc := ⟨.hbm, 109, rfl⟩
abbrev main_cst_11 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_12 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_13 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_call2_v0 : Ref sig .tc := ⟨.hbm, 129, rfl⟩
abbrev main_call2_v1 : Ref sig .tc := ⟨.hbm, 130, rfl⟩
abbrev main_call2_cst : Ref sig .tc := ⟨.hbm, 131, rfl⟩
abbrev main_call2_v2 : Ref sig .tc := ⟨.hbm, 132, rfl⟩
abbrev main_call2_v3 : Ref sig .tc := ⟨.hbm, 133, rfl⟩
abbrev main_call2_cst_0 : Ref sig .tc := ⟨.hbm, 134, rfl⟩
abbrev main_call2_v4 : Ref sig .tc := ⟨.hbm, 135, rfl⟩
abbrev main_call2_v5 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x8_S640000x265_d1 : Shape.Concatenates [S640000x128, S640000x128, S640000x1, S640000x8] S640000x265 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S640000x1_S640000x3_0_1 : S640000x1.BroadcastsInDim S640000x3 (![0, 1] : Fin 2 → Fin S640000x3.rank)
  bcast_S_S50000x3 : S_.BroadcastsInDim S50000x3 (![] : Fin 0 → Fin S50000x3.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S640000x1_S640000x3_1_0_n_n_0_1_13_wf : GatherDims.WF S50000x3 S640000x1 S640000x3 [1] [0] [] [0] [] 1 ![1, 3]
  gather_S50000x128_S640000x1_S640000x128_1_0_n_n_0_1_1128_wf : GatherDims.WF S50000x128 S640000x1 S640000x128 [1] [0] [] [0] [] 1 ![1, 128]
  dot_S640000x265_S265x128_S640000x128_1_0_0_1_n_n_wf : DotDims.WF S640000x265 S265x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S50000x3_S640000x1_S640000x3_1_0_0_1_wf : ScatterDims.WF S50000x3 S640000x1 S640000x3 [1] [0] [0] 1
  scatter_S50000x1_S640000x1_S640000x1_1_0_0_1_wf : ScatterDims.WF S50000x1 S640000x1 S640000x1 [1] [0] [0] 1
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x265_S265x128_S640000x128_1_0_0_1_n_n : DotDims S640000x265 S265x128 S640000x128 where
  lhsContracting := [1]
  rhsContracting := [0]
  lhsNonContracting := [0]
  rhsNonContracting := [1]
  lhsBatch := []
  rhsBatch := []
  wf := dot_S640000x265_S265x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Body0.lean ====
/-
  The edge kernel's pallas_call (region 0 of the program) at a parameter `V`, the buffer contents the region is entered from:
  each window's block at a grid point, what one run of the kernel body leaves in its two output blocks as a function of the
  ten input blocks, the body's triple, and the pipeline's proof data with its body obligation.
-/
import proofs.«406677_j84052509983239_1_alg».proof.Proof.Gen.Kernel.Launch
import proofs.«406677_j84052509983239_1_alg».proof.Proof.Gen.Kernel.Skeleton
import proofs.«406677_j84052509983239_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of messages one run of the body computes from its input blocks: the body's arithmetic as one term. -/
def blkM (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) : Vec F S2000x128 .f32 :=
  k0_pay1 (k0_pay5 x0 x1 x2 x3 x4 x5 x6) (k0_pay6 x0 x1 x2 x3 x4 x5 x6) (k0_pay7 x7) (k0_pay8 x8) (constant S2000x1 .f32 0x00000000#32)

/-- The block of scaled position differences one run of the body computes from its input blocks. -/
def blkT (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) (x9 : Vec F S128x1 .f32) : Vec F S2000x3 .f32 :=
  k0_pay2 (k0_pay4 x2) (k0_pay5 x0 x1 x2 x3 x4 x5 x6) (k0_pay6 x0 x1 x2 x3 x4 x5 x6) (k0_pay7 x7) (k0_pay8 x8) (constant S2000x1 .f32 0x00000000#32) x9

/-- The proof data of pipeline 0 on core `c`: the arrays as the region finds them; after the body at point `t` each input's
    buffer at its block and each output's at the body's term of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => blkM (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => blkT (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_10 (c : Dev nD) (t : Fin cfg0.N) : (dat0 V c).after 10 t
    = blkM (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]
theorem after0_11 (c : Dev nD) (t : Fin cfg0.N) : (dat0 V c).after 11 t
    = blkT (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by
  dsimp only [dat0]

/-! ## The input windows keep their blocks -/

theorem stays0_0 (c : Dev nD) (t : Fin cfg0.N) : (dat0 V c).after 0 t = iblk0 V c 0 t := by dsimp only [dat0]
theorem stays0_1 (c : Dev nD) (t : Fin cfg0.N) : (dat0 V c).after 1 t = iblk0 V c 1 t := by dsimp only [dat0]
theorem stays0_2 (c : Dev nD) (t : Fin cfg0.N) : (dat0 V c).after 2 t = iblk0 V c 2 t := by dsimp only [dat0]
theorem stays0_3 (c : Dev nD) (t : Fin cfg0.N) : (dat0 V c).after 3 t = iblk0 V c 3 t := by dsimp only [dat0]
theorem stays0_4 (c : Dev nD) (t : Fin cfg0.N) : (dat0 V c).after 4 t = iblk0 V c 4 t := by dsimp only [dat0]
theorem stays0_5 (c : Dev nD) (t : Fin cfg0.N) : (dat0 V c).after 5 t = iblk0 V c 5 t := by dsimp only [dat0]
theorem stays0_6 (c : Dev nD) (t : Fin cfg0.N) : (dat0 V c).after 6 t = iblk0 V c 6 t := by dsimp only [dat0]
theorem stays0_7 (c : Dev nD) (t : Fin cfg0.N) : (dat0 V c).after 7 t = iblk0 V c 7 t := by dsimp only [dat0]
theorem stays0_8 (c : Dev nD) (t : Fin cfg0.N) : (dat0 V c).after 8 t = iblk0 V c 8 t := by dsimp only [dat0]
theorem stays0_9 (c : Dev nD) (t : Fin cfg0.N) : (dat0 V c).after 9 t = iblk0 V c 9 t := by dsimp only [dat0]

/-- The body finds window 0's block in its current buffer at every point: where it was not fetched the block index has not moved. -/
theorem finds0_0 (c : Dev nD) (t : Fin cfg0.N) (d) : (dat0 V c).before 0 t d = iblk0 V c 0 t :=
  ((dat0 V c).before_in_eq_fetched 0 rfl (fun _ => rfl) (fun _ _ _ => rfl)
    (fun t => by rw [stays0_0]; unfold Dat.blockOf iblk0; rw [A_eq0]; try rfl) t d).trans
    (by unfold Dat.fetched Dat.blockOf iblk0; rw [A_eq0]; try rfl)
/-- The body finds window 1's block in its current buffer at every point: where it was not fetched the block index has not moved. -/
theorem finds0_1 (c : Dev nD) (t : Fin cfg0.N) (d) : (dat0 V c).before 1 t d = iblk0 V c 1 t :=
  ((dat0 V c).before_in_eq_fetched 1 rfl (fun _ => rfl) (fun _ _ _ => rfl)
    (fun t => by rw [stays0_1]; unfold Dat.blockOf iblk0; rw [A_eq0]; try rfl) t d).trans
    (by unfold Dat.fetched Dat.blockOf iblk0; rw [A_eq0]; try rfl)
/-- The body finds window 2's block in its current buffer at every point: where it was not fetched the block index has not moved. -/
theorem finds0_2 (c : Dev nD) (t : Fin cfg0.N) (d) : (dat0 V c).before 2 t d = iblk0 V c 2 t :=
  ((dat0 V c).before_in_eq_fetched 2 rfl (fun _ => rfl) (fun _ _ _ => rfl)
    (fun t => by rw [stays0_2]; unfold Dat.blockOf iblk0; rw [A_eq0]; try rfl) t d).trans
    (by unfold Dat.fetched Dat.blockOf iblk0; rw [A_eq0]; try rfl)
/-- The body finds window 3's block in its current buffer at every point: where it was not fetched the block index has not moved. -/
theorem finds0_3 (c : Dev nD) (t : Fin cfg0.N) (d) : (dat0 V c).before 3 t d = iblk0 V c 3 t :=
  ((dat0 V c).before_in_eq_fetched 3 rfl (fun _ => rfl) (fun _ _ _ => rfl)
    (fun t => by rw [stays0_3]; unfold Dat.blockOf iblk0; rw [A_eq0]; try rfl) t d).trans
    (by unfold Dat.fetched Dat.blockOf iblk0; rw [A_eq0]; try rfl)
/-- The body finds window 4's block in its current buffer at every point: where it was not fetched the block index has not moved. -/
theorem finds0_4 (c : Dev nD) (t : Fin cfg0.N) (d) : (dat0 V c).before 4 t d = iblk0 V c 4 t :=
  ((dat0 V c).before_in_eq_fetched 4 rfl (fun _ => rfl) (fun _ _ _ => rfl)
    (fun t => by rw [stays0_4]; unfold Dat.blockOf iblk0; rw [A_eq0]; try rfl) t d).trans
    (by unfold Dat.fetched Dat.blockOf iblk0; rw [A_eq0]; try rfl)
/-- The body finds window 5's block in its current buffer at every point: where it was not fetched the block index has not moved. -/
theorem finds0_5 (c : Dev nD) (t : Fin cfg0.N) (d) : (dat0 V c).before 5 t d = iblk0 V c 5 t :=
  ((dat0 V c).before_in_eq_fetched 5 rfl (fun _ => rfl) (fun _ _ _ => rfl)
    (fun t => by rw [stays0_5]; unfold Dat.blockOf iblk0; rw [A_eq0]; try rfl) t d).trans
    (by unfold Dat.fetched Dat.blockOf iblk0; rw [A_eq0]; try rfl)
/-- The body finds window 6's block in its current buffer at every point: where it was not fetched the block index has not moved. -/
theorem finds0_6 (c : Dev nD) (t : Fin cfg0.N) (d) : (dat0 V c).before 6 t d = iblk0 V c 6 t :=
  ((dat0 V c).before_in_eq_fetched 6 rfl (fun _ => rfl) (fun _ _ _ => rfl)
    (fun t => by rw [stays0_6]; unfold Dat.blockOf iblk0; rw [A_eq0]; try rfl) t d).trans
    (by unfold Dat.fetched Dat.blockOf iblk0; rw [A_eq0]; try rfl)
/-- The body finds window 7's block in its current buffer at every point: where it was not fetched the block index has not moved. -/
theorem finds0_7 (c : Dev nD) (t : Fin cfg0.N) (d) : (dat0 V c).before 7 t d = iblk0 V c 7 t :=
  ((dat0 V c).before_in_eq_fetched 7 rfl (fun _ => rfl) (fun _ _ _ => rfl)
    (fun t => by rw [stays0_7]; unfold Dat.blockOf iblk0; rw [A_eq0]; try rfl) t d).trans
    (by unfold Dat.fetched Dat.blockOf iblk0; rw [A_eq0]; try rfl)
/-- The body finds window 8's block in its current buffer at every point: where it was not fetched the block index has not moved. -/
theorem finds0_8 (c : Dev nD) (t : Fin cfg0.N) (d) : (dat0 V c).before 8 t d = iblk0 V c 8 t :=
  ((dat0 V c).before_in_eq_fetched 8 rfl (fun _ => rfl) (fun _ _ _ => rfl)
    (fun t => by rw [stays0_8]; unfold Dat.blockOf iblk0; rw [A_eq0]; try rfl) t d).trans
    (by unfold Dat.fetched Dat.blockOf iblk0; rw [A_eq0]; try rfl)
/-- The body finds window 9's block in its current buffer at every point: where it was not fetched the block index has not moved. -/
theorem finds0_9 (c : Dev nD) (t : Fin cfg0.N) (d) : (dat0 V c).before 9 t d = iblk0 V c 9 t :=
  ((dat0 V c).before_in_eq_fetched 9 rfl (fun _ => rfl) (fun _ _ _ => rfl)
    (fun t => by rw [stays0_9]; unfold Dat.blockOf iblk0; rw [A_eq0]; try rfl) t d).trans
    (by unfold Dat.fetched Dat.blockOf iblk0; rw [A_eq0]; try rfl)

/-! ## What one run of the body leaves in the output buffers -/

/-- The offset of every access of the body: the origin. -/
theorem origin2 : (![0, 0] : Fin 2 → Nat) = fun _ => 0 := funext fun a => by fin_cases a <;> rfl

/-- The messages' buffer after the body: its one store, the payload computed from the loaded blocks. -/
def leftM (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) : Vec F S2000x128 .f32 :=
  View.canon [⟨(Rect.unit (s := S2000x128) ![0, 0] S2000x128.size inb_S2000x128_S2000x128_0_0),
    k0_pay1 (k0_pay5 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x12) ![0, 0] S2000x12.size inb_S2000x12_S2000x12_0_0)) (View.ld x3 (Rect.unit (s := S265x128) ![0, 0] S265x128.size inb_S265x128_S265x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)))
      (k0_pay6 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x12) ![0, 0] S2000x12.size inb_S2000x12_S2000x12_0_0)) (View.ld x3 (Rect.unit (s := S265x128) ![0, 0] S265x128.size inb_S265x128_S265x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)))
      (k0_pay7 (View.ld x7 (Rect.unit (s := S128x1) ![0, 0] S128x1.size inb_S128x1_S128x1_0_0))) (k0_pay8 (View.ld x8 (Rect.unit (s := S1x1) ![0, 0] S1x1.size inb_S1x1_S1x1_0_0))) (constant S2000x1 .f32 0x00000000#32)⟩]

/-- The position differences' buffer after the body: its one store. -/
def leftT (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) (x9 : Vec F S128x1 .f32) : Vec F S2000x3 .f32 :=
  View.canon [⟨(Rect.unit (s := S2000x3) ![0, 0] S2000x3.size inb_S2000x3_S2000x3_0_0),
    k0_pay2 (k0_pay4 (View.ld x2 (Rect.unit (s := S2000x12) ![0, 0] S2000x12.size inb_S2000x12_S2000x12_0_0)))
      (k0_pay5 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x12) ![0, 0] S2000x12.size inb_S2000x12_S2000x12_0_0)) (View.ld x3 (Rect.unit (s := S265x128) ![0, 0] S265x128.size inb_S265x128_S265x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)))
      (k0_pay6 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x12) ![0, 0] S2000x12.size inb_S2000x12_S2000x12_0_0)) (View.ld x3 (Rect.unit (s := S265x128) ![0, 0] S265x128.size inb_S265x128_S265x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)))
      (k0_pay7 (View.ld x7 (Rect.unit (s := S128x1) ![0, 0] S128x1.size inb_S128x1_S128x1_0_0))) (k0_pay8 (View.ld x8 (Rect.unit (s := S1x1) ![0, 0] S1x1.size inb_S1x1_S1x1_0_0))) (constant S2000x1 .f32 0x00000000#32) (View.ld x9 (Rect.unit (s := S128x1) ![0, 0] S128x1.size inb_S128x1_S128x1_0_0))⟩]

/-- Every load and the store are the whole block, so the store's payload over the blocks themselves is what is left. -/
theorem leftM_eq (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) :
    leftM x0 x1 x2 x3 x4 x5 x6 x7 x8 = blkM x0 x1 x2 x3 x4 x5 x6 x7 x8 := by
  unfold leftM blkM
  rw [View.canon_unit_zero origin2]
  simp only [View.ld_unit_zero (S := S2000x128) origin2, View.ld_unit_zero (S := S2000x12) origin2, View.ld_unit_zero (S := S265x128) origin2,
    View.ld_unit_zero (S := S1x128) origin2, View.ld_unit_zero (S := S128x128) origin2, View.ld_unit_zero (S := S128x1) origin2,
    View.ld_unit_zero (S := S1x1) origin2]

theorem leftT_eq (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) (x9 : Vec F S128x1 .f32) :
    leftT x0 x1 x2 x3 x4 x5 x6 x7 x8 x9 = blkT x0 x1 x2 x3 x4 x5 x6 x7 x8 x9 := by
  unfold leftT blkT
  rw [View.canon_unit_zero origin2]
  simp only [View.ld_unit_zero (S := S2000x128) origin2, View.ld_unit_zero (S := S2000x12) origin2, View.ld_unit_zero (S := S265x128) origin2,
    View.ld_unit_zero (S := S1x128) origin2, View.ld_unit_zero (S := S128x128) origin2, View.ld_unit_zero (S := S128x1) origin2,
    View.ld_unit_zero (S := S1x1) origin2]

/-- The one store into each output buffer is the whole buffer. -/
theorem coversM (p : Vec F S2000x128 .f32) (y : S2000x128.Idx) :
    ∃ pc ∈ ([⟨(Rect.unit (s := S2000x128) ![0, 0] S2000x128.size inb_S2000x128_S2000x128_0_0), p⟩] : List (View.Piece (Elt F) S2000x128 .f32)), y ∈ pc.1.set :=
  View.cover_of_tiled [⟨(Rect.unit (s := S2000x128) ![0, 0] S2000x128.size inb_S2000x128_S2000x128_0_0), p⟩] S2000x128.size (by rfl) y

theorem coversT (p : Vec F S2000x3 .f32) (y : S2000x3.Idx) :
    ∃ pc ∈ ([⟨(Rect.unit (s := S2000x3) ![0, 0] S2000x3.size inb_S2000x3_S2000x3_0_0), p⟩] : List (View.Piece (Elt F) S2000x3 .f32)), y ∈ pc.1.set :=
  View.cover_of_tiled [⟨(Rect.unit (s := S2000x3) ![0, 0] S2000x3.size inb_S2000x3_S2000x3_0_0), p⟩] S2000x3.size (by rfl) y

/-! ## The body's triple -/

set_option maxHeartbeats 1000000 in
/-- The kernel body on whole staging memrefs, the ten inputs' at read contents `x0 … x9` and the two outputs' at anything,
    runs to the continuation holding the inputs' as they were and the outputs' at the messages and the scaled position
    differences computed from `x0 … x9`. -/
theorem sound_kernel0 (c : Dev nD) (E : Set ℕ) (i : grid0.Coords) (a0 : Memref sig .tc .vmem S2000x128 .f32) (h0 : a0.IsWhole) (a1 : Memref sig .tc .vmem S2000x128 .f32) (h1 : a1.IsWhole) (a2 : Memref sig .tc .vmem S2000x12 .f32) (h2 : a2.IsWhole) (a3 : Memref sig .tc .vmem S265x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S128x1 .f32) (h7 : a7.IsWhole) (a8 : Memref sig .tc .vmem S1x1 .f32) (h8 : a8.IsWhole) (a9 : Memref sig .tc .vmem S128x1 .f32) (h9 : a9.IsWhole) (a10 : Memref sig .tc .vmem S2000x128 .f32) (h10 : a10.IsWhole) (a11 : Memref sig .tc .vmem S2000x3 .f32) (h11 : a11.IsWhole)
    (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) (x9 : Vec F S128x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
        ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
            ∗ owns (c : Thread nD τ) a10 fullShare (blkM x0 x1 x2 x3 x4 x5 x6 x7 x8) ∗ owns (c : Thread nD τ) a11 fullShare (blkT x0 x1 x2 x3 x4 x5 x6 x7 x8 x9)) -∗ K ⟨⟩))
      ⊢ wp frame (wpE (defs₀ (F := F)) Variants.none c none) E (cc0__edge_kernel i a0 h0 a1 h1 a2 h2 a3 h3 a4 h4 a5 h5 a6 h6 a7 h7 a8 h8 a9 h9 a10 h10 a11 h11) K := by
  simp only [cc0__edge_kernel_eq_skeleton, ← leftM_eq, ← leftT_eq]; unfold cc0__edge_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, Hk⟩
  subst e0 e1 e2 e3 e4 e5 e6 e7 e8 e9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (coversM _)
  iexists _; isplitr
  swap; · iexact H11
  ipureintro
  exact View.read_writes_eq_canon _ _ _ (coversT _)

/-! ## The body obligation, at a generic point -/

/-- What the body is called with at point `t`: the invariant, the core's debt, every window's current buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: the same, every current buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the ten input buffers hold their blocks, so the body's triple applies at the blocks; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [finds0_0, finds0_1, finds0_2, finds0_3, finds0_4, finds0_5, finds0_6, finds0_7, finds0_8, finds0_9]
  rw [show (dat0 V c).Φ t.succ = (dat0 V c).Φ t.castSucc from rfl,
    show (dat0 V c).owesAt () t.succ = (dat0 V c).owesAt () t.castSucc from rfl,
    stays0_0, stays0_1, stays0_2, stays0_3, stays0_4, stays0_5, stays0_6, stays0_7, stays0_8, stays0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The node kernel's pallas_call (region 1 of the program) at a parameter `V`, the buffer contents the region is entered from:
  each window's block at a grid point, what one run of the kernel body leaves in its output block as a function of the six
  input blocks, the body's triple, and the pipeline's proof data with its body obligation.
-/
import proofs.«406677_j84052509983239_1_alg».proof.Proof.Gen.Kernel.Launch
import proofs.«406677_j84052509983239_1_alg».proof.Proof.Gen.Kernel.Skeleton
import proofs.«406677_j84052509983239_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of updated node features one run of the body computes from its input blocks. -/
def blkH (x0 x1 : Vec F S2000x128 .f32) (x2 : Vec F S256x128 .f32) (x3 : Vec F S1x128 .f32) (x4 : Vec F S128x128 .f32)
    (x5 : Vec F S1x128 .f32) : Vec F S2000x128 .f32 :=
  k1_pay1 x0 x1 x2 x3 x4 x5

/-- The proof data of pipeline 1 on core `c`: the arrays as the region finds them; after the body at point `t` each input's
    buffer at its block and the output's at the body's term of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => blkH (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_6 (c : Dev nD) (t : Fin cfg1.N) : (dat1 V c).after 6 t
    = blkH (iblk1 V c 0 t) (iblk1 V c 1 t) (iblk1 V c 2 t) (iblk1 V c 3 t) (iblk1 V c 4 t) (iblk1 V c 5 t) := by
  dsimp only [dat1]

/-! ## What the body leaves in the windows it only reads -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-! ## Each input's staging buffer holds its block -/

/-- The block of the proof data's array of window `w` at point `t` is the block read off the region-entry contents. -/
theorem arrBlock1 (c : Dev nD) (w : Fin cfg1.W) (t : Fin cfg1.N) : (dat1 V c).blockOf w t = iblk1 V c w t := by
  unfold Dat.blockOf iblk1
  rw [A_eq1]

/-! An input window is never idle and never cut, and the body leaves every input block as it found it. So at each point the
  window's current buffer holds the block of its array there: where the point fetches it, because the fetch has landed; where
  it does not, because the block index has not moved since the point that did. An uncut window's fetch fills the whole
  buffer, so what the buffer held before does not show. -/

theorem held1_0 (c : Dev nD) (t : Fin cfg1.N) (d) : (dat1 V c).before 0 t d = iblk1 V c 0 t := by
  rw [(dat1 V c).before_in_eq_fetched 0 rfl (fun _ => rfl) (fun _ _ _ => rfl) (fun s => by rw [after1_0, arrBlock1]) t d]
  exact arrBlock1 V c 0 t
theorem held1_1 (c : Dev nD) (t : Fin cfg1.N) (d) : (dat1 V c).before 1 t d = iblk1 V c 1 t := by
  rw [(dat1 V c).before_in_eq_fetched 1 rfl (fun _ => rfl) (fun _ _ _ => rfl) (fun s => by rw [after1_1, arrBlock1]) t d]
  exact arrBlock1 V c 1 t
theorem held1_2 (c : Dev nD) (t : Fin cfg1.N) (d) : (dat1 V c).before 2 t d = iblk1 V c 2 t := by
  rw [(dat1 V c).before_in_eq_fetched 2 rfl (fun _ => rfl) (fun _ _ _ => rfl) (fun s => by rw [after1_2, arrBlock1]) t d]
  exact arrBlock1 V c 2 t
theorem held1_3 (c : Dev nD) (t : Fin cfg1.N) (d) : (dat1 V c).before 3 t d = iblk1 V c 3 t := by
  rw [(dat1 V c).before_in_eq_fetched 3 rfl (fun _ => rfl) (fun _ _ _ => rfl) (fun s => by rw [after1_3, arrBlock1]) t d]
  exact arrBlock1 V c 3 t
theorem held1_4 (c : Dev nD) (t : Fin cfg1.N) (d) : (dat1 V c).before 4 t d = iblk1 V c 4 t := by
  rw [(dat1 V c).before_in_eq_fetched 4 rfl (fun _ => rfl) (fun _ _ _ => rfl) (fun s => by rw [after1_4, arrBlock1]) t d]
  exact arrBlock1 V c 4 t
theorem held1_5 (c : Dev nD) (t : Fin cfg1.N) (d) : (dat1 V c).before 5 t d = iblk1 V c 5 t := by
  rw [(dat1 V c).before_in_eq_fetched 5 rfl (fun _ => rfl) (fun _ _ _ => rfl) (fun s => by rw [after1_5, arrBlock1]) t d]
  exact arrBlock1 V c 5 t

/-! ## The rectangles the body reads and writes: each buffer whole -/

theorem zeroOff1 : (![0, 0] : Fin 2 → Nat) = fun _ => 0 := funext fun a => by fin_cases a <;> rfl

abbrev rNode1 : Rect S2000x128 := Rect.unit (s := S2000x128) ![0, 0] S2000x128.size inb_S2000x128_S2000x128_0_0
abbrev rWa1 : Rect S256x128 := Rect.unit (s := S256x128) ![0, 0] S256x128.size inb_S256x128_S256x128_0_0
abbrev rRow1 : Rect S1x128 := Rect.unit (s := S1x128) ![0, 0] S1x128.size inb_S1x128_S1x128_0_0
abbrev rWb1 : Rect S128x128 := Rect.unit (s := S128x128) ![0, 0] S128x128.size inb_S128x128_S128x128_0_0

/-- The output buffer after the body, as its one store leaves it: the store's payload, computed from what the six loads read. -/
def stored1 (x0 x1 : Vec F S2000x128 .f32) (x2 : Vec F S256x128 .f32) (x3 : Vec F S1x128 .f32) (x4 : Vec F S128x128 .f32)
    (x5 : Vec F S1x128 .f32) : Vec F S2000x128 .f32 :=
  View.canon [⟨rNode1, k1_pay1 (View.ld x0 rNode1) (View.ld x1 rNode1) (View.ld x2 rWa1) (View.ld x3 rRow1) (View.ld x4 rWb1) (View.ld x5 rRow1)⟩]

/-- The one store writes the whole buffer: every index of the buffer is in its rectangle. -/
theorem stored1_covers (p : Vec F S2000x128 .f32) (y : S2000x128.Idx) :
    ∃ pc ∈ ([⟨rNode1, p⟩] : List (View.Piece (Elt F) S2000x128 .f32)), y ∈ pc.1.set :=
  ⟨⟨rNode1, p⟩, List.mem_singleton_self _, View.mem_set_unit_zero (S := S2000x128) zeroOff1 inb_S2000x128_S2000x128_0_0 y⟩

/-- Every load reads its buffer whole and the store writes its buffer whole, so the output buffer ends at the body's term of
    the input buffers' contents. -/
theorem stored1_eq (x0 x1 : Vec F S2000x128 .f32) (x2 : Vec F S256x128 .f32) (x3 : Vec F S1x128 .f32) (x4 : Vec F S128x128 .f32)
    (x5 : Vec F S1x128 .f32) : stored1 x0 x1 x2 x3 x4 x5 = blkH x0 x1 x2 x3 x4 x5 := by
  unfold stored1 blkH
  rw [View.canon_unit_zero zeroOff1]
  simp only [View.ld_unit_zero (S := S2000x128) zeroOff1, View.ld_unit_zero (S := S256x128) zeroOff1,
    View.ld_unit_zero (S := S1x128) zeroOff1, View.ld_unit_zero (S := S128x128) zeroOff1]

/-! ## The body's triple -/

set_option maxHeartbeats 1000000 in
/-- The kernel body on whole staging buffers, the six inputs' at contents `x0 … x5` and the output's at anything, runs to a
    continuation that holds the inputs' as they were and the output's at `stored1` of the inputs'. -/
theorem node_kernel_triple (c : Dev nD) (E : Set ℕ) (i : grid1.Coords) (a0 : Memref sig .tc .vmem S2000x128 .f32) (ha0 : a0.IsWhole) (a1 : Memref sig .tc .vmem S2000x128 .f32) (ha1 : a1.IsWhole) (a2 : Memref sig .tc .vmem S256x128 .f32) (ha2 : a2.IsWhole) (a3 : Memref sig .tc .vmem S1x128 .f32) (ha3 : a3.IsWhole) (a4 : Memref sig .tc .vmem S128x128 .f32) (ha4 : a4.IsWhole) (a5 : Memref sig .tc .vmem S1x128 .f32) (ha5 : a5.IsWhole) (a6 : Memref sig .tc .vmem S2000x128 .f32) (ha6 : a6.IsWhole)
    (x0 x1 : Vec F S2000x128 .f32) (x2 : Vec F S256x128 .f32) (x3 : Vec F S1x128 .f32) (x4 : Vec F S128x128 .f32)
    (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (stored1 x0 x1 x2 x3 x4 x5)) -∗ K ⟨⟩))
      ⊢ wp frame (wpE (defs₀ (F := F)) Variants.none c none) E (cc1__node_kernel i a0 ha0 a1 ha1 a2 ha2 a3 ha3 a4 ha4 a5 ha5 a6 ha6) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored1_covers _)

/-! ## The body obligation at one point -/

/-- What the body is handed at point `t`: the invariant, the core's debt, and each window's current staging buffer. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. Each input's buffer holds its block, so the triple applies at the six input blocks; the invariant
    and the core's debt are not touched; the output's buffer ends at the body's term of the input blocks. -/
theorem node_body_at (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2, held1_3, held1_4, held1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, ← stored1_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (node_kernel_triple c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact node_body_at V c t

end Cert.Kernel.Hand

end
-- ==== Proof.K.Regs.lean ====
/-
  The whole program run, region by region. Between two items of the program core c holds every unscoped buffer whole: the
  launch contents, then each host stretch's operations applied in order, then what a pallas_call's write-backs leave in its
  output arrays (every other buffer as entered). Each pallas_call is entered from those contents and left at the next ones; the
  run ends with every unscoped buffer at the last contents, so the arguments end as launched and each result holds what the
  items computed.
-/
import proofs.«406677_j84052509983239_1_alg».proof.Proof.Gen.Kernel.Regions
import proofs.«406677_j84052509983239_1_alg».proof.Proof.K.Body0
import proofs.«406677_j84052509983239_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s unscoped buffers when the edge kernel's pallas_call returns: each of its arrays at what the write-backs
    leave (an input array as entered), every other buffer as entered. -/
def rg_W7 (c : Dev nD) : Valuation τ sig (Elt F) :=
  Pipeline.withArrays spec0 c (V6 m c) fun w => (dat0 (fun c b => V6 m c b) c).arrAt w cfg0.N

/-- What the edge kernel's pallas_call leaves, as unknowns of the boundary contents. -/
def rg_outs7 : Outs (F := F) := fun _ r c => rg_W7 m c r

/-- Core `c`'s unscoped buffers when the node kernel's pallas_call returns: each of its arrays at what the write-backs
    leave (an input array as entered), every other buffer as entered. -/
def rg_W9 (c : Dev nD) : Valuation τ sig (Elt F) :=
  Pipeline.withArrays spec1 c (V8 m (rg_outs7 m) c) fun w => (dat1 (fun c b => V8 m (rg_outs7 m) c b) c).arrAt w cfg1.N

/-- What the two pallas_calls leave in the arrays they write, as the unknowns of the boundary contents. -/
def outs : Outs (F := F) := fun J r c => if J = 7 then rg_W7 m c r else rg_W9 m c r

/-- The contents the edge kernel's pallas_call is entered from, read at the TensorCore's references. -/
abbrev VR0 : (c : Dev nD) → (b : Ref sig .tc) → Buf (Elt F) ((c : Thread nD τ).loc b) := fun c b => V6 m c b
/-- The contents the node kernel's pallas_call is entered from, read at the TensorCore's references. -/
abbrev VR1 : (c : Dev nD) → (b : Ref sig .tc) → Buf (Elt F) ((c : Thread nD τ).loc b) := fun c b => V8 m (outs m) c b

theorem rg_W7_arr (c : Dev nD) (w : Fin cfg0.W) :
    rg_W7 m c (Proc.devRef .tc (Pipeline.arrRef spec0 w)) = (dat0 (VR0 m) c).arrAt w cfg0.N := by
  unfold rg_W7; exact Pipeline.withArrays_arr spec0 launch0.win.arr_inj c _ _ w
theorem rg_W7_of_ne (c : Dev nD) (b : Ref sig .tc) (hb : ∀ w, Pipeline.arrRef spec0 w ≠ b) :
    rg_W7 m c (Proc.devRef .tc b) = V6 m c (Proc.devRef .tc b) := by
  unfold rg_W7; exact Pipeline.withArrays_of_ne spec0 c _ _ b hb
theorem rg_W9_arr (c : Dev nD) (w : Fin cfg1.W) :
    rg_W9 m c (Proc.devRef .tc (Pipeline.arrRef spec1 w)) = (dat1 (VR1 m) c).arrAt w cfg1.N := by
  unfold rg_W9; exact Pipeline.withArrays_arr spec1 launch1.win.arr_inj c _ _ w
theorem rg_W9_of_ne (c : Dev nD) (b : Ref sig .tc) (hb : ∀ w, Pipeline.arrRef spec1 w ≠ b) :
    rg_W9 m c (Proc.devRef .tc b) = V8 m (outs m) c (Proc.devRef .tc b) := by
  unfold rg_W9; exact Pipeline.withArrays_of_ne spec1 c _ _ b hb

/-- After the edge kernel's pallas_call the message array holds what its write-backs leave. -/
theorem outs_7_v18_0 (c : Dev nD) : outs m 7 main_v18_0 c = (dat0 (VR0 m) c).arrAt 10 cfg0.N := rg_W7_arr m c 10
/-- After the edge kernel's pallas_call the position-update array holds what its write-backs leave. -/
theorem outs_7_v18_1 (c : Dev nD) : outs m 7 main_v18_1 c = (dat0 (VR0 m) c).arrAt 11 cfg0.N := rg_W7_arr m c 11
/-- After the node kernel's pallas_call the feature array holds what its write-backs leave. -/
theorem outs_9_v34 (c : Dev nD) : outs m 9 main_v34 c = (dat1 (VR1 m) c).arrAt 6 cfg1.N := rg_W9_arr m c 6

/-! ## What a pallas_call leaves in each buffer -/

theorem rg_V7_v18_0 (o : Outs (F := F)) (c : Dev nD) : V7 m o c main_v18_0 = o 7 main_v18_0 c := by
  simp only [V7]
  rw [Function.update_of_ne (StableHlo.devRef_ne_of_ne (by decide) : (Proc.devRef .tc main_v18_0 : DevRef τ sig) ≠ Proc.devRef .tc main_v18_1),
    Function.update_self]
theorem rg_V7_v18_1 (o : Outs (F := F)) (c : Dev nD) : V7 m o c main_v18_1 = o 7 main_v18_1 c := by
  simp only [V7]
  rw [Function.update_self]
theorem rg_V9_v34 (o : Outs (F := F)) (c : Dev nD) : V9 m o c main_v34 = o 9 main_v34 c := by
  simp only [V9]
  rw [Function.update_self]

set_option maxHeartbeats 4000000 in
/-- When the edge kernel's pallas_call returns, each of its arrays holds what the write-backs leave: an input array what
    it held at entry, the two output arrays the boundary's unknowns. -/
theorem rg_hF0 (c : Dev nD) (w : Fin cfg0.W) : (dat0 (VR0 m) c).arrAt w cfg0.N = V7 m (outs m) c (Pipeline.arrRef spec0 w) := by
  have hin : ∀ (w : Fin cfg0.W) (hw : (cfg0.win w).isOut = false), Pipeline.arrRef spec0 w ∉ ([main_v18_0, main_v18_1] : List (Ref sig .tc)) →
      (dat0 (VR0 m) c).arrAt w cfg0.N = V7 m (outs m) c (Pipeline.arrRef spec0 w) := fun w hw hne =>
    (((dat0 (VR0 m) c).arrAt_in w hw _).trans (A_eq0 (VR0 m) c w)).trans (V7_of m (outs m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact hin 8 rfl (by decide)
  | ⟨9, _⟩ => exact hin 9 rfl (by decide)
  | ⟨10, _⟩ => exact ((rg_V7_v18_0 m (outs m) c).trans (outs_7_v18_0 m c)).symm
  | ⟨11, _⟩ => exact ((rg_V7_v18_1 m (outs m) c).trans (outs_7_v18_1 m c)).symm
/-- Every buffer that is no array of the edge kernel's pallas_call is as entered. -/
theorem rg_hrest0 (c : Dev nD) : ∀ b : Ref sig .tc, b ∉ Finset.univ.image (Pipeline.arrRef spec0) → V7 m (outs m) c b = V6 m c b :=
  fun b hb => V7_of m (outs m) c b fun hm => hb (by
    rcases List.mem_cons.mp hm with rfl | hm
    · exact Finset.mem_image.mpr ⟨10, Finset.mem_univ _, rfl⟩
    · rcases List.mem_cons.mp hm with rfl | hm
      · exact Finset.mem_image.mpr ⟨11, Finset.mem_univ _, rfl⟩
      · exact absurd hm (List.not_mem_nil))

set_option maxHeartbeats 4000000 in
/-- When the node kernel's pallas_call returns, each of its arrays holds what the write-backs leave: an input array what
    it held at entry, the output array the boundary's unknown. -/
theorem rg_hF1 (c : Dev nD) (w : Fin cfg1.W) : (dat1 (VR1 m) c).arrAt w cfg1.N = V9 m (outs m) c (Pipeline.arrRef spec1 w) := by
  have hin : ∀ (w : Fin cfg1.W) (hw : (cfg1.win w).isOut = false), Pipeline.arrRef spec1 w ∉ ([main_v34] : List (Ref sig .tc)) →
      (dat1 (VR1 m) c).arrAt w cfg1.N = V9 m (outs m) c (Pipeline.arrRef spec1 w) := fun w hw hne =>
    (((dat1 (VR1 m) c).arrAt_in w hw _).trans (A_eq1 (VR1 m) c w)).trans (V9_of m (outs m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact ((rg_V9_v34 m (outs m) c).trans (outs_9_v34 m c)).symm
/-- Every buffer that is no array of the node kernel's pallas_call is as entered. -/
theorem rg_hrest1 (c : Dev nD) : ∀ b : Ref sig .tc, b ∉ Finset.univ.image (Pipeline.arrRef spec1) → V9 m (outs m) c b = V8 m (outs m) c b :=
  fun b hb => V9_of m (outs m) c b fun hm => hb (by
    rcases List.mem_cons.mp hm with rfl | hm
    · exact Finset.mem_image.mpr ⟨6, Finset.mem_univ _, rfl⟩
    · exact absurd hm (List.not_mem_nil))

/-! ## The proof data and what rides beside the buffers -/

/-- Each pallas_call's proof data, at the contents it is entered from. -/
def rg_pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c
/-- No core owes another anything: no level is assigned. -/
abbrev rg_Lv : GSem nD τ sig → Finset Unit := fun _ => ∅
abbrev rg_lvl : GSem nD τ sig → Unit → ℕ := fun _ _ => 0
/-- What rides beside the buffers through every item: the core's generator register at some state and the core owing
    nothing. -/
abbrev rg_R (c : Dev nD) : sProp 𝕄 := iprop((∃ r, prngReg c r) ∗ ∃ W, owes (c : Thread nD τ) (0 : CellTallies nD τ sig Unit) W)
/-- The same rest between any two items. -/
abbrev rg_ER : Fin 3 → Dev nD → sProp 𝕄 := fun _ c => rg_R c

/-! ## The two pallas_calls over the boundary contents -/

set_option backward.isDefEq.respectTransparency.types false in
/-- The edge kernel's pallas_call: entered from every unscoped buffer at the contents after the sixth host stretch, left with
    its two output arrays at what the write-backs leave and every other buffer as entered. Its arrays are split out of the
    unscoped buffers at entry and put back at the exit contents; the generator register goes into the pipeline's invariant
    and comes back; nothing is owed; the kernel has no semaphore of its own. -/
def rg_reg0 : Pipeline.RegionSeg (pcfgs (F := F)) adm (rg_pdats m) () defs₀ Variants.none rg_Lv rg_lvl 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ rg_Lv rg_lvl 0 fun _ _ => rfl
  pre c := iprop(StableHlo.held (c : Thread nD τ) (Pipeline.ucRefs τ sig) (V6 m c) ∗ rg_R c)
  post c := iprop(StableHlo.held (c : Thread nD τ) (Pipeline.ucRefs τ sig) (V7 m (outs m) c) ∗ rg_R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (rg_pdats m) launch0.win launch0.arr_whole c
      ((rg_pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rg_pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rg_pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (rg_pdats m) ((rg_pdats m 0 c).share_full fun _ => rfl)
      (VR0 m c) (fun b => V7 m (outs m) c b) ((rg_pdats m 0 c).arrAt · cfg0.N) (rg_hF0 m c) (rg_hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node kernel's pallas_call: entered from every unscoped buffer at the contents after the last host stretch, left with
    its output array at what the write-backs leave and every other buffer as entered. -/
def rg_reg1 : Pipeline.RegionSeg (pcfgs (F := F)) adm (rg_pdats m) () defs₀ Variants.none rg_Lv rg_lvl 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ rg_Lv rg_lvl 1 fun _ _ => rfl
  pre c := iprop(StableHlo.held (c : Thread nD τ) (Pipeline.ucRefs τ sig) (V8 m (outs m) c) ∗ rg_R c)
  post c := iprop(StableHlo.held (c : Thread nD τ) (Pipeline.ucRefs τ sig) (V9 m (outs m) c) ∗ rg_R c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (rg_pdats m) launch1.win launch1.arr_whole c
      ((rg_pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rg_pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rg_pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (rg_pdats m) ((rg_pdats m 1 c).share_full fun _ => rfl)
      (VR1 m c) (fun b => V9 m (outs m) c b) ((rg_pdats m 1 c).arrAt · cfg1.N) (rg_hF1 m c) (rg_hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the end -/

/-- The launch's ghost element is the pipelines' own; no further ghost resource is dealt to a core. -/
theorem rg_launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core has its generator register and owes nothing: the rest that rides beside the buffers. -/
theorem rg_rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts rg_Lv rg_lvl)
      ⊢ (|={Set.univ}=> bigSep Finset.univ (rg_ER (F := F) 0) : sProp 𝕄) := by
  refine Pipeline.initEach rg_Lv rg_lvl fun c => ?_
  iintro ⟨⟨-, HO, -, Hp, -⟩, -⟩
  imodintro
  isplitl [Hp]; · iexists _; iexact Hp
  iexists ∅; iexact HO

/-- At the end the rest still says the core owes nothing. -/
theorem rg_rest_end (c : Dev nD) :
    rg_ER (F := F) 2 c ⊢ (iprop(∃ W, owes (c : Thread nD τ) (0 : CellTallies nD τ sig Unit) W) : sProp 𝕄) := by
  iintro ⟨-, HO⟩; iexact HO

/-- Every weakly fair execution terminates without fault and ends with the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond m emb₁ () Variants.none rg_Lv rg_lvl (fun _ _ => rfl) ρ (outs m) (rg_pdats m) 0 (fun _ => iprop(emp))
    (initOf (Pipeline.cells cfgs cellOf_inj) (Pipeline.launchToks cfgs cellOf_inj)) rg_launch_own
    rg_ER (rg_rest_init ρ) rg_rest_end
    (rg_reg0 m) (fun _ => .rfl) (fun _ => .rfl) (rg_reg1 m) (fun _ => .rfl) (fun _ => .rfl)

/-! ## The run, read at every unscoped buffer -/

set_option backward.isDefEq.respectTransparency.types false in
/-- The run over any rest states and any region records pinned to the boundary contents: every weakly fair execution
    terminates and ends with every unscoped buffer of every core at the last boundary's contents. The items chain from the
    launch contents to the last; at the end the buffers held at the last contents are read against the final memory. -/
theorem rg_run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (o : Outs (F := F))
    (pd : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : Pipeline.RegionSeg (pcfgs (F := F)) adm pd ι defs₀ 𝒱₀ L lv 0)
    (hpre0 : ∀ c : Dev nD, iprop(StableHlo.held (c : Thread nD τ) (Pipeline.ucRefs τ sig) (V6 m c) ∗ E 0 c) ⊢ R0.pre c)
    (hpost0 : ∀ c : Dev nD, R0.post c ⊢ iprop(StableHlo.held (c : Thread nD τ) (Pipeline.ucRefs τ sig) (V7 m o c) ∗ E 1 c))
    (R1 : Pipeline.RegionSeg (pcfgs (F := F)) adm pd ι defs₀ 𝒱₀ L lv 1)
    (hpre1 : ∀ c : Dev nD, iprop(StableHlo.held (c : Thread nD τ) (Pipeline.ucRefs τ sig) (V8 m o c) ∗ E 1 c) ⊢ R1.pre c)
    (hpost1 : ∀ c : Dev nD, R1.post c ⊢ iprop(StableHlo.held (c : Thread nD τ) (Pipeline.ucRefs τ sig) (V9 m o c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V9 m o c b) := by
  refine Pipeline.θ_run_regions_kit_dev (pcfgs (F := F)) adm pd ι cellOf_inj EP defs₀ 𝒱₀ L lv m ρ main
    (segs m o 𝒱₀ L lv E ι pd R0 R1)
    (fun c Q => by
      rewrite [main_chain c, Pipeline.Seg.run_eq_chain,
        show (segs m o 𝒱₀ L lv E ι pd R0 R1 c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m o c))
    (hch := fun c => ⟨.rfl, .rfl, .rfl, .rfl, .rfl, .rfl, hpre0 c, hpost0 c, hpre1 c, (hpost1 c).trans (sep_mono .rfl (hE2 c))⟩)
    (hinit := ?_) (QY := fun c s => ∀ b ∈ Pipeline.ucRefs τ sig, s.mem ((c : Thread nD τ).1, b) = V9 m o c b)
    (hfin := fun c s' => ?_) (hQ := fun _ h => h)
  · -- the launch: the unscoped buffers are held at the launch contents; the rest is made on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last contents
    unfold StableHlo.held
    iintro ⟨Hh, HSI⟩
    imodintro
    iapply (pointsTo_read_all (Pipeline.ucRefs τ sig) (fun b => ((c : Thread nD τ).1, b)) (V9 m o c) s')
    isplitl [Hh] <;> iassumption

/-- Every weakly fair execution terminates without fault and ends with every unscoped buffer at the last boundary's contents. -/
theorem run_vals (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V9 m (outs m) c b) :=
  rg_run_cond m emb₁ () Variants.none rg_Lv rg_lvl (fun _ _ => rfl) ρ (outs m) (rg_pdats m) 0 (fun _ => iprop(emp))
    (initOf (Pipeline.cells cfgs cellOf_inj) (Pipeline.launchToks cfgs cellOf_inj)) rg_launch_own
    rg_ER (rg_rest_init ρ) rg_rest_end
    (rg_reg0 m) (fun _ => .rfl) (fun _ => .rfl) (rg_reg1 m) (fun _ => .rfl) (fun _ => .rfl)

end Cert.Kernel.Hand

end
-- ==== Proof.KI.Body0.lean ====
/-
  The edge kernel's pallas_call (region 0 of the program) at a parameter `V`, the buffer contents the region is entered from:
  each window's block at a grid point, what one run of the kernel body leaves in its two output blocks as a function of the
  ten input blocks, the body's triple, and the pipeline's proof data with its body obligation.
-/
import proofs.«406677_j84052509983239_1_alg».proof.Proof.Gen.KernelIdeal.Launch
import proofs.«406677_j84052509983239_1_alg».proof.Proof.Gen.KernelIdeal.Skeleton
import proofs.«406677_j84052509983239_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of messages one run of the body computes from its input blocks: the body's arithmetic as one term. -/
def blkM (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) : Vec F S2000x128 .f32 :=
  k0_pay1 (k0_pay5 x0 x1 x2 x3 x4 x5 x6) (k0_pay6 x0 x1 x2 x3 x4 x5 x6) (k0_pay7 x7) (k0_pay8 x8) (constant S2000x1 .f32 0x00000000#32)

/-- The block of scaled position differences one run of the body computes from its input blocks. -/
def blkT (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) (x9 : Vec F S128x1 .f32) : Vec F S2000x3 .f32 :=
  k0_pay2 (k0_pay4 x2) (k0_pay5 x0 x1 x2 x3 x4 x5 x6) (k0_pay6 x0 x1 x2 x3 x4 x5 x6) (k0_pay7 x7) (k0_pay8 x8) (constant S2000x1 .f32 0x00000000#32) x9

/-- The proof data of pipeline 0 on core `c`: the arrays as the region finds them; after the body at point `t` each input's
    buffer at its block and each output's at the body's term of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => blkM (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => blkT (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_10 (c : Dev nD) (t : Fin cfg0.N) : (dat0 V c).after 10 t
    = blkM (iblk0 V c 0 t) (iblk0 V c 1 t) (iblk0 V c 2 t) (iblk0 V c 3 t) (iblk0 V c 4 t) (iblk0 V c 5 t) (iblk0 V c 6 t) (iblk0 V c 7 t) (iblk0 V c 8 t) := by
  dsimp only [dat0]
theorem after0_11 (c : Dev nD) (t : Fin cfg0.N) : (dat0 V c).after 11 t
    = blkT (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by
  dsimp only [dat0]

/-! ## The input windows keep their blocks -/

theorem stays0_0 (c : Dev nD) (t : Fin cfg0.N) : (dat0 V c).after 0 t = iblk0 V c 0 t := by dsimp only [dat0]
theorem stays0_1 (c : Dev nD) (t : Fin cfg0.N) : (dat0 V c).after 1 t = iblk0 V c 1 t := by dsimp only [dat0]
theorem stays0_2 (c : Dev nD) (t : Fin cfg0.N) : (dat0 V c).after 2 t = iblk0 V c 2 t := by dsimp only [dat0]
theorem stays0_3 (c : Dev nD) (t : Fin cfg0.N) : (dat0 V c).after 3 t = iblk0 V c 3 t := by dsimp only [dat0]
theorem stays0_4 (c : Dev nD) (t : Fin cfg0.N) : (dat0 V c).after 4 t = iblk0 V c 4 t := by dsimp only [dat0]
theorem stays0_5 (c : Dev nD) (t : Fin cfg0.N) : (dat0 V c).after 5 t = iblk0 V c 5 t := by dsimp only [dat0]
theorem stays0_6 (c : Dev nD) (t : Fin cfg0.N) : (dat0 V c).after 6 t = iblk0 V c 6 t := by dsimp only [dat0]
theorem stays0_7 (c : Dev nD) (t : Fin cfg0.N) : (dat0 V c).after 7 t = iblk0 V c 7 t := by dsimp only [dat0]
theorem stays0_8 (c : Dev nD) (t : Fin cfg0.N) : (dat0 V c).after 8 t = iblk0 V c 8 t := by dsimp only [dat0]
theorem stays0_9 (c : Dev nD) (t : Fin cfg0.N) : (dat0 V c).after 9 t = iblk0 V c 9 t := by dsimp only [dat0]

/-- The body finds window 0's block in its current buffer at every point: where it was not fetched the block index has not moved. -/
theorem finds0_0 (c : Dev nD) (t : Fin cfg0.N) (d) : (dat0 V c).before 0 t d = iblk0 V c 0 t :=
  ((dat0 V c).before_in_eq_fetched 0 rfl (fun _ => rfl) (fun _ _ _ => rfl)
    (fun t => by rw [stays0_0]; unfold Dat.blockOf iblk0; rw [A_eq0]; try rfl) t d).trans
    (by unfold Dat.fetched Dat.blockOf iblk0; rw [A_eq0]; try rfl)
/-- The body finds window 1's block in its current buffer at every point: where it was not fetched the block index has not moved. -/
theorem finds0_1 (c : Dev nD) (t : Fin cfg0.N) (d) : (dat0 V c).before 1 t d = iblk0 V c 1 t :=
  ((dat0 V c).before_in_eq_fetched 1 rfl (fun _ => rfl) (fun _ _ _ => rfl)
    (fun t => by rw [stays0_1]; unfold Dat.blockOf iblk0; rw [A_eq0]; try rfl) t d).trans
    (by unfold Dat.fetched Dat.blockOf iblk0; rw [A_eq0]; try rfl)
/-- The body finds window 2's block in its current buffer at every point: where it was not fetched the block index has not moved. -/
theorem finds0_2 (c : Dev nD) (t : Fin cfg0.N) (d) : (dat0 V c).before 2 t d = iblk0 V c 2 t :=
  ((dat0 V c).before_in_eq_fetched 2 rfl (fun _ => rfl) (fun _ _ _ => rfl)
    (fun t => by rw [stays0_2]; unfold Dat.blockOf iblk0; rw [A_eq0]; try rfl) t d).trans
    (by unfold Dat.fetched Dat.blockOf iblk0; rw [A_eq0]; try rfl)
/-- The body finds window 3's block in its current buffer at every point: where it was not fetched the block index has not moved. -/
theorem finds0_3 (c : Dev nD) (t : Fin cfg0.N) (d) : (dat0 V c).before 3 t d = iblk0 V c 3 t :=
  ((dat0 V c).before_in_eq_fetched 3 rfl (fun _ => rfl) (fun _ _ _ => rfl)
    (fun t => by rw [stays0_3]; unfold Dat.blockOf iblk0; rw [A_eq0]; try rfl) t d).trans
    (by unfold Dat.fetched Dat.blockOf iblk0; rw [A_eq0]; try rfl)
/-- The body finds window 4's block in its current buffer at every point: where it was not fetched the block index has not moved. -/
theorem finds0_4 (c : Dev nD) (t : Fin cfg0.N) (d) : (dat0 V c).before 4 t d = iblk0 V c 4 t :=
  ((dat0 V c).before_in_eq_fetched 4 rfl (fun _ => rfl) (fun _ _ _ => rfl)
    (fun t => by rw [stays0_4]; unfold Dat.blockOf iblk0; rw [A_eq0]; try rfl) t d).trans
    (by unfold Dat.fetched Dat.blockOf iblk0; rw [A_eq0]; try rfl)
/-- The body finds window 5's block in its current buffer at every point: where it was not fetched the block index has not moved. -/
theorem finds0_5 (c : Dev nD) (t : Fin cfg0.N) (d) : (dat0 V c).before 5 t d = iblk0 V c 5 t :=
  ((dat0 V c).before_in_eq_fetched 5 rfl (fun _ => rfl) (fun _ _ _ => rfl)
    (fun t => by rw [stays0_5]; unfold Dat.blockOf iblk0; rw [A_eq0]; try rfl) t d).trans
    (by unfold Dat.fetched Dat.blockOf iblk0; rw [A_eq0]; try rfl)
/-- The body finds window 6's block in its current buffer at every point: where it was not fetched the block index has not moved. -/
theorem finds0_6 (c : Dev nD) (t : Fin cfg0.N) (d) : (dat0 V c).before 6 t d = iblk0 V c 6 t :=
  ((dat0 V c).before_in_eq_fetched 6 rfl (fun _ => rfl) (fun _ _ _ => rfl)
    (fun t => by rw [stays0_6]; unfold Dat.blockOf iblk0; rw [A_eq0]; try rfl) t d).trans
    (by unfold Dat.fetched Dat.blockOf iblk0; rw [A_eq0]; try rfl)
/-- The body finds window 7's block in its current buffer at every point: where it was not fetched the block index has not moved. -/
theorem finds0_7 (c : Dev nD) (t : Fin cfg0.N) (d) : (dat0 V c).before 7 t d = iblk0 V c 7 t :=
  ((dat0 V c).before_in_eq_fetched 7 rfl (fun _ => rfl) (fun _ _ _ => rfl)
    (fun t => by rw [stays0_7]; unfold Dat.blockOf iblk0; rw [A_eq0]; try rfl) t d).trans
    (by unfold Dat.fetched Dat.blockOf iblk0; rw [A_eq0]; try rfl)
/-- The body finds window 8's block in its current buffer at every point: where it was not fetched the block index has not moved. -/
theorem finds0_8 (c : Dev nD) (t : Fin cfg0.N) (d) : (dat0 V c).before 8 t d = iblk0 V c 8 t :=
  ((dat0 V c).before_in_eq_fetched 8 rfl (fun _ => rfl) (fun _ _ _ => rfl)
    (fun t => by rw [stays0_8]; unfold Dat.blockOf iblk0; rw [A_eq0]; try rfl) t d).trans
    (by unfold Dat.fetched Dat.blockOf iblk0; rw [A_eq0]; try rfl)
/-- The body finds window 9's block in its current buffer at every point: where it was not fetched the block index has not moved. -/
theorem finds0_9 (c : Dev nD) (t : Fin cfg0.N) (d) : (dat0 V c).before 9 t d = iblk0 V c 9 t :=
  ((dat0 V c).before_in_eq_fetched 9 rfl (fun _ => rfl) (fun _ _ _ => rfl)
    (fun t => by rw [stays0_9]; unfold Dat.blockOf iblk0; rw [A_eq0]; try rfl) t d).trans
    (by unfold Dat.fetched Dat.blockOf iblk0; rw [A_eq0]; try rfl)

/-! ## What one run of the body leaves in the output buffers -/

/-- The offset of every access of the body: the origin. -/
theorem origin2 : (![0, 0] : Fin 2 → Nat) = fun _ => 0 := funext fun a => by fin_cases a <;> rfl

/-- The messages' buffer after the body: its one store, the payload computed from the loaded blocks. -/
def leftM (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) : Vec F S2000x128 .f32 :=
  View.canon [⟨(Rect.unit (s := S2000x128) ![0, 0] S2000x128.size inb_S2000x128_S2000x128_0_0),
    k0_pay1 (k0_pay5 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x12) ![0, 0] S2000x12.size inb_S2000x12_S2000x12_0_0)) (View.ld x3 (Rect.unit (s := S265x128) ![0, 0] S265x128.size inb_S265x128_S265x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)))
      (k0_pay6 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x12) ![0, 0] S2000x12.size inb_S2000x12_S2000x12_0_0)) (View.ld x3 (Rect.unit (s := S265x128) ![0, 0] S265x128.size inb_S265x128_S265x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)))
      (k0_pay7 (View.ld x7 (Rect.unit (s := S128x1) ![0, 0] S128x1.size inb_S128x1_S128x1_0_0))) (k0_pay8 (View.ld x8 (Rect.unit (s := S1x1) ![0, 0] S1x1.size inb_S1x1_S1x1_0_0))) (constant S2000x1 .f32 0x00000000#32)⟩]

/-- The position differences' buffer after the body: its one store. -/
def leftT (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) (x9 : Vec F S128x1 .f32) : Vec F S2000x3 .f32 :=
  View.canon [⟨(Rect.unit (s := S2000x3) ![0, 0] S2000x3.size inb_S2000x3_S2000x3_0_0),
    k0_pay2 (k0_pay4 (View.ld x2 (Rect.unit (s := S2000x12) ![0, 0] S2000x12.size inb_S2000x12_S2000x12_0_0)))
      (k0_pay5 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x12) ![0, 0] S2000x12.size inb_S2000x12_S2000x12_0_0)) (View.ld x3 (Rect.unit (s := S265x128) ![0, 0] S265x128.size inb_S265x128_S265x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)))
      (k0_pay6 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S2000x12) ![0, 0] S2000x12.size inb_S2000x12_S2000x12_0_0)) (View.ld x3 (Rect.unit (s := S265x128) ![0, 0] S265x128.size inb_S265x128_S265x128_0_0)) (View.ld x4 (Rect.unit (s := S1x128) ![0, 0] S1x128.size inb_S1x128_S1x128_0_0)) (View.ld x5 (Rect.unit (s := S128x128) ![0, 0] S128x128.size inb_S128x128_S128x128_0_0)) (View.ld x6 (Rect.unit (s := S1x128) ![0, 0] S1x128.size inb_S1x128_S1x128_0_0)))
      (k0_pay7 (View.ld x7 (Rect.unit (s := S128x1) ![0, 0] S128x1.size inb_S128x1_S128x1_0_0))) (k0_pay8 (View.ld x8 (Rect.unit (s := S1x1) ![0, 0] S1x1.size inb_S1x1_S1x1_0_0))) (constant S2000x1 .f32 0x00000000#32) (View.ld x9 (Rect.unit (s := S128x1) ![0, 0] S128x1.size inb_S128x1_S128x1_0_0))⟩]

/-- Every load and the store are the whole block, so the store's payload over the blocks themselves is what is left. -/
theorem leftM_eq (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) :
    leftM x0 x1 x2 x3 x4 x5 x6 x7 x8 = blkM x0 x1 x2 x3 x4 x5 x6 x7 x8 := by
  unfold leftM blkM
  rw [View.canon_unit_zero origin2]
  simp only [View.ld_unit_zero (S := S2000x128) origin2, View.ld_unit_zero (S := S2000x12) origin2, View.ld_unit_zero (S := S265x128) origin2,
    View.ld_unit_zero (S := S1x128) origin2, View.ld_unit_zero (S := S128x128) origin2, View.ld_unit_zero (S := S128x1) origin2,
    View.ld_unit_zero (S := S1x1) origin2]

theorem leftT_eq (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) (x9 : Vec F S128x1 .f32) :
    leftT x0 x1 x2 x3 x4 x5 x6 x7 x8 x9 = blkT x0 x1 x2 x3 x4 x5 x6 x7 x8 x9 := by
  unfold leftT blkT
  rw [View.canon_unit_zero origin2]
  simp only [View.ld_unit_zero (S := S2000x128) origin2, View.ld_unit_zero (S := S2000x12) origin2, View.ld_unit_zero (S := S265x128) origin2,
    View.ld_unit_zero (S := S1x128) origin2, View.ld_unit_zero (S := S128x128) origin2, View.ld_unit_zero (S := S128x1) origin2,
    View.ld_unit_zero (S := S1x1) origin2]

/-- The one store into each output buffer is the whole buffer. -/
theorem coversM (p : Vec F S2000x128 .f32) (y : S2000x128.Idx) :
    ∃ pc ∈ ([⟨(Rect.unit (s := S2000x128) ![0, 0] S2000x128.size inb_S2000x128_S2000x128_0_0), p⟩] : List (View.Piece (Elt F) S2000x128 .f32)), y ∈ pc.1.set :=
  View.cover_of_tiled [⟨(Rect.unit (s := S2000x128) ![0, 0] S2000x128.size inb_S2000x128_S2000x128_0_0), p⟩] S2000x128.size (by rfl) y

theorem coversT (p : Vec F S2000x3 .f32) (y : S2000x3.Idx) :
    ∃ pc ∈ ([⟨(Rect.unit (s := S2000x3) ![0, 0] S2000x3.size inb_S2000x3_S2000x3_0_0), p⟩] : List (View.Piece (Elt F) S2000x3 .f32)), y ∈ pc.1.set :=
  View.cover_of_tiled [⟨(Rect.unit (s := S2000x3) ![0, 0] S2000x3.size inb_S2000x3_S2000x3_0_0), p⟩] S2000x3.size (by rfl) y

/-! ## The body's triple -/

set_option maxHeartbeats 1000000 in
/-- The kernel body on whole staging memrefs, the ten inputs' at read contents `x0 … x9` and the two outputs' at anything,
    runs to the continuation holding the inputs' as they were and the outputs' at the messages and the scaled position
    differences computed from `x0 … x9`. -/
theorem sound_kernel0 (c : Dev nD) (E : Set ℕ) (i : grid0.Coords) (a0 : Memref sig .tc .vmem S2000x128 .f32) (h0 : a0.IsWhole) (a1 : Memref sig .tc .vmem S2000x128 .f32) (h1 : a1.IsWhole) (a2 : Memref sig .tc .vmem S2000x12 .f32) (h2 : a2.IsWhole) (a3 : Memref sig .tc .vmem S265x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S128x1 .f32) (h7 : a7.IsWhole) (a8 : Memref sig .tc .vmem S1x1 .f32) (h8 : a8.IsWhole) (a9 : Memref sig .tc .vmem S128x1 .f32) (h9 : a9.IsWhole) (a10 : Memref sig .tc .vmem S2000x128 .f32) (h10 : a10.IsWhole) (a11 : Memref sig .tc .vmem S2000x3 .f32) (h11 : a11.IsWhole)
    (x0 x1 : Vec F S2000x128 .f32) (x2 : Vec F S2000x12 .f32) (x3 : Vec F S265x128 .f32) (x4 : Vec F S1x128 .f32)
    (x5 : Vec F S128x128 .f32) (x6 : Vec F S1x128 .f32) (x7 : Vec F S128x1 .f32) (x8 : Vec F S1x1 .f32) (x9 : Vec F S128x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
        ∗ (∃ d, owns (c : Thread nD τ) a10 fullShare d) ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
            ∗ owns (c : Thread nD τ) a10 fullShare (blkM x0 x1 x2 x3 x4 x5 x6 x7 x8) ∗ owns (c : Thread nD τ) a11 fullShare (blkT x0 x1 x2 x3 x4 x5 x6 x7 x8 x9)) -∗ K ⟨⟩))
      ⊢ wp frame (wpE (defs₀ (F := F)) Variants.none c none) E (cc0__edge_kernel i a0 h0 a1 h1 a2 h2 a3 h3 a4 h4 a5 h5 a6 h6 a7 h7 a8 h8 a9 h9 a10 h10 a11 h11) K := by
  simp only [cc0__edge_kernel_eq_skeleton, ← leftM_eq, ← leftT_eq]; unfold cc0__edge_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, Hk⟩
  subst e0 e1 e2 e3 e4 e5 e6 e7 e8 e9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (coversM _)
  iexists _; isplitr
  swap; · iexact H11
  ipureintro
  exact View.read_writes_eq_canon _ _ _ (coversT _)

/-! ## The body obligation, at a generic point -/

/-- What the body is called with at point `t`: the invariant, the core's debt, every window's current buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: the same, every current buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the ten input buffers hold their blocks, so the body's triple applies at the blocks; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [finds0_0, finds0_1, finds0_2, finds0_3, finds0_4, finds0_5, finds0_6, finds0_7, finds0_8, finds0_9]
  rw [show (dat0 V c).Φ t.succ = (dat0 V c).Φ t.castSucc from rfl,
    show (dat0 V c).owesAt () t.succ = (dat0 V c).owesAt () t.castSucc from rfl,
    stays0_0, stays0_1, stays0_2, stays0_3, stays0_4, stays0_5, stays0_6, stays0_7, stays0_8, stays0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The node kernel's pallas_call (region 1 of the program) at a parameter `V`, the buffer contents the region is entered from:
  each window's block at a grid point, what one run of the kernel body leaves in its output block as a function of the six
  input blocks, the body's triple, and the pipeline's proof data with its body obligation.
-/
import proofs.«406677_j84052509983239_1_alg».proof.Proof.Gen.KernelIdeal.Launch
import proofs.«406677_j84052509983239_1_alg».proof.Proof.Gen.KernelIdeal.Skeleton
import proofs.«406677_j84052509983239_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of updated node features one run of the body computes from its input blocks. -/
def blkH (x0 x1 : Vec F S2000x128 .f32) (x2 : Vec F S256x128 .f32) (x3 : Vec F S1x128 .f32) (x4 : Vec F S128x128 .f32)
    (x5 : Vec F S1x128 .f32) : Vec F S2000x128 .f32 :=
  k1_pay1 x0 x1 x2 x3 x4 x5

/-- The proof data of pipeline 1 on core `c`: the arrays as the region finds them; after the body at point `t` each input's
    buffer at its block and the output's at the body's term of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => blkH (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_6 (c : Dev nD) (t : Fin cfg1.N) : (dat1 V c).after 6 t
    = blkH (iblk1 V c 0 t) (iblk1 V c 1 t) (iblk1 V c 2 t) (iblk1 V c 3 t) (iblk1 V c 4 t) (iblk1 V c 5 t) := by
  dsimp only [dat1]

/-! ## What the body leaves in the windows it only reads -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-! ## Each input's staging buffer holds its block -/

/-- The block of the proof data's array of window `w` at point `t` is the block read off the region-entry contents. -/
theorem arrBlock1 (c : Dev nD) (w : Fin cfg1.W) (t : Fin cfg1.N) : (dat1 V c).blockOf w t = iblk1 V c w t := by
  unfold Dat.blockOf iblk1
  rw [A_eq1]

/-! An input window is never idle and never cut, and the body leaves every input block as it found it. So at each point the
  window's current buffer holds the block of its array there: where the point fetches it, because the fetch has landed; where
  it does not, because the block index has not moved since the point that did. An uncut window's fetch fills the whole
  buffer, so what the buffer held before does not show. -/

theorem held1_0 (c : Dev nD) (t : Fin cfg1.N) (d) : (dat1 V c).before 0 t d = iblk1 V c 0 t := by
  rw [(dat1 V c).before_in_eq_fetched 0 rfl (fun _ => rfl) (fun _ _ _ => rfl) (fun s => by rw [after1_0, arrBlock1]) t d]
  exact arrBlock1 V c 0 t
theorem held1_1 (c : Dev nD) (t : Fin cfg1.N) (d) : (dat1 V c).before 1 t d = iblk1 V c 1 t := by
  rw [(dat1 V c).before_in_eq_fetched 1 rfl (fun _ => rfl) (fun _ _ _ => rfl) (fun s => by rw [after1_1, arrBlock1]) t d]
  exact arrBlock1 V c 1 t
theorem held1_2 (c : Dev nD) (t : Fin cfg1.N) (d) : (dat1 V c).before 2 t d = iblk1 V c 2 t := by
  rw [(dat1 V c).before_in_eq_fetched 2 rfl (fun _ => rfl) (fun _ _ _ => rfl) (fun s => by rw [after1_2, arrBlock1]) t d]
  exact arrBlock1 V c 2 t
theorem held1_3 (c : Dev nD) (t : Fin cfg1.N) (d) : (dat1 V c).before 3 t d = iblk1 V c 3 t := by
  rw [(dat1 V c).before_in_eq_fetched 3 rfl (fun _ => rfl) (fun _ _ _ => rfl) (fun s => by rw [after1_3, arrBlock1]) t d]
  exact arrBlock1 V c 3 t
theorem held1_4 (c : Dev nD) (t : Fin cfg1.N) (d) : (dat1 V c).before 4 t d = iblk1 V c 4 t := by
  rw [(dat1 V c).before_in_eq_fetched 4 rfl (fun _ => rfl) (fun _ _ _ => rfl) (fun s => by rw [after1_4, arrBlock1]) t d]
  exact arrBlock1 V c 4 t
theorem held1_5 (c : Dev nD) (t : Fin cfg1.N) (d) : (dat1 V c).before 5 t d = iblk1 V c 5 t := by
  rw [(dat1 V c).before_in_eq_fetched 5 rfl (fun _ => rfl) (fun _ _ _ => rfl) (fun s => by rw [after1_5, arrBlock1]) t d]
  exact arrBlock1 V c 5 t

/-! ## The rectangles the body reads and writes: each buffer whole -/

theorem zeroOff1 : (![0, 0] : Fin 2 → Nat) = fun _ => 0 := funext fun a => by fin_cases a <;> rfl

abbrev rNode1 : Rect S2000x128 := Rect.unit (s := S2000x128) ![0, 0] S2000x128.size inb_S2000x128_S2000x128_0_0
abbrev rWa1 : Rect S256x128 := Rect.unit (s := S256x128) ![0, 0] S256x128.size inb_S256x128_S256x128_0_0
abbrev rRow1 : Rect S1x128 := Rect.unit (s := S1x128) ![0, 0] S1x128.size inb_S1x128_S1x128_0_0
abbrev rWb1 : Rect S128x128 := Rect.unit (s := S128x128) ![0, 0] S128x128.size inb_S128x128_S128x128_0_0

/-- The output buffer after the body, as its one store leaves it: the store's payload, computed from what the six loads read. -/
def stored1 (x0 x1 : Vec F S2000x128 .f32) (x2 : Vec F S256x128 .f32) (x3 : Vec F S1x128 .f32) (x4 : Vec F S128x128 .f32)
    (x5 : Vec F S1x128 .f32) : Vec F S2000x128 .f32 :=
  View.canon [⟨rNode1, k1_pay1 (View.ld x0 rNode1) (View.ld x1 rNode1) (View.ld x2 rWa1) (View.ld x3 rRow1) (View.ld x4 rWb1) (View.ld x5 rRow1)⟩]

/-- The one store writes the whole buffer: every index of the buffer is in its rectangle. -/
theorem stored1_covers (p : Vec F S2000x128 .f32) (y : S2000x128.Idx) :
    ∃ pc ∈ ([⟨rNode1, p⟩] : List (View.Piece (Elt F) S2000x128 .f32)), y ∈ pc.1.set :=
  ⟨⟨rNode1, p⟩, List.mem_singleton_self _, View.mem_set_unit_zero (S := S2000x128) zeroOff1 inb_S2000x128_S2000x128_0_0 y⟩

/-- Every load reads its buffer whole and the store writes its buffer whole, so the output buffer ends at the body's term of
    the input buffers' contents. -/
theorem stored1_eq (x0 x1 : Vec F S2000x128 .f32) (x2 : Vec F S256x128 .f32) (x3 : Vec F S1x128 .f32) (x4 : Vec F S128x128 .f32)
    (x5 : Vec F S1x128 .f32) : stored1 x0 x1 x2 x3 x4 x5 = blkH x0 x1 x2 x3 x4 x5 := by
  unfold stored1 blkH
  rw [View.canon_unit_zero zeroOff1]
  simp only [View.ld_unit_zero (S := S2000x128) zeroOff1, View.ld_unit_zero (S := S256x128) zeroOff1,
    View.ld_unit_zero (S := S1x128) zeroOff1, View.ld_unit_zero (S := S128x128) zeroOff1]

/-! ## The body's triple -/

set_option maxHeartbeats 1000000 in
/-- The kernel body on whole staging buffers, the six inputs' at contents `x0 … x5` and the output's at anything, runs to a
    continuation that holds the inputs' as they were and the output's at `stored1` of the inputs'. -/
theorem node_kernel_triple (c : Dev nD) (E : Set ℕ) (i : grid1.Coords) (a0 : Memref sig .tc .vmem S2000x128 .f32) (ha0 : a0.IsWhole) (a1 : Memref sig .tc .vmem S2000x128 .f32) (ha1 : a1.IsWhole) (a2 : Memref sig .tc .vmem S256x128 .f32) (ha2 : a2.IsWhole) (a3 : Memref sig .tc .vmem S1x128 .f32) (ha3 : a3.IsWhole) (a4 : Memref sig .tc .vmem S128x128 .f32) (ha4 : a4.IsWhole) (a5 : Memref sig .tc .vmem S1x128 .f32) (ha5 : a5.IsWhole) (a6 : Memref sig .tc .vmem S2000x128 .f32) (ha6 : a6.IsWhole)
    (x0 x1 : Vec F S2000x128 .f32) (x2 : Vec F S256x128 .f32) (x3 : Vec F S1x128 .f32) (x4 : Vec F S128x128 .f32)
    (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (stored1 x0 x1 x2 x3 x4 x5)) -∗ K ⟨⟩))
      ⊢ wp frame (wpE (defs₀ (F := F)) Variants.none c none) E (cc1__node_kernel i a0 ha0 a1 ha1 a2 ha2 a3 ha3 a4 ha4 a5 ha5 a6 ha6) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored1_covers _)

/-! ## The body obligation at one point -/

/-- What the body is handed at point `t`: the invariant, the core's debt, and each window's current staging buffer. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. Each input's buffer holds its block, so the triple applies at the six input blocks; the invariant
    and the core's debt are not touched; the output's buffer ends at the body's term of the input blocks. -/
theorem node_body_at (c : Dev nD) (t : Fin cfg1.N) :
    handed1 V c t ⊢ wp frame (wpE (defs₀ (F := F)) Variants.none c none) Set.univ (bodyAt1 t) (fun _ => returned1 V c t) := by
  unfold handed1 returned1 bodyAt1
  simp only [held1_0, held1_1, held1_2, held1_3, held1_4, held1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, ← stored1_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (node_kernel_triple c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact node_body_at V c t

end Cert.KernelIdeal.Hand

end
-- ==== Proof.KI.Regs.lean ====
/-
  The whole program run, region by region. Between two items of the program core c holds every unscoped buffer whole: the
  launch contents, then each host stretch's operations applied in order, then what a pallas_call's write-backs leave in its
  output arrays (every other buffer as entered). Each pallas_call is entered from those contents and left at the next ones; the
  run ends with every unscoped buffer at the last contents, so the arguments end as launched and each result holds what the
  items computed.
-/
import proofs.«406677_j84052509983239_1_alg».proof.Proof.Gen.KernelIdeal.Regions
import proofs.«406677_j84052509983239_1_alg».proof.Proof.KI.Body0
import proofs.«406677_j84052509983239_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s unscoped buffers when the edge kernel's pallas_call returns: each of its arrays at what the write-backs
    leave (an input array as entered), every other buffer as entered. -/
def rg_W7 (c : Dev nD) : Valuation τ sig (Elt F) :=
  Pipeline.withArrays spec0 c (V6 m c) fun w => (dat0 (fun c b => V6 m c b) c).arrAt w cfg0.N

/-- What the edge kernel's pallas_call leaves, as unknowns of the boundary contents. -/
def rg_outs7 : Outs (F := F) := fun _ r c => rg_W7 m c r

/-- Core `c`'s unscoped buffers when the node kernel's pallas_call returns: each of its arrays at what the write-backs
    leave (an input array as entered), every other buffer as entered. -/
def rg_W9 (c : Dev nD) : Valuation τ sig (Elt F) :=
  Pipeline.withArrays spec1 c (V8 m (rg_outs7 m) c) fun w => (dat1 (fun c b => V8 m (rg_outs7 m) c b) c).arrAt w cfg1.N

/-- What the two pallas_calls leave in the arrays they write, as the unknowns of the boundary contents. -/
def outs : Outs (F := F) := fun J r c => if J = 7 then rg_W7 m c r else rg_W9 m c r

/-- The contents the edge kernel's pallas_call is entered from, read at the TensorCore's references. -/
abbrev VR0 : (c : Dev nD) → (b : Ref sig .tc) → Buf (Elt F) ((c : Thread nD τ).loc b) := fun c b => V6 m c b
/-- The contents the node kernel's pallas_call is entered from, read at the TensorCore's references. -/
abbrev VR1 : (c : Dev nD) → (b : Ref sig .tc) → Buf (Elt F) ((c : Thread nD τ).loc b) := fun c b => V8 m (outs m) c b

theorem rg_W7_arr (c : Dev nD) (w : Fin cfg0.W) :
    rg_W7 m c (Proc.devRef .tc (Pipeline.arrRef spec0 w)) = (dat0 (VR0 m) c).arrAt w cfg0.N := by
  unfold rg_W7; exact Pipeline.withArrays_arr spec0 launch0.win.arr_inj c _ _ w
theorem rg_W7_of_ne (c : Dev nD) (b : Ref sig .tc) (hb : ∀ w, Pipeline.arrRef spec0 w ≠ b) :
    rg_W7 m c (Proc.devRef .tc b) = V6 m c (Proc.devRef .tc b) := by
  unfold rg_W7; exact Pipeline.withArrays_of_ne spec0 c _ _ b hb
theorem rg_W9_arr (c : Dev nD) (w : Fin cfg1.W) :
    rg_W9 m c (Proc.devRef .tc (Pipeline.arrRef spec1 w)) = (dat1 (VR1 m) c).arrAt w cfg1.N := by
  unfold rg_W9; exact Pipeline.withArrays_arr spec1 launch1.win.arr_inj c _ _ w
theorem rg_W9_of_ne (c : Dev nD) (b : Ref sig .tc) (hb : ∀ w, Pipeline.arrRef spec1 w ≠ b) :
    rg_W9 m c (Proc.devRef .tc b) = V8 m (outs m) c (Proc.devRef .tc b) := by
  unfold rg_W9; exact Pipeline.withArrays_of_ne spec1 c _ _ b hb

/-- After the edge kernel's pallas_call the message array holds what its write-backs leave. -/
theorem outs_7_v18_0 (c : Dev nD) : outs m 7 main_v18_0 c = (dat0 (VR0 m) c).arrAt 10 cfg0.N := rg_W7_arr m c 10
/-- After the edge kernel's pallas_call the position-update array holds what its write-backs leave. -/
theorem outs_7_v18_1 (c : Dev nD) : outs m 7 main_v18_1 c = (dat0 (VR0 m) c).arrAt 11 cfg0.N := rg_W7_arr m c 11
/-- After the node kernel's pallas_call the feature array holds what its write-backs leave. -/
theorem outs_9_v34 (c : Dev nD) : outs m 9 main_v34 c = (dat1 (VR1 m) c).arrAt 6 cfg1.N := rg_W9_arr m c 6

/-! ## What a pallas_call leaves in each buffer -/

theorem rg_V7_v18_0 (o : Outs (F := F)) (c : Dev nD) : V7 m o c main_v18_0 = o 7 main_v18_0 c := by
  simp only [V7]
  rw [Function.update_of_ne (StableHlo.devRef_ne_of_ne (by decide) : (Proc.devRef .tc main_v18_0 : DevRef τ sig) ≠ Proc.devRef .tc main_v18_1),
    Function.update_self]
theorem rg_V7_v18_1 (o : Outs (F := F)) (c : Dev nD) : V7 m o c main_v18_1 = o 7 main_v18_1 c := by
  simp only [V7]
  rw [Function.update_self]
theorem rg_V9_v34 (o : Outs (F := F)) (c : Dev nD) : V9 m o c main_v34 = o 9 main_v34 c := by
  simp only [V9]
  rw [Function.update_self]

set_option maxHeartbeats 4000000 in
/-- When the edge kernel's pallas_call returns, each of its arrays holds what the write-backs leave: an input array what
    it held at entry, the two output arrays the boundary's unknowns. -/
theorem rg_hF0 (c : Dev nD) (w : Fin cfg0.W) : (dat0 (VR0 m) c).arrAt w cfg0.N = V7 m (outs m) c (Pipeline.arrRef spec0 w) := by
  have hin : ∀ (w : Fin cfg0.W) (hw : (cfg0.win w).isOut = false), Pipeline.arrRef spec0 w ∉ ([main_v18_0, main_v18_1] : List (Ref sig .tc)) →
      (dat0 (VR0 m) c).arrAt w cfg0.N = V7 m (outs m) c (Pipeline.arrRef spec0 w) := fun w hw hne =>
    (((dat0 (VR0 m) c).arrAt_in w hw _).trans (A_eq0 (VR0 m) c w)).trans (V7_of m (outs m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact hin 8 rfl (by decide)
  | ⟨9, _⟩ => exact hin 9 rfl (by decide)
  | ⟨10, _⟩ => exact ((rg_V7_v18_0 m (outs m) c).trans (outs_7_v18_0 m c)).symm
  | ⟨11, _⟩ => exact ((rg_V7_v18_1 m (outs m) c).trans (outs_7_v18_1 m c)).symm
/-- Every buffer that is no array of the edge kernel's pallas_call is as entered. -/
theorem rg_hrest0 (c : Dev nD) : ∀ b : Ref sig .tc, b ∉ Finset.univ.image (Pipeline.arrRef spec0) → V7 m (outs m) c b = V6 m c b :=
  fun b hb => V7_of m (outs m) c b fun hm => hb (by
    rcases List.mem_cons.mp hm with rfl | hm
    · exact Finset.mem_image.mpr ⟨10, Finset.mem_univ _, rfl⟩
    · rcases List.mem_cons.mp hm with rfl | hm
      · exact Finset.mem_image.mpr ⟨11, Finset.mem_univ _, rfl⟩
      · exact absurd hm (List.not_mem_nil))

set_option maxHeartbeats 4000000 in
/-- When the node kernel's pallas_call returns, each of its arrays holds what the write-backs leave: an input array what
    it held at entry, the output array the boundary's unknown. -/
theorem rg_hF1 (c : Dev nD) (w : Fin cfg1.W) : (dat1 (VR1 m) c).arrAt w cfg1.N = V9 m (outs m) c (Pipeline.arrRef spec1 w) := by
  have hin : ∀ (w : Fin cfg1.W) (hw : (cfg1.win w).isOut = false), Pipeline.arrRef spec1 w ∉ ([main_v34] : List (Ref sig .tc)) →
      (dat1 (VR1 m) c).arrAt w cfg1.N = V9 m (outs m) c (Pipeline.arrRef spec1 w) := fun w hw hne =>
    (((dat1 (VR1 m) c).arrAt_in w hw _).trans (A_eq1 (VR1 m) c w)).trans (V9_of m (outs m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact ((rg_V9_v34 m (outs m) c).trans (outs_9_v34 m c)).symm
/-- Every buffer that is no array of the node kernel's pallas_call is as entered. -/
theorem rg_hrest1 (c : Dev nD) : ∀ b : Ref sig .tc, b ∉ Finset.univ.image (Pipeline.arrRef spec1) → V9 m (outs m) c b = V8 m (outs m) c b :=
  fun b hb => V9_of m (outs m) c b fun hm => hb (by
    rcases List.mem_cons.mp hm with rfl | hm
    · exact Finset.mem_image.mpr ⟨6, Finset.mem_univ _, rfl⟩
    · exact absurd hm (List.not_mem_nil))

/-! ## The proof data and what rides beside the buffers -/

/-- Each pallas_call's proof data, at the contents it is entered from. -/
def rg_pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c
/-- No core owes another anything: no level is assigned. -/
abbrev rg_Lv : GSem nD τ sig → Finset Unit := fun _ => ∅
abbrev rg_lvl : GSem nD τ sig → Unit → ℕ := fun _ _ => 0
/-- What rides beside the buffers through every item: the core's generator register at some state and the core owing
    nothing. -/
abbrev rg_R (c : Dev nD) : sProp 𝕄 := iprop((∃ r, prngReg c r) ∗ ∃ W, owes (c : Thread nD τ) (0 : CellTallies nD τ sig Unit) W)
/-- The same rest between any two items. -/
abbrev rg_ER : Fin 3 → Dev nD → sProp 𝕄 := fun _ c => rg_R c

/-! ## The two pallas_calls over the boundary contents -/

set_option backward.isDefEq.respectTransparency.types false in
/-- The edge kernel's pallas_call: entered from every unscoped buffer at the contents after the sixth host stretch, left with
    its two output arrays at what the write-backs leave and every other buffer as entered. Its arrays are split out of the
    unscoped buffers at entry and put back at the exit contents; the generator register goes into the pipeline's invariant
    and comes back; nothing is owed; the kernel has no semaphore of its own. -/
def rg_reg0 : Pipeline.RegionSeg (pcfgs (F := F)) adm (rg_pdats m) () defs₀ Variants.none rg_Lv rg_lvl 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ rg_Lv rg_lvl 0 fun _ _ => rfl
  pre c := iprop(StableHlo.held (c : Thread nD τ) (Pipeline.ucRefs τ sig) (V6 m c) ∗ rg_R c)
  post c := iprop(StableHlo.held (c : Thread nD τ) (Pipeline.ucRefs τ sig) (V7 m (outs m) c) ∗ rg_R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (rg_pdats m) launch0.win launch0.arr_whole c
      ((rg_pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rg_pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rg_pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (rg_pdats m) ((rg_pdats m 0 c).share_full fun _ => rfl)
      (VR0 m c) (fun b => V7 m (outs m) c b) ((rg_pdats m 0 c).arrAt · cfg0.N) (rg_hF0 m c) (rg_hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node kernel's pallas_call: entered from every unscoped buffer at the contents after the last host stretch, left with
    its output array at what the write-backs leave and every other buffer as entered. -/
def rg_reg1 : Pipeline.RegionSeg (pcfgs (F := F)) adm (rg_pdats m) () defs₀ Variants.none rg_Lv rg_lvl 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ rg_Lv rg_lvl 1 fun _ _ => rfl
  pre c := iprop(StableHlo.held (c : Thread nD τ) (Pipeline.ucRefs τ sig) (V8 m (outs m) c) ∗ rg_R c)
  post c := iprop(StableHlo.held (c : Thread nD τ) (Pipeline.ucRefs τ sig) (V9 m (outs m) c) ∗ rg_R c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (rg_pdats m) launch1.win launch1.arr_whole c
      ((rg_pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rg_pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rg_pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (rg_pdats m) ((rg_pdats m 1 c).share_full fun _ => rfl)
      (VR1 m c) (fun b => V9 m (outs m) c b) ((rg_pdats m 1 c).arrAt · cfg1.N) (rg_hF1 m c) (rg_hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the end -/

/-- The launch's ghost element is the pipelines' own; no further ghost resource is dealt to a core. -/
theorem rg_launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core has its generator register and owes nothing: the rest that rides beside the buffers. -/
theorem rg_rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts rg_Lv rg_lvl)
      ⊢ (|={Set.univ}=> bigSep Finset.univ (rg_ER (F := F) 0) : sProp 𝕄) := by
  refine Pipeline.initEach rg_Lv rg_lvl fun c => ?_
  iintro ⟨⟨-, HO, -, Hp, -⟩, -⟩
  imodintro
  isplitl [Hp]; · iexists _; iexact Hp
  iexists ∅; iexact HO

/-- At the end the rest still says the core owes nothing. -/
theorem rg_rest_end (c : Dev nD) :
    rg_ER (F := F) 2 c ⊢ (iprop(∃ W, owes (c : Thread nD τ) (0 : CellTallies nD τ sig Unit) W) : sProp 𝕄) := by
  iintro ⟨-, HO⟩; iexact HO

/-- Every weakly fair execution terminates without fault and ends with the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond m emb₁ () Variants.none rg_Lv rg_lvl (fun _ _ => rfl) ρ (outs m) (rg_pdats m) 0 (fun _ => iprop(emp))
    (initOf (Pipeline.cells cfgs cellOf_inj) (Pipeline.launchToks cfgs cellOf_inj)) rg_launch_own
    rg_ER (rg_rest_init ρ) rg_rest_end
    (rg_reg0 m) (fun _ => .rfl) (fun _ => .rfl) (rg_reg1 m) (fun _ => .rfl) (fun _ => .rfl)

/-! ## The run, read at every unscoped buffer -/

set_option backward.isDefEq.respectTransparency.types false in
/-- The run over any rest states and any region records pinned to the boundary contents: every weakly fair execution
    terminates and ends with every unscoped buffer of every core at the last boundary's contents. The items chain from the
    launch contents to the last; at the end the buffers held at the last contents are read against the final memory. -/
theorem rg_run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (o : Outs (F := F))
    (pd : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : Pipeline.RegionSeg (pcfgs (F := F)) adm pd ι defs₀ 𝒱₀ L lv 0)
    (hpre0 : ∀ c : Dev nD, iprop(StableHlo.held (c : Thread nD τ) (Pipeline.ucRefs τ sig) (V6 m c) ∗ E 0 c) ⊢ R0.pre c)
    (hpost0 : ∀ c : Dev nD, R0.post c ⊢ iprop(StableHlo.held (c : Thread nD τ) (Pipeline.ucRefs τ sig) (V7 m o c) ∗ E 1 c))
    (R1 : Pipeline.RegionSeg (pcfgs (F := F)) adm pd ι defs₀ 𝒱₀ L lv 1)
    (hpre1 : ∀ c : Dev nD, iprop(StableHlo.held (c : Thread nD τ) (Pipeline.ucRefs τ sig) (V8 m o c) ∗ E 1 c) ⊢ R1.pre c)
    (hpost1 : ∀ c : Dev nD, R1.post c ⊢ iprop(StableHlo.held (c : Thread nD τ) (Pipeline.ucRefs τ sig) (V9 m o c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V9 m o c b) := by
  refine Pipeline.θ_run_regions_kit_dev (pcfgs (F := F)) adm pd ι cellOf_inj EP defs₀ 𝒱₀ L lv m ρ main
    (segs m o 𝒱₀ L lv E ι pd R0 R1)
    (fun c Q => by
      rewrite [main_chain c, Pipeline.Seg.run_eq_chain,
        show (segs m o 𝒱₀ L lv E ι pd R0 R1 c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m o c))
    (hch := fun c => ⟨.rfl, .rfl, .rfl, .rfl, .rfl, .rfl, hpre0 c, hpost0 c, hpre1 c, (hpost1 c).trans (sep_mono .rfl (hE2 c))⟩)
    (hinit := ?_) (QY := fun c s => ∀ b ∈ Pipeline.ucRefs τ sig, s.mem ((c : Thread nD τ).1, b) = V9 m o c b)
    (hfin := fun c s' => ?_) (hQ := fun _ h => h)
  · -- the launch: the unscoped buffers are held at the launch contents; the rest is made on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last contents
    unfold StableHlo.held
    iintro ⟨Hh, HSI⟩
    imodintro
    iapply (pointsTo_read_all (Pipeline.ucRefs τ sig) (fun b => ((c : Thread nD τ).1, b)) (V9 m o c) s')
    isplitl [Hh] <;> iassumption

/-- Every weakly fair execution terminates without fault and ends with every unscoped buffer at the last boundary's contents. -/
theorem run_vals (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V9 m (outs m) c b) :=
  rg_run_cond m emb₁ () Variants.none rg_Lv rg_lvl (fun _ _ => rfl) ρ (outs m) (rg_pdats m) 0 (fun _ => iprop(emp))
    (initOf (Pipeline.cells cfgs cellOf_inj) (Pipeline.launchToks cfgs cellOf_inj)) rg_launch_own
    rg_ER (rg_rest_init ρ) rg_rest_end
    (rg_reg0 m) (fun _ => .rfl) (fun _ => .rfl) (rg_reg1 m) (fun _ => .rfl) (fun _ => .rfl)

end Cert.KernelIdeal.Hand

end
-- ==== Proof.Spec.lean ====
/-
  The message-passing layer as plain formulas over the extended reals, one edge (or one node) at a time.

  For an edge with endpoint feature rows `hr`, `hc`, squared distance `dsq` and attribute row `ea`, the edge network reads the
  265-vector x = [hr | hc | dsq | ea], forms h₁ = silu(x·W₁ + b₁), h₂ = silu(h₁·W₂ + b₂), the gate g = σ(h₂·a + a₀), the
  message msg = h₂ · g, and the scalar tsc = msg·p that scales the edge's position difference. For a node with feature row
  `h` and aggregated message row `ag`, the node network returns silu([h | ag]·N₁ + n₁)·N₂ + n₂ + h. Here silu x = x · σ(x) and
  σ x = 1 / (1 + e⁻ˣ), with the extended reals' conventions at ±∞.
-/
import Idealize.ShloMosaic.PureOps.Ideal
import Idealize.ShloMosaic.Lib.ValueIdx

noncomputable section

namespace Cert.Spec

open Idealize.ShloMosaic

/-- x · σ(x). -/
def silu (x : EReal) : EReal := x * Ideal.logistic x

/-- The inner product of two K-vectors. -/
def dot {K : ℕ} (x w : Fin K → EReal) : EReal := ∑ k : Fin K, x k * w k

/-- The edge network's input row: the two endpoint feature rows, the squared distance, the edge's attribute row. -/
def ein (hr hc : Fin 128 → EReal) (dsq : EReal) (ea : Fin 8 → EReal) : Fin 265 → EReal := fun k =>
  if h1 : k.val < 128 then hr ⟨k.val, h1⟩
  else if h2 : k.val < 256 then hc ⟨k.val - 128, by omega⟩
  else if h3 : k.val < 257 then dsq
  else ea ⟨k.val - 257, by omega⟩

/-- First hidden layer: silu(x·W₁ + b₁). -/
def hid1 (x : Fin 265 → EReal) (W1 : Fin 265 → Fin 128 → EReal) (b1 : Fin 128 → EReal) : Fin 128 → EReal :=
  fun j => silu (dot x (fun k => W1 k j) + b1 j)

/-- Second hidden layer: silu(h₁·W₂ + b₂). -/
def hid2 (x : Fin 265 → EReal) (W1 : Fin 265 → Fin 128 → EReal) (b1 : Fin 128 → EReal)
    (W2 : Fin 128 → Fin 128 → EReal) (b2 : Fin 128 → EReal) : Fin 128 → EReal :=
  fun j => silu (dot (hid1 x W1 b1) (fun k => W2 k j) + b2 j)

/-- The attention gate: σ(h₂·a + a₀). -/
def gate (x : Fin 265 → EReal) (W1 : Fin 265 → Fin 128 → EReal) (b1 : Fin 128 → EReal)
    (W2 : Fin 128 → Fin 128 → EReal) (b2 : Fin 128 → EReal) (aW : Fin 128 → EReal) (ab : EReal) : EReal :=
  Ideal.logistic (dot (hid2 x W1 b1 W2 b2) aW + ab)

/-- The edge's message: h₂ scaled by the gate. -/
def msg (x : Fin 265 → EReal) (W1 : Fin 265 → Fin 128 → EReal) (b1 : Fin 128 → EReal)
    (W2 : Fin 128 → Fin 128 → EReal) (b2 : Fin 128 → EReal) (aW : Fin 128 → EReal) (ab : EReal) : Fin 128 → EReal :=
  fun j => hid2 x W1 b1 W2 b2 j * gate x W1 b1 W2 b2 aW ab

/-- The scalar that scales the edge's position difference: msg·p. -/
def tsc (x : Fin 265 → EReal) (W1 : Fin 265 → Fin 128 → EReal) (b1 : Fin 128 → EReal)
    (W2 : Fin 128 → Fin 128 → EReal) (b2 : Fin 128 → EReal) (aW : Fin 128 → EReal) (ab : EReal)
    (pW : Fin 128 → EReal) : EReal :=
  dot (msg x W1 b1 W2 b2 aW ab) pW

/-- The node network's input row: the node's features beside its aggregated messages. -/
def nin (h ag : Fin 128 → EReal) : Fin 256 → EReal := fun k =>
  if h1 : k.val < 128 then h ⟨k.val, h1⟩ else ag ⟨k.val - 128, by omega⟩

/-- The node update: silu([h | ag]·N₁ + n₁)·N₂ + n₂ + h. -/
def hnew (h ag : Fin 128 → EReal) (N1 : Fin 256 → Fin 128 → EReal) (n1 : Fin 128 → EReal)
    (N2 : Fin 128 → Fin 128 → EReal) (n2 : Fin 128 → EReal) : Fin 128 → EReal :=
  fun j => (dot (fun k => silu (dot (nin h ag) (fun i => N1 i k) + n1 k)) (fun k => N2 k j) + n2 j) + h j

/-- The squared length of a 3-vector. -/
def dsq (v : Fin 3 → EReal) : EReal := ∑ d : Fin 3, v d * v d

/-- A node position word as both programs normalise it: a negative word counts from the end of the 50000 nodes. -/
def wrapW (w : BitVec 32) : BitVec 32 := Scalar.select (IntOp.cmpi .slt w 0#32) (IntOp.addi w 50000#32) w

/-- The node a position word reads: the word read signed and clipped into the 50000 nodes. -/
def nodeOf (w : BitVec 32) : Fin 50000 := ⟨min w.toInt.toNat (50000 - 1), by omega⟩

/-- The node at end `r` (0: the receiving node, 1: the sending node) of edge `e`. -/
def node (EI : (⟨2, ![2, 640000]⟩ : Shape).Idx → BitVec 32) (r : Fin 2) (e : Fin 640000) : Fin 50000 :=
  nodeOf (wrapW (EI (ValueIdx.ix2 r e)))

/-! Each formula depends on its arguments only through their values. -/

theorem ein_congr {hr hr' hc hc' : Fin 128 → EReal} {d d' : EReal} {ea ea' : Fin 8 → EReal}
    (h1 : hr = hr') (h2 : hc = hc') (h3 : d = d') (h4 : ea = ea') : ein hr hc d ea = ein hr' hc' d' ea' := by
  rw [h1, h2, h3, h4]

theorem msg_congr {x x' : Fin 265 → EReal} {W1 W1' : Fin 265 → Fin 128 → EReal} {b1 b1' : Fin 128 → EReal}
    {W2 W2' : Fin 128 → Fin 128 → EReal} {b2 b2' : Fin 128 → EReal} {aW aW' : Fin 128 → EReal} {ab ab' : EReal}
    (h0 : x = x') (h1 : W1 = W1') (h2 : b1 = b1') (h3 : W2 = W2') (h4 : b2 = b2') (h5 : aW = aW') (h6 : ab = ab')
    (j : Fin 128) : msg x W1 b1 W2 b2 aW ab j = msg x' W1' b1' W2' b2' aW' ab' j := by
  rw [h0, h1, h2, h3, h4, h5, h6]

theorem tsc_congr {x x' : Fin 265 → EReal} {W1 W1' : Fin 265 → Fin 128 → EReal} {b1 b1' : Fin 128 → EReal}
    {W2 W2' : Fin 128 → Fin 128 → EReal} {b2 b2' : Fin 128 → EReal} {aW aW' : Fin 128 → EReal} {ab ab' : EReal}
    {pW pW' : Fin 128 → EReal}
    (h0 : x = x') (h1 : W1 = W1') (h2 : b1 = b1') (h3 : W2 = W2') (h4 : b2 = b2') (h5 : aW = aW') (h6 : ab = ab')
    (h7 : pW = pW') : tsc x W1 b1 W2 b2 aW ab pW = tsc x' W1' b1' W2' b2' aW' ab' pW' := by
  rw [h0, h1, h2, h3, h4, h5, h6, h7]

theorem hnew_congr {h h' ag ag' : Fin 128 → EReal} {N1 N1' : Fin 256 → Fin 128 → EReal} {n1 n1' : Fin 128 → EReal}
    {N2 N2' : Fin 128 → Fin 128 → EReal} {n2 n2' : Fin 128 → EReal}
    (h0 : h = h') (h1 : ag = ag') (h2 : N1 = N1') (h3 : n1 = n1') (h4 : N2 = N2') (h5 : n2 = n2') (j : Fin 128) :
    hnew h ag N1 n1 N2 n2 j = hnew h' ag' N1' n1' N2' n2' j := by
  rw [h0, h1, h2, h3, h4, h5]

end Cert.Spec

end
-- ==== Proof.KI.PayM.lean ====
/-
  One run of the edge kernel's body, read at one entry. Row r of the output blocks depends only on row r of the three blocked
  inputs and on the whole weight arrays: the message entry (r, j) is the edge network's message at column j of the row
  [x0 r | x1 r | x2 r 3 | x2 r 4..11], and the scaled position difference (r, d) is x2 r d times the network's scalar.
-/
import proofs.«406677_j84052509983239_1_alg».proof.Proof.Gen.KernelIdeal.Skeleton
import proofs.«406677_j84052509983239_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen

/-- The edge network's input row read off row `r` of the three blocked inputs. -/
abbrev rowIn (x0 x1 : Vec Ideal S2000x128 .f32) (x2 : Vec Ideal S2000x12 .f32) (r : Fin 2000) : Fin 265 → EReal :=
  Cert.Spec.ein (fun k => x0 (ix2 r k)) (fun k => x1 (ix2 r k)) (x2 (ix2 r (3 : Fin 12))) (fun a => x2 (ix2 r (⟨4 + a.val, by omega⟩ : Fin 12)))

/-! ### The product of a [2000, 265] block with a [265, 128] matrix, read at an entry -/

theorem e_lhs_mmA_0 (i : S2000x128.Idx) (q : dot_S2000x265_S265x128_S2000x128_1_0_0_1_n_n.contr.Idx) :
    (dot_S2000x265_S265x128_S2000x128_1_0_0_1_n_n.lhsIdx i q 0).val = (i 0).val := by
  unfold DotDims.lhsIdx
  rw [dif_neg (show ¬(0 : Fin S2000x265.rank) ∈ dot_S2000x265_S265x128_S2000x128_1_0_0_1_n_n.lhsBatch by decide), dif_pos (show (0 : Fin S2000x265.rank) ∈ dot_S2000x265_S265x128_S2000x128_1_0_0_1_n_n.lhsNonContracting by decide)]
  rfl
theorem e_lhs_mmA_1 (i : S2000x128.Idx) (q : dot_S2000x265_S265x128_S2000x128_1_0_0_1_n_n.contr.Idx) :
    (dot_S2000x265_S265x128_S2000x128_1_0_0_1_n_n.lhsIdx i q 1).val = (q ⟨0, by decide⟩).val :=
  dot_S2000x265_S265x128_S2000x128_1_0_0_1_n_n.lhsIdx_val_of_single rfl i q
theorem e_rhs_mmA_0 (i : S2000x128.Idx) (q : dot_S2000x265_S265x128_S2000x128_1_0_0_1_n_n.contr.Idx) :
    (dot_S2000x265_S265x128_S2000x128_1_0_0_1_n_n.rhsIdx i q 0).val = (q ⟨0, by decide⟩).val :=
  dot_S2000x265_S265x128_S2000x128_1_0_0_1_n_n.rhsIdx_val_of_single rfl i q
theorem e_rhs_mmA_1 (i : S2000x128.Idx) (q : dot_S2000x265_S265x128_S2000x128_1_0_0_1_n_n.contr.Idx) :
    (dot_S2000x265_S265x128_S2000x128_1_0_0_1_n_n.rhsIdx i q 1).val = (i 1).val := by
  unfold DotDims.rhsIdx
  rw [dif_neg (show ¬(1 : Fin S265x128.rank) ∈ dot_S2000x265_S265x128_S2000x128_1_0_0_1_n_n.rhsBatch by decide), dif_pos (show (1 : Fin S265x128.rank) ∈ dot_S2000x265_S265x128_S2000x128_1_0_0_1_n_n.rhsNonContracting by decide)]
  rfl

/-- Into the zero accumulator the product's entry (r, j) is the inner product of row r with column j. -/
theorem e_mmA_apply {φ₁ φ₂ : FTy} (l : FVec Ideal S2000x265 φ₁) (w : FVec Ideal S265x128 φ₂) (r : Fin 2000) (j : Fin 128) :
    matmul (F := Ideal) dot_S2000x265_S265x128_S2000x128_1_0_0_1_n_n none l w (constant S2000x128 .f32 0x00000000#32) (ix2 r j)
      = ∑ k : Fin 265, l (ix2 r k) * w (ix2 k j) := by
  simp only [matmul]
  rw [Ideal.matmul_constant_zero_apply, ← Equiv.sum_comp (ValueIdx.contrEquiv1 dot_S2000x265_S265x128_S2000x128_1_0_0_1_n_n 265 rfl rfl).symm]
  refine Finset.sum_congr rfl fun k _ => ?_
  have hk := ValueIdx.contrEquiv1_symm_val dot_S2000x265_S265x128_S2000x128_1_0_0_1_n_n 265 rfl rfl k
  have el : dot_S2000x265_S265x128_S2000x128_1_0_0_1_n_n.lhsIdx (ix2 r j) ((ValueIdx.contrEquiv1 dot_S2000x265_S265x128_S2000x128_1_0_0_1_n_n 265 rfl rfl).symm k) = ix2 r k := funext fun a => Fin.ext (by
    match a with
    | ⟨0, _⟩ => exact e_lhs_mmA_0 _ _
    | ⟨1, _⟩ => exact (e_lhs_mmA_1 _ _).trans hk)
  have er : dot_S2000x265_S265x128_S2000x128_1_0_0_1_n_n.rhsIdx (ix2 r j) ((ValueIdx.contrEquiv1 dot_S2000x265_S265x128_S2000x128_1_0_0_1_n_n 265 rfl rfl).symm k) = ix2 k j := funext fun a => Fin.ext (by
    match a with
    | ⟨0, _⟩ => exact (e_rhs_mmA_0 _ _).trans hk
    | ⟨1, _⟩ => exact e_rhs_mmA_1 _ _)
  rw [el, er]

/-! ### The product of a [2000, 128] block with a [128, 128] matrix, read at an entry -/

theorem e_lhs_mmB_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem e_lhs_mmB_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem e_rhs_mmB_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem e_rhs_mmB_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Into the zero accumulator the product's entry (r, j) is the inner product of row r with column j. -/
theorem e_mmB_apply {φ₁ φ₂ : FTy} (l : FVec Ideal S2000x128 φ₁) (w : FVec Ideal S128x128 φ₂) (r : Fin 2000) (j : Fin 128) :
    matmul (F := Ideal) dot_S2000x128_S128x128_S2000x128_1_0_0_1_n_n none l w (constant S2000x128 .f32 0x00000000#32) (ix2 r j)
      = ∑ k : Fin 128, l (ix2 r k) * w (ix2 k j) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact e_lhs_mmB_0 _ _
    | ⟨1, _⟩ => exact (e_lhs_mmB_1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (e_rhs_mmB_0 _ _).trans hk
    | ⟨1, _⟩ => exact e_rhs_mmB_1 _ _)
  rw [el, er]

/-! ### The product of a [2000, 128] block with a [128, 1] matrix, read at an entry -/

theorem e_lhs_mmC_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem e_lhs_mmC_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem e_rhs_mmC_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem e_rhs_mmC_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- Into the zero accumulator the product's entry (r, j) is the inner product of row r with column j. -/
theorem e_mmC_apply {φ₁ φ₂ : FTy} (l : FVec Ideal S2000x128 φ₁) (w : FVec Ideal S128x1 φ₂) (r : Fin 2000) (j : Fin 1) :
    matmul (F := Ideal) dot_S2000x128_S128x1_S2000x1_1_0_0_1_n_n none l w (constant S2000x1 .f32 0x00000000#32) (ix2 r j)
      = ∑ k : Fin 128, l (ix2 r k) * w (ix2 k j) := by
  simp only [matmul]
  rw [Ideal.matmul_constant_zero_apply, ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 r j) ((ValueIdx.contrEquiv1 dot_S2000x128_S128x1_S2000x1_1_0_0_1_n_n 128 rfl rfl).symm k) = ix2 r k := funext fun a => Fin.ext (by
    match a with
    | ⟨0, _⟩ => exact e_lhs_mmC_0 _ _
    | ⟨1, _⟩ => exact (e_lhs_mmC_1 _ _).trans hk)
  have er : dot_S2000x128_S128x1_S2000x1_1_0_0_1_n_n.rhsIdx (ix2 r j) ((ValueIdx.contrEquiv1 dot_S2000x128_S128x1_S2000x1_1_0_0_1_n_n 128 rfl rfl).symm k) = ix2 k j := funext fun a => Fin.ext (by
    match a with
    | ⟨0, _⟩ => exact (e_rhs_mmC_0 _ _).trans hk
    | ⟨1, _⟩ => exact e_rhs_mmC_1 _ _)
  rw [el, er]

/-! ### Layout operations read at an entry -/

/-- A one-row [1, 128] vector broadcast down the 2000 rows reads its column. -/
theorem e_bcastRow_apply {α : Type} (b : S1x128.Idx → α) (r : Fin 2000) (j : Fin 128) :
    broadcastTo S2000x128 b broadcasts_S1x128_S2000x128 (ix2 r j) = b (ix2 (0 : Fin 1) j) :=
  broadcastTo_apply b broadcasts_S1x128_S2000x128 (ix2 r j) (ix2 (0 : Fin 1) j) (fun a => match a with
    | ⟨0, _⟩ => by show (0 : ℕ) = if (1 : ℕ) = 1 then 0 else r.val; rw [if_pos rfl]
    | ⟨1, _⟩ => by show j.val = if (128 : ℕ) = 1 then 0 else j.val; rw [if_neg (by decide)])

/-- A [2000, 1] column broadcast across 128 columns reads its row. -/
theorem e_bcastCol128_apply {α : Type} (g : S2000x1.Idx → α) (r : Fin 2000) (j : Fin 128) :
    broadcastTo S2000x128 g broadcasts_S2000x1_S2000x128 (ix2 r j) = g (ix2 r (0 : Fin 1)) :=
  broadcastTo_apply g broadcasts_S2000x1_S2000x128 (ix2 r j) (ix2 r (0 : Fin 1)) (fun a => match a with
    | ⟨0, _⟩ => by show r.val = if (2000 : ℕ) = 1 then 0 else r.val; rw [if_neg (by decide)]
    | ⟨1, _⟩ => by show (0 : ℕ) = if (1 : ℕ) = 1 then 0 else j.val; rw [if_pos rfl])

/-- A [2000, 1] column broadcast across 3 columns reads its row. -/
theorem e_bcastCol3_apply {α : Type} (g : S2000x1.Idx → α) (r : Fin 2000) (d : Fin 3) :
    broadcastTo S2000x3 g broadcasts_S2000x1_S2000x3 (ix2 r d) = g (ix2 r (0 : Fin 1)) :=
  broadcastTo_apply g broadcasts_S2000x1_S2000x3 (ix2 r d) (ix2 r (0 : Fin 1)) (fun a => match a with
    | ⟨0, _⟩ => by show r.val = if (2000 : ℕ) = 1 then 0 else r.val; rw [if_neg (by decide)]
    | ⟨1, _⟩ => by show (0 : ℕ) = if (1 : ℕ) = 1 then 0 else d.val; rw [if_pos rfl])

/-- A [1, 1] scalar broadcast down the 2000 rows reads the scalar. -/
theorem e_bcastOne_apply {α : Type} (s : S1x1.Idx → α) (r : Fin 2000) (c : Fin 1) :
    broadcastTo S2000x1 s broadcasts_S1x1_S2000x1 (ix2 r c) = s (ix2 (0 : Fin 1) (0 : Fin 1)) :=
  broadcastTo_apply s broadcasts_S1x1_S2000x1 (ix2 r c) (ix2 (0 : Fin 1) (0 : Fin 1)) (fun a => match a with
    | ⟨0, _⟩ => by show (0 : ℕ) = if (1 : ℕ) = 1 then 0 else r.val; rw [if_pos rfl]
    | ⟨1, _⟩ => by show (0 : ℕ) = if (1 : ℕ) = 1 then 0 else c.val; rw [if_pos rfl])

/-- Columns 0..2 of a [2000, 12] block. -/
theorem e_slice0_apply {α : Type} (x : S2000x12.Idx → α) (r : Fin 2000) (d : Fin 3) :
    extractStridedSlice S2000x3 ![0, 0] x slices_S2000x12_o0_0_S2000x3 (ix2 r d) = x (ix2 r (⟨d.val, by omega⟩ : Fin 12)) :=
  extractStridedSlice_apply ![0, 0] x slices_S2000x12_o0_0_S2000x3 (ix2 r d) (ix2 r (⟨d.val, by omega⟩ : Fin 12)) (fun a => match a with
    | ⟨0, _⟩ => by show r.val = 0 + r.val; omega
    | ⟨1, _⟩ => by show d.val = 0 + d.val; omega)

/-- Column 3 of a [2000, 12] block. -/
theorem e_slice3_apply {α : Type} (x : S2000x12.Idx → α) (r : Fin 2000) (c : Fin 1) :
    extractStridedSlice S2000x1 ![0, 3] x slices_S2000x12_o0_3_S2000x1 (ix2 r c) = x (ix2 r (3 : Fin 12)) :=
  extractStridedSlice_apply ![0, 3] x slices_S2000x12_o0_3_S2000x1 (ix2 r c) (ix2 r (3 : Fin 12)) (fun a => match a with
    | ⟨0, _⟩ => by show r.val = 0 + r.val; omega
    | ⟨1, _⟩ => by show (3 : ℕ) = 3 + c.val; omega)

/-- Columns 4..11 of a [2000, 12] block. -/
theorem e_slice4_apply {α : Type} (x : S2000x12.Idx → α) (r : Fin 2000) (a : Fin 8) :
    extractStridedSlice S2000x8 ![0, 4] x slices_S2000x12_o0_4_S2000x8 (ix2 r a) = x (ix2 r (⟨4 + a.val, by omega⟩ : Fin 12)) :=
  extractStridedSlice_apply ![0, 4] x slices_S2000x12_o0_4_S2000x8 (ix2 r a) (ix2 r (⟨4 + a.val, by omega⟩ : Fin 12)) (fun b => match b with
    | ⟨0, _⟩ => by show r.val = 0 + r.val; omega
    | ⟨1, _⟩ => by show 4 + a.val = 4 + a.val; rfl)

/-- The four pieces laid side by side along the columns, read at (r, k): the piece whose span holds k. -/
theorem e_cat_apply (a b : S2000x128.Idx → EReal) (c : S2000x1.Idx → EReal) (d : S2000x8.Idx → EReal) (r : Fin 2000) (k : Fin 265) :
    concatenate S2000x265 1 [⟨S2000x128, a⟩, ⟨S2000x128, b⟩, ⟨S2000x1, c⟩, ⟨S2000x8, d⟩]
        concatenates_S2000x128_S2000x128_S2000x1_S2000x8_S2000x265_d1 (ix2 r k)
      = Cert.Spec.ein (fun k => a (ix2 r k)) (fun k => b (ix2 r k)) (c (ix2 r (0 : Fin 1))) (fun k => d (ix2 r k)) k := by
  unfold Cert.Spec.ein
  by_cases h1 : k.val < 128
  · rw [dif_pos h1]
    exact concatenate_apply_piece 1 _ _ (ix2 r k) 0 (by show (0 : ℕ) < 4; omega) S2000x128 a rfl rfl 0 rfl (ix2 r (⟨k.val, h1⟩ : Fin 128))
      (fun e he => match e with
        | ⟨0, _⟩ => rfl
        | ⟨1, _⟩ => absurd rfl he)
      (by show 0 + k.val = k.val; omega)
  · rw [dif_neg h1]
    by_cases h2 : k.val < 256
    · rw [dif_pos h2]
      exact concatenate_apply_piece 1 _ _ (ix2 r k) 1 (by show (1 : ℕ) < 4; omega) S2000x128 b rfl rfl 128 rfl (ix2 r (⟨k.val - 128, by omega⟩ : Fin 128))
        (fun e he => match e with
          | ⟨0, _⟩ => rfl
          | ⟨1, _⟩ => absurd rfl he)
        (by show 128 + (k.val - 128) = k.val; omega)
    · rw [dif_neg h2]
      by_cases h3 : k.val < 257
      · rw [dif_pos h3]
        exact concatenate_apply_piece 1 _ _ (ix2 r k) 2 (by show (2 : ℕ) < 4; omega) S2000x1 c rfl rfl 256 rfl (ix2 r (0 : Fin 1))
          (fun e he => match e with
            | ⟨0, _⟩ => rfl
            | ⟨1, _⟩ => absurd rfl he)
          (by show 256 + 0 = k.val; omega)
      · rw [dif_neg h3]
        have hk := k.isLt
        exact concatenate_apply_piece 1 _ _ (ix2 r k) 3 (by show (3 : ℕ) < 4; omega) S2000x8 d rfl rfl 257 rfl (ix2 r (⟨k.val - 257, by omega⟩ : Fin 8))
          (fun e he => match e with
            | ⟨0, _⟩ => rfl
            | ⟨1, _⟩ => absurd rfl he)
          (by show 257 + (k.val - 257) = k.val; omega)

/-! ### The edge network on row r -/

/-- A dense layer of 265 inputs with its bias and silu, at entry (r, j). -/
theorem e_layerA_apply (l : FVec Ideal S2000x265 .bf16) (w : FVec Ideal S265x128 .bf16) (b : FVec Ideal S1x128 .f32) (r : Fin 2000) (j : Fin 128) :
    mulf (addf (matmul (F := Ideal) dot_S2000x265_S265x128_S2000x128_1_0_0_1_n_n none l w (constant S2000x128 .f32 0x00000000#32))
            (broadcastTo S2000x128 b broadcasts_S1x128_S2000x128))
         (logistic (addf (matmul (F := Ideal) dot_S2000x265_S265x128_S2000x128_1_0_0_1_n_n none l w (constant S2000x128 .f32 0x00000000#32))
            (broadcastTo S2000x128 b broadcasts_S1x128_S2000x128))) (ix2 r j)
      = Cert.Spec.silu ((∑ k : Fin 265, l (ix2 r k) * w (ix2 k j)) + b (ix2 (0 : Fin 1) j)) := by
  show Cert.Spec.silu (matmul (F := Ideal) dot_S2000x265_S265x128_S2000x128_1_0_0_1_n_n none l w (constant S2000x128 .f32 0x00000000#32) (ix2 r j)
      + broadcastTo S2000x128 b broadcasts_S1x128_S2000x128 (ix2 r j)) = _
  rw [e_mmA_apply, e_bcastRow_apply]

/-- A dense layer of 128 inputs with its bias and silu, at entry (r, j). -/
theorem e_layerB_apply (l : FVec Ideal S2000x128 .bf16) (w : FVec Ideal S128x128 .bf16) (b : FVec Ideal S1x128 .f32) (r : Fin 2000) (j : Fin 128) :
    mulf (addf (matmul (F := Ideal) dot_S2000x128_S128x128_S2000x128_1_0_0_1_n_n none l w (constant S2000x128 .f32 0x00000000#32))
            (broadcastTo S2000x128 b broadcasts_S1x128_S2000x128))
         (logistic (addf (matmul (F := Ideal) dot_S2000x128_S128x128_S2000x128_1_0_0_1_n_n none l w (constant S2000x128 .f32 0x00000000#32))
            (broadcastTo S2000x128 b broadcasts_S1x128_S2000x128))) (ix2 r j)
      = Cert.Spec.silu ((∑ k : Fin 128, l (ix2 r k) * w (ix2 k j)) + b (ix2 (0 : Fin 1) j)) := by
  show Cert.Spec.silu (matmul (F := Ideal) dot_S2000x128_S128x128_S2000x128_1_0_0_1_n_n none l w (constant S2000x128 .f32 0x00000000#32) (ix2 r j)
      + broadcastTo S2000x128 b broadcasts_S1x128_S2000x128 (ix2 r j)) = _
  rw [e_mmB_apply, e_bcastRow_apply]

/-- The second hidden layer of row r at column j. -/
theorem e_pay5_apply (x0 x1 : Vec Ideal S2000x128 .f32) (x2 : Vec Ideal S2000x12 .f32) (x3 : Vec Ideal S265x128 .f32)
    (x4 : Vec Ideal S1x128 .f32) (x5 : Vec Ideal S128x128 .f32) (x6 : Vec Ideal S1x128 .f32) (r : Fin 2000) (j : Fin 128) :
    k0_pay5 (F := Ideal) x0 x1 x2 x3 x4 x5 x6 (ix2 r j)
      = Cert.Spec.hid2 (rowIn x0 x1 x2 r) (fun k i => x3 (ix2 k i)) (fun i => x4 (ix2 (0 : Fin 1) i)) (fun k i => x5 (ix2 k i))
          (fun i => x6 (ix2 (0 : Fin 1) i)) j := by
  unfold k0_pay5
  refine (e_layerB_apply _ _ _ r j).trans ?_
  unfold Cert.Spec.hid2 Cert.Spec.dot
  refine congrArg Cert.Spec.silu (congrArg₂ (· + ·) (Finset.sum_congr rfl fun k _ => congrArg₂ (· * ·) ?_ rfl) ?_)
  · refine (e_layerA_apply _ _ _ r k).trans ?_
    unfold Cert.Spec.hid1 Cert.Spec.dot
    refine congrArg Cert.Spec.silu (congrArg₂ (· + ·) (Finset.sum_congr rfl fun i _ => congrArg₂ (· * ·) ?_ rfl) ?_)
    · refine (e_cat_apply _ _ _ _ r i).trans ?_
      rw [shapeCast_self x0, shapeCast_self x1, show k0_pay3 (F := Ideal) x2 = x2 from shapeCast_self x2 _]
      show Cert.Spec.ein (fun k => x0 (ix2 r k)) (fun k => x1 (ix2 r k))
          (extractStridedSlice S2000x1 ![0, 3] x2 slices_S2000x12_o0_3_S2000x1 (ix2 r (0 : Fin 1)))
          (fun a => extractStridedSlice S2000x8 ![0, 4] x2 slices_S2000x12_o0_4_S2000x8 (ix2 r a)) i = _
      rw [e_slice3_apply x2 r 0, funext (e_slice4_apply x2 r)]
    · exact congrFun (shapeCast_self x4 _) _
  · exact congrFun (shapeCast_self x6 _) _

/-- The attention gate of row r. -/
theorem e_gate_apply (x0 x1 : Vec Ideal S2000x128 .f32) (x2 : Vec Ideal S2000x12 .f32) (x3 : Vec Ideal S265x128 .f32)
    (x4 : Vec Ideal S1x128 .f32) (x5 : Vec Ideal S128x128 .f32) (x6 : Vec Ideal S1x128 .f32) (x7 : Vec Ideal S128x1 .f32)
    (x8 : Vec Ideal S1x1 .f32) (r : Fin 2000) :
    logistic (addf (matmul (F := Ideal) dot_S2000x128_S128x1_S2000x1_1_0_0_1_n_n none (k0_pay6 x0 x1 x2 x3 x4 x5 x6) (k0_pay7 x7)
          (constant S2000x1 .f32 0x00000000#32)) (broadcastTo S2000x1 (k0_pay8 x8) broadcasts_S1x1_S2000x1)) (ix2 r (0 : Fin 1))
      = Cert.Spec.gate (rowIn x0 x1 x2 r) (fun k i => x3 (ix2 k i)) (fun i => x4 (ix2 (0 : Fin 1) i)) (fun k i => x5 (ix2 k i))
          (fun i => x6 (ix2 (0 : Fin 1) i)) (fun k => x7 (ix2 k (0 : Fin 1))) (x8 (ix2 (0 : Fin 1) (0 : Fin 1))) := by
  show Ideal.logistic (matmul (F := Ideal) dot_S2000x128_S128x1_S2000x1_1_0_0_1_n_n none (k0_pay6 x0 x1 x2 x3 x4 x5 x6) (k0_pay7 x7)
          (constant S2000x1 .f32 0x00000000#32) (ix2 r (0 : Fin 1))
        + broadcastTo S2000x1 (k0_pay8 x8) broadcasts_S1x1_S2000x1 (ix2 r (0 : Fin 1))) = _
  rw [e_mmC_apply, e_bcastOne_apply]
  unfold Cert.Spec.gate Cert.Spec.dot
  refine congrArg Ideal.logistic (congrArg₂ (· + ·) (Finset.sum_congr rfl fun k _ => ?_) ?_)
  · show k0_pay5 (F := Ideal) x0 x1 x2 x3 x4 x5 x6 (ix2 r k) * x7 (ix2 k (0 : Fin 1)) = _
    rw [e_pay5_apply]
  · exact congrFun (shapeCast_self x8 _) _

/-- Entry (r, j) of the message block is the edge network's message of row r at column j. -/
theorem payM_apply (x0 x1 : Vec Ideal S2000x128 .f32) (x2 : Vec Ideal S2000x12 .f32) (x3 : Vec Ideal S265x128 .f32)
    (x4 : Vec Ideal S1x128 .f32) (x5 : Vec Ideal S128x128 .f32) (x6 : Vec Ideal S1x128 .f32) (x7 : Vec Ideal S128x1 .f32)
    (x8 : Vec Ideal S1x1 .f32) (r : Fin 2000) (j : Fin 128) :
    k0_pay1 (F := Ideal) (k0_pay5 x0 x1 x2 x3 x4 x5 x6) (k0_pay6 x0 x1 x2 x3 x4 x5 x6) (k0_pay7 x7) (k0_pay8 x8)
        (constant S2000x1 .f32 0x00000000#32) (ix2 r j)
      = Cert.Spec.msg (rowIn x0 x1 x2 r) (fun k i => x3 (ix2 k i)) (fun i => x4 (ix2 (0 : Fin 1) i)) (fun k i => x5 (ix2 k i))
          (fun i => x6 (ix2 (0 : Fin 1) i)) (fun k => x7 (ix2 k (0 : Fin 1))) (x8 (ix2 (0 : Fin 1) (0 : Fin 1))) j := by
  unfold k0_pay1
  refine (mulf_apply _ _ _).trans ?_
  rw [e_bcastCol128_apply, e_gate_apply, e_pay5_apply]
  rfl

/-- Entry (r, d) of the position block is the position difference x2 r d times the edge network's scalar of row r. -/
theorem payT_apply (x0 x1 : Vec Ideal S2000x128 .f32) (x2 : Vec Ideal S2000x12 .f32) (x3 : Vec Ideal S265x128 .f32)
    (x4 : Vec Ideal S1x128 .f32) (x5 : Vec Ideal S128x128 .f32) (x6 : Vec Ideal S1x128 .f32) (x7 : Vec Ideal S128x1 .f32)
    (x8 : Vec Ideal S1x1 .f32) (x9 : Vec Ideal S128x1 .f32) (r : Fin 2000) (d : Fin 3) :
    k0_pay2 (F := Ideal) (k0_pay4 x2) (k0_pay5 x0 x1 x2 x3 x4 x5 x6) (k0_pay6 x0 x1 x2 x3 x4 x5 x6) (k0_pay7 x7) (k0_pay8 x8)
        (constant S2000x1 .f32 0x00000000#32) x9 (ix2 r d)
      = x2 (ix2 r (⟨d.val, by omega⟩ : Fin 12))
        * Cert.Spec.tsc (rowIn x0 x1 x2 r) (fun k i => x3 (ix2 k i)) (fun i => x4 (ix2 (0 : Fin 1) i)) (fun k i => x5 (ix2 k i))
            (fun i => x6 (ix2 (0 : Fin 1) i)) (fun k => x7 (ix2 k (0 : Fin 1))) (x8 (ix2 (0 : Fin 1) (0 : Fin 1)))
            (fun k => x9 (ix2 k (0 : Fin 1))) := by
  unfold k0_pay2
  refine (mulf_apply _ _ _).trans ?_
  rw [e_bcastCol3_apply, e_mmC_apply]
  refine congrArg₂ (· * ·) ?_ ?_
  · unfold k0_pay4
    rw [show k0_pay3 (F := Ideal) x2 = x2 from shapeCast_self x2 _]
    exact e_slice0_apply x2 r d
  · unfold Cert.Spec.tsc Cert.Spec.dot
    refine Finset.sum_congr rfl fun k _ => ?_
    show k0_pay1 (F := Ideal) (k0_pay5 x0 x1 x2 x3 x4 x5 x6) (k0_pay6 x0 x1 x2 x3 x4 x5 x6) (k0_pay7 x7) (k0_pay8 x8)
        (constant S2000x1 .f32 0x00000000#32) (ix2 r k) * x9 (ix2 k (0 : Fin 1)) = _
    rw [payM_apply]

end Cert.KernelIdeal.Hand

end
-- ==== Proof.KI.Arr0.lean ====
/-
  From blocks to arrays, for the edge kernel's pallas_call. Grid point t writes back rows 2000·t … 2000·t + 1999 of each output
  array and reads the same rows of the three blocked inputs; the 320 blocks tile the 640000 rows. So after the pallas_call the
  message array at (e, j) is the edge network's message of row e of the inputs, and the position array at (e, d) is the
  position difference in column d of the extra columns times the network's scalar.
-/
import proofs.«406677_j84052509983239_1_alg».proof.Proof.KI.Body0
import proofs.«406677_j84052509983239_1_alg».proof.Proof.KI.PayM
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx
open Cert.KernelIdeal Cert.KernelIdeal.Gen

open Idealize.ShloMosaic.TcCoe Idealize.ShloMosaic.Pipeline

variable (V : (c : Dev nD) → (b : Ref sig .tc) → Buf (Elt Ideal) ((c : Thread nD τ).loc b)) (c : Dev nD)

/-- Edge e's input row to the edge network, read off the entry contents of the three blocked inputs. -/
abbrev rowV (e : Fin 640000) : Fin 265 → EReal :=
  Cert.Spec.ein (fun k => (V c main_v4 : S640000x128.Idx → EReal) (ix2 e k)) (fun k => (V c main_v5 : S640000x128.Idx → EReal) (ix2 e k))
    ((V c main_v12 : S640000x12.Idx → EReal) (ix2 e (3 : Fin 12)))
    (fun a => (V c main_v12 : S640000x12.Idx → EReal) (ix2 e (⟨4 + a.val, by omega⟩ : Fin 12)))

/-! ## The printed index maps over the grid -/

/-- The five windows cut along the edge axis sit at block row t, block column 0, at every grid point t. -/
theorem a0_rows_at : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The seven weight windows are their whole arrays at every grid point: block (0, 0). -/
theorem a0_whole_at : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row r of block t is an edge: 2000 t + r < 640000. -/
theorem a0_row_lt (t : Fin cfg0.N) (r : Fin 2000) : 2000 * t.val + r.val < 640000 := by
  have ht : t.val < 320 := t.isLt
  have hr := r.isLt
  omega

/-! ## Each input block as rows of its array -/

/-- Block t of the receiving ends' feature rows is rows 2000 t … 2000 t + 1999 of the array. -/
theorem a0_read_0 (t : Fin cfg0.N) (r : Fin 2000) (k : Fin 128) :
    (iblk0 V c 0 t : Vec Ideal S2000x128 .f32) (ix2 r k)
      = (V c main_v4 : S640000x128.Idx → EReal) (ix2 ⟨2000 * t.val + r.val, a0_row_lt t r⟩ k) := by
  obtain ⟨e0, e1⟩ := (a0_rows_at t).1
  unfold iblk0
  rw [View.read_apply]
  show V c main_v4 _ = V c main_v4 _
  refine congrArg _ ?_
  funext a
  apply Fin.ext
  match a with
  | ⟨0, _⟩ => show win0_0.index t (0 : Fin 2) * 2000 + 1 * r.val = 2000 * t.val + r.val; rw [e0]; omega
  | ⟨1, _⟩ => show win0_0.index t (1 : Fin 2) * 128 + 1 * k.val = k.val; rw [e1]; omega

/-- Block t of the sending ends' feature rows is rows 2000 t … 2000 t + 1999 of the array. -/
theorem a0_read_1 (t : Fin cfg0.N) (r : Fin 2000) (k : Fin 128) :
    (iblk0 V c 1 t : Vec Ideal S2000x128 .f32) (ix2 r k)
      = (V c main_v5 : S640000x128.Idx → EReal) (ix2 ⟨2000 * t.val + r.val, a0_row_lt t r⟩ k) := by
  obtain ⟨e0, e1⟩ := (a0_rows_at t).2.1
  unfold iblk0
  rw [View.read_apply]
  show V c main_v5 _ = V c main_v5 _
  refine congrArg _ ?_
  funext a
  apply Fin.ext
  match a with
  | ⟨0, _⟩ => show win0_1.index t (0 : Fin 2) * 2000 + 1 * r.val = 2000 * t.val + r.val; rw [e0]; omega
  | ⟨1, _⟩ => show win0_1.index t (1 : Fin 2) * 128 + 1 * k.val = k.val; rw [e1]; omega

/-- Block t of the extra columns (position difference, squared distance, attributes) is rows 2000 t … 2000 t + 1999 of the array. -/
theorem a0_read_2 (t : Fin cfg0.N) (r : Fin 2000) (k : Fin 12) :
    (iblk0 V c 2 t : Vec Ideal S2000x12 .f32) (ix2 r k)
      = (V c main_v12 : S640000x12.Idx → EReal) (ix2 ⟨2000 * t.val + r.val, a0_row_lt t r⟩ k) := by
  obtain ⟨e0, e1⟩ := (a0_rows_at t).2.2.1
  unfold iblk0
  rw [View.read_apply]
  show V c main_v12 _ = V c main_v12 _
  refine congrArg _ ?_
  funext a
  apply Fin.ext
  match a with
  | ⟨0, _⟩ => show win0_2.index t (0 : Fin 2) * 2000 + 1 * r.val = 2000 * t.val + r.val; rw [e0]; omega
  | ⟨1, _⟩ => show win0_2.index t (1 : Fin 2) * 12 + 1 * k.val = k.val; rw [e1]; omega

/-- The first layer's weights are read whole at every point. -/
theorem a0_read_3 (t : Fin cfg0.N) (r : Fin 265) (k : Fin 128) :
    (iblk0 V c 3 t : Vec Ideal S265x128 .f32) (ix2 r k) = (V c main_arg4 : S265x128.Idx → EReal) (ix2 r k) := by
  obtain ⟨e0, e1⟩ := (a0_whole_at t).1
  unfold iblk0
  rw [View.read_apply]
  show V c main_arg4 _ = V c main_arg4 _
  refine congrArg _ ?_
  funext a
  apply Fin.ext
  match a with
  | ⟨0, _⟩ => show win0_3.index t (0 : Fin 2) * 265 + 1 * r.val = r.val; rw [e0]; omega
  | ⟨1, _⟩ => show win0_3.index t (1 : Fin 2) * 128 + 1 * k.val = k.val; rw [e1]; omega

/-- The first layer's bias row is read whole at every point. -/
theorem a0_read_4 (t : Fin cfg0.N) (r : Fin 1) (k : Fin 128) :
    (iblk0 V c 4 t : Vec Ideal S1x128 .f32) (ix2 r k) = (V c main_v13 : S1x128.Idx → EReal) (ix2 r k) := by
  obtain ⟨e0, e1⟩ := (a0_whole_at t).2.1
  unfold iblk0
  rw [View.read_apply]
  show V c main_v13 _ = V c main_v13 _
  refine congrArg _ ?_
  funext a
  apply Fin.ext
  match a with
  | ⟨0, _⟩ => show win0_4.index t (0 : Fin 2) * 1 + 1 * r.val = r.val; rw [e0]; omega
  | ⟨1, _⟩ => show win0_4.index t (1 : Fin 2) * 128 + 1 * k.val = k.val; rw [e1]; omega

/-- The second layer's weights are read whole at every point. -/
theorem a0_read_5 (t : Fin cfg0.N) (r : Fin 128) (k : Fin 128) :
    (iblk0 V c 5 t : Vec Ideal S128x128 .f32) (ix2 r k) = (V c main_arg6 : S128x128.Idx → EReal) (ix2 r k) := by
  obtain ⟨e0, e1⟩ := (a0_whole_at t).2.2.1
  unfold iblk0
  rw [View.read_apply]
  show V c main_arg6 _ = V c main_arg6 _
  refine congrArg _ ?_
  funext a
  apply Fin.ext
  match a with
  | ⟨0, _⟩ => show win0_5.index t (0 : Fin 2) * 128 + 1 * r.val = r.val; rw [e0]; omega
  | ⟨1, _⟩ => show win0_5.index t (1 : Fin 2) * 128 + 1 * k.val = k.val; rw [e1]; omega

/-- The second layer's bias row is read whole at every point. -/
theorem a0_read_6 (t : Fin cfg0.N) (r : Fin 1) (k : Fin 128) :
    (iblk0 V c 6 t : Vec Ideal S1x128 .f32) (ix2 r k) = (V c main_v14 : S1x128.Idx → EReal) (ix2 r k) := by
  obtain ⟨e0, e1⟩ := (a0_whole_at t).2.2.2.1
  unfold iblk0
  rw [View.read_apply]
  show V c main_v14 _ = V c main_v14 _
  refine congrArg _ ?_
  funext a
  apply Fin.ext
  match a with
  | ⟨0, _⟩ => show win0_6.index t (0 : Fin 2) * 1 + 1 * r.val = r.val; rw [e0]; omega
  | ⟨1, _⟩ => show win0_6.index t (1 : Fin 2) * 128 + 1 * k.val = k.val; rw [e1]; omega

/-- The gate's weight column is read whole at every point. -/
theorem a0_read_7 (t : Fin cfg0.N) (r : Fin 128) (k : Fin 1) :
    (iblk0 V c 7 t : Vec Ideal S128x1 .f32) (ix2 r k) = (V c main_arg8 : S128x1.Idx → EReal) (ix2 r k) := by
  obtain ⟨e0, e1⟩ := (a0_whole_at t).2.2.2.2.1
  unfold iblk0
  rw [View.read_apply]
  show V c main_arg8 _ = V c main_arg8 _
  refine congrArg _ ?_
  funext a
  apply Fin.ext
  match a with
  | ⟨0, _⟩ => show win0_7.index t (0 : Fin 2) * 128 + 1 * r.val = r.val; rw [e0]; omega
  | ⟨1, _⟩ => show win0_7.index t (1 : Fin 2) * 1 + 1 * k.val = k.val; rw [e1]; omega

/-- The gate's bias is read whole at every point. -/
theorem a0_read_8 (t : Fin cfg0.N) (r : Fin 1) (k : Fin 1) :
    (iblk0 V c 8 t : Vec Ideal S1x1 .f32) (ix2 r k) = (V c main_v15 : S1x1.Idx → EReal) (ix2 r k) := by
  obtain ⟨e0, e1⟩ := (a0_whole_at t).2.2.2.2.2.1
  unfold iblk0
  rw [View.read_apply]
  show V c main_v15 _ = V c main_v15 _
  refine congrArg _ ?_
  funext a
  apply Fin.ext
  match a with
  | ⟨0, _⟩ => show win0_8.index t (0 : Fin 2) * 1 + 1 * r.val = r.val; rw [e0]; omega
  | ⟨1, _⟩ => show win0_8.index t (1 : Fin 2) * 1 + 1 * k.val = k.val; rw [e1]; omega

/-- The position scalar's weight column is read whole at every point. -/
theorem a0_read_9 (t : Fin cfg0.N) (r : Fin 128) (k : Fin 1) :
    (iblk0 V c 9 t : Vec Ideal S128x1 .f32) (ix2 r k) = (V c main_arg14 : S128x1.Idx → EReal) (ix2 r k) := by
  obtain ⟨e0, e1⟩ := (a0_whole_at t).2.2.2.2.2.2
  unfold iblk0
  rw [View.read_apply]
  show V c main_arg14 _ = V c main_arg14 _
  refine congrArg _ ?_
  funext a
  apply Fin.ext
  match a with
  | ⟨0, _⟩ => show win0_9.index t (0 : Fin 2) * 128 + 1 * r.val = r.val; rw [e0]; omega
  | ⟨1, _⟩ => show win0_9.index t (1 : Fin 2) * 1 + 1 * k.val = k.val; rw [e1]; omega

/-! ## The two output arrays as functions of the entry contents -/

/-- The message of edge e at column j: the edge network on edge e's input row. -/
def a0_msgAt (e : Fin 640000) (j : Fin 128) : EReal :=
  Cert.Spec.msg (rowV V c e) (fun k i => (V c main_arg4 : S265x128.Idx → EReal) (ix2 k i))
    (fun i => (V c main_v13 : S1x128.Idx → EReal) (ix2 (0 : Fin 1) i)) (fun k i => (V c main_arg6 : S128x128.Idx → EReal) (ix2 k i))
    (fun i => (V c main_v14 : S1x128.Idx → EReal) (ix2 (0 : Fin 1) i)) (fun k => (V c main_arg8 : S128x1.Idx → EReal) (ix2 k (0 : Fin 1)))
    ((V c main_v15 : S1x1.Idx → EReal) (ix2 (0 : Fin 1) (0 : Fin 1))) j

/-- The position update of edge e in column d: the edge's position difference times the network's scalar of the edge. -/
def a0_posAt (e : Fin 640000) (d : Fin 3) : EReal :=
  HMul.hMul (α := EReal) (β := EReal) (γ := EReal) ((V c main_v12 : S640000x12.Idx → EReal) (ix2 e (⟨d.val, by omega⟩ : Fin 12)))
    (Cert.Spec.tsc (rowV V c e) (fun k i => (V c main_arg4 : S265x128.Idx → EReal) (ix2 k i))
        (fun i => (V c main_v13 : S1x128.Idx → EReal) (ix2 (0 : Fin 1) i)) (fun k i => (V c main_arg6 : S128x128.Idx → EReal) (ix2 k i))
        (fun i => (V c main_v14 : S1x128.Idx → EReal) (ix2 (0 : Fin 1) i)) (fun k => (V c main_arg8 : S128x1.Idx → EReal) (ix2 k (0 : Fin 1)))
        ((V c main_v15 : S1x1.Idx → EReal) (ix2 (0 : Fin 1) (0 : Fin 1)))
        (fun k => (V c main_arg14 : S128x1.Idx → EReal) (ix2 k (0 : Fin 1))))

/-- The message array, entry by entry. -/
def a0_msgArr : S640000x128.Idx → EReal := fun i => a0_msgAt V c (i 0) (i 1)

/-- The position-update array, entry by entry. -/
def a0_posArr : S640000x3.Idx → EReal := fun i => a0_posAt V c (i 0) (i 1)

/-! ## What one grid point writes back -/

/-- Entry (r, j) of the message block computed at point t is the message of edge 2000 t + r at column j. -/
theorem a0_blkM_at (t : Fin cfg0.N) (r : Fin 2000) (j : Fin 128) :
    blkM (F := Ideal) (iblk0 V c 0 t) (iblk0 V c 1 t) (iblk0 V c 2 t) (iblk0 V c 3 t) (iblk0 V c 4 t) (iblk0 V c 5 t) (iblk0 V c 6 t)
        (iblk0 V c 7 t) (iblk0 V c 8 t) (ix2 r j)
      = a0_msgAt V c ⟨2000 * t.val + r.val, a0_row_lt t r⟩ j := by
  unfold blkM
  refine (payM_apply (iblk0 V c 0 t) (iblk0 V c 1 t) (iblk0 V c 2 t) (iblk0 V c 3 t) (iblk0 V c 4 t) (iblk0 V c 5 t) (iblk0 V c 6 t)
    (iblk0 V c 7 t) (iblk0 V c 8 t) r j).trans ?_
  simp only [rowIn, rowV, a0_msgAt, a0_read_0 V c t, a0_read_1 V c t, a0_read_2 V c t, a0_read_3 V c t, a0_read_4 V c t,
    a0_read_5 V c t, a0_read_6 V c t, a0_read_7 V c t, a0_read_8 V c t]

/-- Entry (r, d) of the position block computed at point t is the position update of edge 2000 t + r in column d. -/
theorem a0_blkT_at (t : Fin cfg0.N) (r : Fin 2000) (d : Fin 3) :
    blkT (F := Ideal) (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (ix2 r d)
      = a0_posAt V c ⟨2000 * t.val + r.val, a0_row_lt t r⟩ d := by
  unfold blkT
  refine (payT_apply (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) r d).trans ?_
  simp only [rowIn, rowV, a0_posAt, a0_read_0 V c t, a0_read_1 V c t, a0_read_2 V c t, a0_read_3 V c t, a0_read_4 V c t,
    a0_read_5 V c t, a0_read_6 V c t, a0_read_7 V c t, a0_read_8 V c t, a0_read_9 V c t]

/-- Point t writes back block t of the message array. -/
theorem a0_flushedM (t : Fin cfg0.N) :
    (dat0 V c).flushed 10 t = ((cfg0.win 10).blk t).view.read (Elt Ideal) (a0_msgArr V c) := by
  show (cfg0.win 10).cut (grid0.coords t) ((dat0 V c).after 10 t) = _
  rw [after0_10]
  obtain ⟨-, -, -, ⟨e0, e1⟩, -⟩ := a0_rows_at t
  funext y
  obtain ⟨r, j, rfl⟩ : ∃ (r : Fin 2000) (j : Fin 128), y = ix2 r j := ⟨y 0, y 1, eq_ix2 y⟩
  show blkM (F := Ideal) (iblk0 V c 0 t) (iblk0 V c 1 t) (iblk0 V c 2 t) (iblk0 V c 3 t) (iblk0 V c 4 t) (iblk0 V c 5 t) (iblk0 V c 6 t)
        (iblk0 V c 7 t) (iblk0 V c 8 t) (ix2 r j) = a0_msgArr V c (((cfg0.win 10).blk t).view.emb (ix2 r j))
  rw [a0_blkM_at]
  show a0_msgArr V c (ix2 ⟨2000 * t.val + r.val, a0_row_lt t r⟩ j) = _
  refine congrArg (a0_msgArr V c) ?_
  funext a
  apply Fin.ext
  match a with
  | ⟨0, _⟩ => show 2000 * t.val + r.val = win0_10.index t (0 : Fin 2) * 2000 + 1 * r.val; rw [e0]; omega
  | ⟨1, _⟩ => show j.val = win0_10.index t (1 : Fin 2) * 128 + 1 * j.val; rw [e1]; omega

/-- Point t writes back block t of the position-update array. -/
theorem a0_flushedT (t : Fin cfg0.N) :
    (dat0 V c).flushed 11 t = ((cfg0.win 11).blk t).view.read (Elt Ideal) (a0_posArr V c) := by
  show (cfg0.win 11).cut (grid0.coords t) ((dat0 V c).after 11 t) = _
  rw [after0_11]
  obtain ⟨-, -, -, -, ⟨e0, e1⟩⟩ := a0_rows_at t
  funext y
  obtain ⟨r, d, rfl⟩ : ∃ (r : Fin 2000) (d : Fin 3), y = ix2 r d := ⟨y 0, y 1, eq_ix2 y⟩
  show blkT (F := Ideal) (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (ix2 r d) = a0_posArr V c (((cfg0.win 11).blk t).view.emb (ix2 r d))
  rw [a0_blkT_at]
  show a0_posArr V c (ix2 ⟨2000 * t.val + r.val, a0_row_lt t r⟩ d) = _
  refine congrArg (a0_posArr V c) ?_
  funext a
  apply Fin.ext
  match a with
  | ⟨0, _⟩ => show 2000 * t.val + r.val = win0_11.index t (0 : Fin 2) * 2000 + 1 * r.val; rw [e0]; omega
  | ⟨1, _⟩ => show d.val = win0_11.index t (1 : Fin 2) * 3 + 1 * d.val; rw [e1]; omega

/-! ## The blocks tile the arrays -/

/-- An entry of the message array is in point t's block iff each coordinate is in the block's range on its axis. -/
theorem a0_mem_blkM (t : Fin cfg0.N) (i : S640000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v18_0).slice (win0_10.rect t)).set ↔ _
  rw [View.set_slice_whole, Rect.mem_set_unit]
  exact Iff.rfl

/-- An entry of the position-update array is in point t's block iff each coordinate is in the block's range on its axis. -/
theorem a0_mem_blkT (t : Fin cfg0.N) (i : S640000x3.Idx) :
    i ∈ ((cfg0.win 11).blk t).view.set ↔ ∀ a : Fin 2, win0_11.index t a * S2000x3.size a ≤ (i a).val ∧ (i a).val < win0_11.index t a * S2000x3.size a + S2000x3.size a := by
  show i ∈ ((View.whole main_v18_1).slice (win0_11.rect t)).set ↔ _
  rw [View.set_slice_whole, Rect.mem_set_unit]
  exact Iff.rfl

/-- Row e of the message array is written back by point e / 2000. -/
theorem a0_coverM (i : S640000x128.Idx) :
    ∃ t : Fin cfg0.N, (cfg0.win 10).flush t = true ∧ i ∈ ((cfg0.win 10).blk t).view.set := by
  have h0 : (i 0).val < 640000 := (i 0).isLt
  have h1 : (i 1).val < 128 := (i 1).isLt
  have ht : (i 0).val / 2000 < 320 := by omega
  obtain ⟨-, -, -, ⟨e0, e1⟩, -⟩ := a0_rows_at ⟨(i 0).val / 2000, ht⟩
  refine ⟨⟨(i 0).val / 2000, ht⟩, flush0_10 _, ?_⟩
  rw [a0_mem_blkM]
  intro a
  match a with
  | ⟨0, _⟩ =>
    show win0_10.index ⟨(i 0).val / 2000, ht⟩ (0 : Fin 2) * 2000 ≤ (i 0).val ∧ (i 0).val < win0_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_10.index ⟨(i 0).val / 2000, ht⟩ (1 : Fin 2) * 128 ≤ (i 1).val ∧ (i 1).val < win0_10.index ⟨(i 0).val / 2000, ht⟩ (1 : Fin 2) * 128 + 128
    rw [e1]; omega

/-- Row e of the position-update array is written back by point e / 2000. -/
theorem a0_coverT (i : S640000x3.Idx) :
    ∃ t : Fin cfg0.N, (cfg0.win 11).flush t = true ∧ i ∈ ((cfg0.win 11).blk t).view.set := by
  have h0 : (i 0).val < 640000 := (i 0).isLt
  have h1 : (i 1).val < 3 := (i 1).isLt
  have ht : (i 0).val / 2000 < 320 := by omega
  obtain ⟨-, -, -, -, ⟨e0, e1⟩⟩ := a0_rows_at ⟨(i 0).val / 2000, ht⟩
  refine ⟨⟨(i 0).val / 2000, ht⟩, flush0_11 _, ?_⟩
  rw [a0_mem_blkT]
  intro a
  match a with
  | ⟨0, _⟩ =>
    show win0_11.index ⟨(i 0).val / 2000, ht⟩ (0 : Fin 2) * 2000 ≤ (i 0).val ∧ (i 0).val < win0_11.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_11.index ⟨(i 0).val / 2000, ht⟩ (1 : Fin 2) * 3 ≤ (i 1).val ∧ (i 1).val < win0_11.index ⟨(i 0).val / 2000, ht⟩ (1 : Fin 2) * 3 + 3
    rw [e1]; omega

/-! ## The arrays after the pallas_call -/

/-- The message array ends holding the messages of all edges. -/
theorem a0_arrM : (dat0 V c).arrAt 10 cfg0.N = a0_msgArr V c :=
  (dat0 V c).arrAt_eq_of_cover 10 (a0_msgArr V c) (fun t _ => a0_flushedM V c t) a0_coverM

/-- The position-update array ends holding the position updates of all edges. -/
theorem a0_arrT : (dat0 V c).arrAt 11 cfg0.N = a0_posArr V c :=
  (dat0 V c).arrAt_eq_of_cover 11 (a0_posArr V c) (fun t _ => a0_flushedT V c t) a0_coverT

/-- The message array after the pallas_call, at (e, j). -/
theorem final0_10 (e : Fin 640000) (j : Fin 128) :
    ((dat0 V c).arrAt 10 cfg0.N : S640000x128.Idx → EReal) (ix2 e j)
      = Cert.Spec.msg (rowV V c e) (fun k i => (V c main_arg4 : S265x128.Idx → EReal) (ix2 k i))
          (fun i => (V c main_v13 : S1x128.Idx → EReal) (ix2 (0 : Fin 1) i)) (fun k i => (V c main_arg6 : S128x128.Idx → EReal) (ix2 k i))
          (fun i => (V c main_v14 : S1x128.Idx → EReal) (ix2 (0 : Fin 1) i)) (fun k => (V c main_arg8 : S128x1.Idx → EReal) (ix2 k (0 : Fin 1)))
          ((V c main_v15 : S1x1.Idx → EReal) (ix2 (0 : Fin 1) (0 : Fin 1))) j := by
  rw [a0_arrM]
  rfl

/-- The position-update array after the pallas_call, at (e, d). -/
theorem final0_11 (e : Fin 640000) (d : Fin 3) :
    ((dat0 V c).arrAt 11 cfg0.N : S640000x3.Idx → EReal) (ix2 e d)
      = HMul.hMul (α := EReal) (β := EReal) (γ := EReal) ((V c main_v12 : S640000x12.Idx → EReal) (ix2 e (⟨d.val, by omega⟩ : Fin 12)))
        (Cert.Spec.tsc (rowV V c e) (fun k i => (V c main_arg4 : S265x128.Idx → EReal) (ix2 k i))
            (fun i => (V c main_v13 : S1x128.Idx → EReal) (ix2 (0 : Fin 1) i)) (fun k i => (V c main_arg6 : S128x128.Idx → EReal) (ix2 k i))
            (fun i => (V c main_v14 : S1x128.Idx → EReal) (ix2 (0 : Fin 1) i)) (fun k => (V c main_arg8 : S128x1.Idx → EReal) (ix2 k (0 : Fin 1)))
            ((V c main_v15 : S1x1.Idx → EReal) (ix2 (0 : Fin 1) (0 : Fin 1)))
            (fun k => (V c main_arg14 : S128x1.Idx → EReal) (ix2 k (0 : Fin 1)))) := by
  rw [a0_arrT]
  rfl

end Cert.KernelIdeal.Hand

end
-- ==== Proof.KI.Pay1.lean ====
/-
  One run of the node kernel's body, read at one entry. Row r of the output block depends only on row r of the two blocked
  inputs and on the whole weight arrays: entry (r, j) is the node update at column j of the rows x0 r (features) and x1 r
  (aggregated messages).
-/
import proofs.«406677_j84052509983239_1_alg».proof.Proof.Gen.KernelIdeal.Skeleton
import proofs.«406677_j84052509983239_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen

/-! ## The two blocks side by side -/

/-- The 2000 × 256 array made of the two 2000 × 128 blocks, read at (r, k): column k of the node network's input row,
    the features for k < 128 and the aggregated messages from column 128 on. -/
theorem cat_apply (x0 x1 : FVec Ideal S2000x128 .f32) (r : Fin 2000) (k : Fin 256) :
    concatenate S2000x256 1 [⟨S2000x128, x0⟩, ⟨S2000x128, x1⟩] concatenates_S2000x128_S2000x128_S2000x256_d1 (ix2 r k)
      = Cert.Spec.nin (fun k => x0 (ix2 r k)) (fun k => x1 (ix2 r k)) k := by
  unfold Cert.Spec.nin
  by_cases h1 : k.val < 128
  · rw [dif_pos h1]
    exact concatenate_pair_apply_left (1 : Fin S2000x256.rank) x0 x1 concatenates_S2000x128_S2000x128_S2000x256_d1 (ix2 r k) rfl
      (ix2 r ⟨k.val, h1⟩) (fun b => match b with
        | ⟨0, _⟩ => rfl
        | ⟨1, _⟩ => rfl)
  · rw [dif_neg h1]
    exact concatenate_pair_apply_right (1 : Fin S2000x256.rank) x0 x1 concatenates_S2000x128_S2000x128_S2000x256_d1 (ix2 r k) rfl rfl
      (ix2 r ⟨k.val - 128, by have := k.isLt; omega⟩) (fun b hb => match b, hb with
        | ⟨0, _⟩, _ => rfl
        | ⟨1, _⟩, hb => absurd rfl hb)
      (by show (k.val - 128) + 128 = k.val; omega)

/-! ## The bias row under every row -/

/-- A 1 × 128 row laid under each of the 2000 rows, read at (r, k): the row's entry k. -/
theorem bias_apply (b : FVec Ideal S1x128 .f32) (r : Fin 2000) (k : Fin 128) :
    broadcastTo S2000x128 (shapeCast S1x128 b shapeCasts_S1x128_S1x128) broadcasts_S1x128_S2000x128 (ix2 r k)
      = b (ix2 (0 : Fin 1) k) := by
  rw [shapeCast_self]
  exact broadcastTo_apply b broadcasts_S1x128_S2000x128 (ix2 r k) (ix2 (0 : Fin 1) k) (fun a => match a with
    | ⟨0, _⟩ => by show (0 : Nat) = if (1 : Nat) = 1 then 0 else r.val; rw [if_pos rfl]
    | ⟨1, _⟩ => by show k.val = if (128 : Nat) = 1 then 0 else k.val; rw [if_neg (by decide)])

/-! ## The first product: 2000 × 256 by 256 × 128 -/

theorem lhs_mm1_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_mm1_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_mm1_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_mm1_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product of a 2000 × 256 array by a 256 × 128 array added to the zero array, read at (r, j): the sum over the
    256 columns of the left row r times the right column j. -/
theorem mm1_apply (l : FVec Ideal S2000x256 .bf16) (w : FVec Ideal S256x128 .bf16) (r : Fin 2000) (j : Fin 128) :
    matmul (F := Ideal) dot_S2000x256_S256x128_S2000x128_1_0_0_1_n_n none l w (constant S2000x128 .f32 0x00000000#32) (ix2 r j)
      = ∑ k : Fin 256, l (ix2 r k) * w (ix2 k j) := by
  refine (Ideal.matmul_constant_zero_apply dot_S2000x256_S256x128_S2000x128_1_0_0_1_n_n none l w (ix2 r j)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r j) ((ValueIdx.contrEquiv1 dot_S2000x256_S256x128_S2000x128_1_0_0_1_n_n 256 rfl rfl).symm k) = ix2 r k := funext fun a => Fin.ext (by
    match a with
    | ⟨0, _⟩ => exact lhs_mm1_0 _ _
    | ⟨1, _⟩ => exact (lhs_mm1_1 _ _).trans hk)
  have er : dot_S2000x256_S256x128_S2000x128_1_0_0_1_n_n.rhsIdx (ix2 r j) ((ValueIdx.contrEquiv1 dot_S2000x256_S256x128_S2000x128_1_0_0_1_n_n 256 rfl rfl).symm k) = ix2 k j := funext fun a => Fin.ext (by
    match a with
    | ⟨0, _⟩ => exact (rhs_mm1_0 _ _).trans hk
    | ⟨1, _⟩ => exact rhs_mm1_1 _ _)
  rw [el, er]

/-! ## The second product: 2000 × 128 by 128 × 128 -/

theorem lhs_mm2_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm2_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm2_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm2_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a 2000 × 128 array by a 128 × 128 array added to the zero array, read at (r, j): the sum over the
    128 columns of the left row r times the right column j. -/
theorem mm2_apply (l : FVec Ideal S2000x128 .bf16) (w : FVec Ideal S128x128 .bf16) (r : Fin 2000) (j : Fin 128) :
    matmul (F := Ideal) dot_S2000x128_S128x128_S2000x128_1_0_0_1_n_n none l w (constant S2000x128 .f32 0x00000000#32) (ix2 r j)
      = ∑ k : Fin 128, l (ix2 r k) * w (ix2 k j) := by
  refine (Ideal.matmul_constant_zero_apply dot_S2000x128_S128x128_S2000x128_1_0_0_1_n_n none l w (ix2 r j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs_mm2_0 _ _
    | ⟨1, _⟩ => exact (lhs_mm2_1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs_mm2_0 _ _).trans hk
    | ⟨1, _⟩ => exact rhs_mm2_1 _ _)
  rw [el, er]

/-! ## The hidden layer -/

/-- The hidden layer as the body computes it: the two blocks side by side times the first weight array, the first bias
    row added under every row, then x ↦ x · σ(x) entry by entry. -/
def hidV (x0 x1 : FVec Ideal S2000x128 .f32) (x2 : FVec Ideal S256x128 .f32) (x3 : FVec Ideal S1x128 .f32) :
    FVec Ideal S2000x128 .f32 :=
  have v11 : FVec Ideal S2000x128 .f32 :=
    addf (matmul dot_S2000x256_S256x128_S2000x128_1_0_0_1_n_n none
        (truncf .bf16 (concatenate S2000x256 1 [⟨S2000x128, x0⟩, ⟨S2000x128, shapeCast S2000x128 x1 shapeCasts_S2000x128_S2000x128⟩]
          concatenates_S2000x128_S2000x128_S2000x256_d1) bitsLt_bf16_f32)
        (truncf .bf16 x2 bitsLt_bf16_f32) (constant S2000x128 .f32 0x00000000#32))
      (broadcastTo S2000x128 (shapeCast S1x128 x3 shapeCasts_S1x128_S1x128) broadcasts_S1x128_S2000x128)
  mulf v11 (logistic v11)

/-- The body is the hidden layer times the second weight array, the second bias row added under every row, the
    features added. -/
theorem pay_eq (x0 x1 : FVec Ideal S2000x128 .f32) (x2 : FVec Ideal S256x128 .f32) (x3 : FVec Ideal S1x128 .f32)
    (x4 : FVec Ideal S128x128 .f32) (x5 : FVec Ideal S1x128 .f32) :
    k1_pay1 (F := Ideal) x0 x1 x2 x3 x4 x5
      = addf (addf (matmul dot_S2000x128_S128x128_S2000x128_1_0_0_1_n_n none (truncf .bf16 (hidV x0 x1 x2 x3) bitsLt_bf16_f32)
            (truncf .bf16 x4 bitsLt_bf16_f32) (constant S2000x128 .f32 0x00000000#32))
          (broadcastTo S2000x128 (shapeCast S1x128 x5 shapeCasts_S1x128_S1x128) broadcasts_S1x128_S2000x128)) x0 := rfl

/-- The hidden layer at (r, k): x ↦ x · σ(x) of the input row of node r against column k of the first weight array,
    plus entry k of the first bias. -/
theorem hidV_apply (x0 x1 : FVec Ideal S2000x128 .f32) (x2 : FVec Ideal S256x128 .f32) (x3 : FVec Ideal S1x128 .f32)
    (r : Fin 2000) (k : Fin 128) :
    hidV x0 x1 x2 x3 (ix2 r k)
      = Cert.Spec.silu (Cert.Spec.dot (Cert.Spec.nin (fun k => x0 (ix2 r k)) (fun k => x1 (ix2 r k))) (fun i => x2 (ix2 i k))
          + x3 (ix2 (0 : Fin 1) k)) := by
  have e : matmul (F := Ideal) dot_S2000x256_S256x128_S2000x128_1_0_0_1_n_n none
        (truncf .bf16 (concatenate S2000x256 1 [⟨S2000x128, x0⟩, ⟨S2000x128, shapeCast S2000x128 x1 shapeCasts_S2000x128_S2000x128⟩]
          concatenates_S2000x128_S2000x128_S2000x256_d1) bitsLt_bf16_f32)
        (truncf .bf16 x2 bitsLt_bf16_f32) (constant S2000x128 .f32 0x00000000#32) (ix2 r k)
      + broadcastTo S2000x128 (shapeCast S1x128 x3 shapeCasts_S1x128_S1x128) broadcasts_S1x128_S2000x128 (ix2 r k)
      = Cert.Spec.dot (Cert.Spec.nin (fun k => x0 (ix2 r k)) (fun k => x1 (ix2 r k))) (fun i => x2 (ix2 i k))
          + x3 (ix2 (0 : Fin 1) k) := by
    rw [mm1_apply, bias_apply, shapeCast_self]
    unfold Cert.Spec.dot
    refine congrArg (· + x3 (ix2 (0 : Fin 1) k)) (Finset.sum_congr rfl fun i _ => ?_)
    exact congrArg (· * x2 (ix2 i k)) (cat_apply x0 x1 r i)
  exact congrArg (fun v : EReal => v * Ideal.logistic v) e

/-! ## One entry of the output block -/

/-- Entry (r, j) of the output block is the node update of row r at column j. -/
theorem payH_apply (x0 x1 : Vec Ideal S2000x128 .f32) (x2 : Vec Ideal S256x128 .f32) (x3 : Vec Ideal S1x128 .f32)
    (x4 : Vec Ideal S128x128 .f32) (x5 : Vec Ideal S1x128 .f32) (r : Fin 2000) (j : Fin 128) :
    k1_pay1 (F := Ideal) x0 x1 x2 x3 x4 x5 (ix2 r j)
      = Cert.Spec.hnew (fun k => x0 (ix2 r k)) (fun k => x1 (ix2 r k)) (fun k i => x2 (ix2 k i)) (fun i => x3 (ix2 (0 : Fin 1) i))
          (fun k i => x4 (ix2 k i)) (fun i => x5 (ix2 (0 : Fin 1) i)) j := by
  rw [pay_eq]
  show (matmul (F := Ideal) dot_S2000x128_S128x128_S2000x128_1_0_0_1_n_n none (truncf .bf16 (hidV x0 x1 x2 x3) bitsLt_bf16_f32)
          (truncf .bf16 x4 bitsLt_bf16_f32) (constant S2000x128 .f32 0x00000000#32) (ix2 r j)
        + broadcastTo S2000x128 (shapeCast S1x128 x5 shapeCasts_S1x128_S1x128) broadcasts_S1x128_S2000x128 (ix2 r j))
      + x0 (ix2 r j) = _
  rw [mm2_apply, bias_apply]
  unfold Cert.Spec.hnew Cert.Spec.dot
  refine congrArg (fun s : EReal => s + x5 (ix2 (0 : Fin 1) j) + x0 (ix2 r j)) (Finset.sum_congr rfl fun k _ => ?_)
  exact congrArg (· * x4 (ix2 k j)) (hidV_apply x0 x1 x2 x3 r k)

end Cert.KernelIdeal.Hand

end
-- ==== Proof.KI.Arr1.lean ====
/-
  From blocks to arrays, for the node kernel's pallas_call. Grid point t writes back rows 2000·t … 2000·t + 1999 of the output
  array and reads the same rows of the two blocked inputs; the 25 blocks tile the 50000 rows. So after the pallas_call the new
  feature array at (n, j) is the node update of row n of the features and of the aggregated messages.
-/
import proofs.«406677_j84052509983239_1_alg».proof.Proof.KI.Body1
import proofs.«406677_j84052509983239_1_alg».proof.Proof.KI.Pay1
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx
open Cert.KernelIdeal Cert.KernelIdeal.Gen

open Idealize.ShloMosaic.TcCoe Idealize.ShloMosaic.Pipeline

variable (V : (c : Dev nD) → (b : Ref sig .tc) → Buf (Elt Ideal) ((c : Thread nD τ).loc b)) (c : Dev nD)

/-- The node update of node n at column j, read off the arrays the pallas_call is entered from. -/
def a1_hnewAt (n : Fin 50000) (j : Fin 128) : EReal :=
  Cert.Spec.hnew (fun k => (V c main_arg0 : S50000x128.Idx → EReal) (ix2 n k)) (fun k => (V c main_v33 : S50000x128.Idx → EReal) (ix2 n k))
    (fun k i => (V c main_arg10 : S256x128.Idx → EReal) (ix2 k i)) (fun i => (V c main_v16 : S1x128.Idx → EReal) (ix2 (0 : Fin 1) i))
    (fun k i => (V c main_arg12 : S128x128.Idx → EReal) (ix2 k i)) (fun i => (V c main_v17 : S1x128.Idx → EReal) (ix2 (0 : Fin 1) i)) j

/-- The array of all node updates: row n, column j holds the update of node n at column j. -/
def a1_hnewArr : S50000x128.Idx → EReal := fun i => a1_hnewAt V c (i 0) (i 1)

/-- The grid has 25 points. -/
theorem a1_point_lt (t : Fin cfg1.N) : t.val < 25 := t.isLt.trans_eq N_1

/-- The index maps over the grid: the three blocked windows sit at block row t, column block 0; the four whole-array
    windows sit at block (0, 0) at every point. -/
theorem a1_block_index1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-! ## Each input block, read at one entry -/

/-- Row r of the feature block at point t is row 2000·t + r of the feature array. -/
theorem a1_featBlock_apply (t : Fin cfg1.N) (r : Fin 2000) (k : Fin 128) (hr : 2000 * t.val + r.val < 50000) :
    (iblk1 V c 0 t : S2000x128.Idx → EReal) (ix2 r k) = (V c main_arg0 : S50000x128.Idx → EReal) (ix2 (⟨2000 * t.val + r.val, hr⟩ : Fin 50000) k) := by
  show (V c main_arg0 : S50000x128.Idx → EReal) (((cfg1.win 0).blk t).view.emb (ix2 r k)) = _
  congr 1
  funext a
  apply Fin.ext
  match a with
  | ⟨0, _⟩ => show win1_0.index t (0 : Fin 2) * 2000 + 1 * r.val = 2000 * t.val + r.val; rw [(a1_block_index1 t).1.1]; omega
  | ⟨1, _⟩ => show win1_0.index t (1 : Fin 2) * 128 + 1 * k.val = k.val; rw [(a1_block_index1 t).1.2]; omega

/-- Row r of the aggregated-message block at point t is row 2000·t + r of the aggregated-message array. -/
theorem a1_aggBlock_apply (t : Fin cfg1.N) (r : Fin 2000) (k : Fin 128) (hr : 2000 * t.val + r.val < 50000) :
    (iblk1 V c 1 t : S2000x128.Idx → EReal) (ix2 r k) = (V c main_v33 : S50000x128.Idx → EReal) (ix2 (⟨2000 * t.val + r.val, hr⟩ : Fin 50000) k) := by
  show (V c main_v33 : S50000x128.Idx → EReal) (((cfg1.win 1).blk t).view.emb (ix2 r k)) = _
  congr 1
  funext a
  apply Fin.ext
  match a with
  | ⟨0, _⟩ => show win1_1.index t (0 : Fin 2) * 2000 + 1 * r.val = 2000 * t.val + r.val; rw [(a1_block_index1 t).2.1.1]; omega
  | ⟨1, _⟩ => show win1_1.index t (1 : Fin 2) * 128 + 1 * k.val = k.val; rw [(a1_block_index1 t).2.1.2]; omega

/-- The first weight matrix's block at every point is the whole matrix. -/
theorem a1_w1Block_apply (t : Fin cfg1.N) (k : Fin 256) (i : Fin 128) :
    (iblk1 V c 2 t : S256x128.Idx → EReal) (ix2 k i) = (V c main_arg10 : S256x128.Idx → EReal) (ix2 k i) := by
  show (V c main_arg10 : S256x128.Idx → EReal) (((cfg1.win 2).blk t).view.emb (ix2 k i)) = _
  congr 1
  funext a
  apply Fin.ext
  match a with
  | ⟨0, _⟩ => show win1_2.index t (0 : Fin 2) * 256 + 1 * k.val = k.val; rw [(a1_block_index1 t).2.2.1.1]; omega
  | ⟨1, _⟩ => show win1_2.index t (1 : Fin 2) * 128 + 1 * i.val = i.val; rw [(a1_block_index1 t).2.2.1.2]; omega

/-- The first bias row's block at every point is the whole row. -/
theorem a1_b1Block_apply (t : Fin cfg1.N) (z : Fin 1) (i : Fin 128) :
    (iblk1 V c 3 t : S1x128.Idx → EReal) (ix2 z i) = (V c main_v16 : S1x128.Idx → EReal) (ix2 z i) := by
  show (V c main_v16 : S1x128.Idx → EReal) (((cfg1.win 3).blk t).view.emb (ix2 z i)) = _
  congr 1
  funext a
  apply Fin.ext
  match a with
  | ⟨0, _⟩ => show win1_3.index t (0 : Fin 2) * 1 + 1 * z.val = z.val; rw [(a1_block_index1 t).2.2.2.1.1]; omega
  | ⟨1, _⟩ => show win1_3.index t (1 : Fin 2) * 128 + 1 * i.val = i.val; rw [(a1_block_index1 t).2.2.2.1.2]; omega

/-- The second weight matrix's block at every point is the whole matrix. -/
theorem a1_w2Block_apply (t : Fin cfg1.N) (k : Fin 128) (i : Fin 128) :
    (iblk1 V c 4 t : S128x128.Idx → EReal) (ix2 k i) = (V c main_arg12 : S128x128.Idx → EReal) (ix2 k i) := by
  show (V c main_arg12 : S128x128.Idx → EReal) (((cfg1.win 4).blk t).view.emb (ix2 k i)) = _
  congr 1
  funext a
  apply Fin.ext
  match a with
  | ⟨0, _⟩ => show win1_4.index t (0 : Fin 2) * 128 + 1 * k.val = k.val; rw [(a1_block_index1 t).2.2.2.2.1.1]; omega
  | ⟨1, _⟩ => show win1_4.index t (1 : Fin 2) * 128 + 1 * i.val = i.val; rw [(a1_block_index1 t).2.2.2.2.1.2]; omega

/-- The second bias row's block at every point is the whole row. -/
theorem a1_b2Block_apply (t : Fin cfg1.N) (z : Fin 1) (i : Fin 128) :
    (iblk1 V c 5 t : S1x128.Idx → EReal) (ix2 z i) = (V c main_v17 : S1x128.Idx → EReal) (ix2 z i) := by
  show (V c main_v17 : S1x128.Idx → EReal) (((cfg1.win 5).blk t).view.emb (ix2 z i)) = _
  congr 1
  funext a
  apply Fin.ext
  match a with
  | ⟨0, _⟩ => show win1_5.index t (0 : Fin 2) * 1 + 1 * z.val = z.val; rw [(a1_block_index1 t).2.2.2.2.2.1.1]; omega
  | ⟨1, _⟩ => show win1_5.index t (1 : Fin 2) * 128 + 1 * i.val = i.val; rw [(a1_block_index1 t).2.2.2.2.2.1.2]; omega

/-! ## What a point writes back -/

/-- Entry (r, j) of the output block at point t sits at row 2000·t + r, column j of the output array. -/
theorem a1_outBlock_emb (t : Fin cfg1.N) (r : Fin 2000) (j : Fin 128) (hr : 2000 * t.val + r.val < 50000) :
    (((cfg1.win 6).blk t).view.emb (ix2 r j) : S50000x128.Idx) = ix2 (⟨2000 * t.val + r.val, hr⟩ : Fin 50000) j := by
  funext a
  apply Fin.ext
  match a with
  | ⟨0, _⟩ => show win1_6.index t (0 : Fin 2) * 2000 + 1 * r.val = 2000 * t.val + r.val; rw [(a1_block_index1 t).2.2.2.2.2.2.1]; omega
  | ⟨1, _⟩ => show win1_6.index t (1 : Fin 2) * 128 + 1 * j.val = j.val; rw [(a1_block_index1 t).2.2.2.2.2.2.2]; omega

/-- Point t writes back block t of the array of node updates. -/
theorem a1_flushed1_6_eq (t : Fin cfg1.N) :
    (dat1 V c).flushed 6 t = ((cfg1.win 6).blk t).view.read (Elt Ideal) (a1_hnewArr V c) := by
  show (cfg1.win 6).cut (grid1.coords t) ((dat1 V c).after 6 t) = _
  rw [after1_6]
  funext y
  obtain ⟨r, j, rfl⟩ : ∃ (r : Fin 2000) (j : Fin 128), y = ix2 r j := ⟨y 0, y 1, eq_ix2 y⟩
  have ht : t.val < 25 := a1_point_lt t
  have hr : 2000 * t.val + r.val < 50000 := by have := r.isLt; omega
  show blkH (iblk1 V c 0 t) (iblk1 V c 1 t) (iblk1 V c 2 t) (iblk1 V c 3 t) (iblk1 V c 4 t) (iblk1 V c 5 t) (ix2 r j)
    = a1_hnewArr V c (((cfg1.win 6).blk t).view.emb (ix2 r j))
  rw [a1_outBlock_emb t r j hr]
  refine (payH_apply (iblk1 V c 0 t) (iblk1 V c 1 t) (iblk1 V c 2 t) (iblk1 V c 3 t) (iblk1 V c 4 t) (iblk1 V c 5 t) r j).trans ?_
  show _ = a1_hnewAt V c (⟨2000 * t.val + r.val, hr⟩ : Fin 50000) j
  unfold a1_hnewAt
  rw [show (fun k => (iblk1 V c 0 t : S2000x128.Idx → EReal) (ix2 r k)) = fun k => (V c main_arg0 : S50000x128.Idx → EReal) (ix2 (⟨2000 * t.val + r.val, hr⟩ : Fin 50000) k)
        from funext fun k => a1_featBlock_apply V c t r k hr,
    show (fun k => (iblk1 V c 1 t : S2000x128.Idx → EReal) (ix2 r k)) = fun k => (V c main_v33 : S50000x128.Idx → EReal) (ix2 (⟨2000 * t.val + r.val, hr⟩ : Fin 50000) k)
        from funext fun k => a1_aggBlock_apply V c t r k hr,
    show (fun k i => (iblk1 V c 2 t : S256x128.Idx → EReal) (ix2 k i)) = fun k i => (V c main_arg10 : S256x128.Idx → EReal) (ix2 k i)
        from funext fun k => funext fun i => a1_w1Block_apply V c t k i,
    show (fun i => (iblk1 V c 3 t : S1x128.Idx → EReal) (ix2 (0 : Fin 1) i)) = fun i => (V c main_v16 : S1x128.Idx → EReal) (ix2 (0 : Fin 1) i)
        from funext fun i => a1_b1Block_apply V c t 0 i,
    show (fun k i => (iblk1 V c 4 t : S128x128.Idx → EReal) (ix2 k i)) = fun k i => (V c main_arg12 : S128x128.Idx → EReal) (ix2 k i)
        from funext fun k => funext fun i => a1_w2Block_apply V c t k i,
    show (fun i => (iblk1 V c 5 t : S1x128.Idx → EReal) (ix2 (0 : Fin 1) i)) = fun i => (V c main_v17 : S1x128.Idx → EReal) (ix2 (0 : Fin 1) i)
        from funext fun i => a1_b2Block_apply V c t 0 i]

/-! ## The 25 blocks tile the 50000 rows -/

/-- An index of the output array is in point t's block iff each coordinate is in the block's range on its axis. -/
theorem a1_mem_outBlock (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v34).slice (win1_6.rect t)).set ↔ _
  rw [View.set_slice_whole, Rect.mem_set_unit]
  exact Iff.rfl

/-- Row n of the output array is in the block of point n / 2000. -/
theorem a1_outBlocks_cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hq : (i 0).val / 2000 < cfg1.N := by
    show (i 0).val / 2000 < grid1.N
    rw [N_1]; omega
  refine ⟨⟨(i 0).val / 2000, hq⟩, flush1_6 _, ?_⟩
  rw [a1_mem_outBlock]
  obtain ⟨-, -, -, -, -, -, e0, e1⟩ := a1_block_index1 ⟨(i 0).val / 2000, hq⟩
  intro a
  match a with
  | ⟨0, _⟩ =>
    show win1_6.index ⟨(i 0).val / 2000, hq⟩ (0 : Fin 2) * 2000 ≤ (i 0).val ∧ (i 0).val < win1_6.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, hq⟩ (1 : Fin 2) * 128 ≤ (i 1).val ∧ (i 1).val < win1_6.index ⟨(i 0).val / 2000, hq⟩ (1 : Fin 2) * 128 + 128
    rw [e1]; omega

/-- After the pallas_call the output array is the array of node updates. -/
theorem a1_arrAt1_6 : ((dat1 V c).arrAt 6 cfg1.N : S50000x128.Idx → EReal) = a1_hnewArr V c :=
  (dat1 V c).arrAt_eq_of_cover 6 (a1_hnewArr V c) (fun t _ => a1_flushed1_6_eq V c t) (a1_outBlocks_cover)

/-- The new feature array after the pallas_call, at (n, j). -/
theorem final1_6 (n : Fin 50000) (j : Fin 128) :
    ((dat1 V c).arrAt 6 cfg1.N : S50000x128.Idx → EReal) (ix2 n j)
      = Cert.Spec.hnew (fun k => (V c main_arg0 : S50000x128.Idx → EReal) (ix2 n k)) (fun k => (V c main_v33 : S50000x128.Idx → EReal) (ix2 n k))
          (fun k i => (V c main_arg10 : S256x128.Idx → EReal) (ix2 k i)) (fun i => (V c main_v16 : S1x128.Idx → EReal) (ix2 (0 : Fin 1) i))
          (fun k i => (V c main_arg12 : S128x128.Idx → EReal) (ix2 k i)) (fun i => (V c main_v17 : S1x128.Idx → EReal) (ix2 (0 : Fin 1) i)) j := by
  rw [a1_arrAt1_6]
  rfl

end Cert.KernelIdeal.Hand

end
-- ==== Proof.KI.Args.lean ====
/-
  The arguments of the kernel's program on one core, read at their array types.
-/
import proofs.«406677_j84052509983239_1_alg».proof.Proof.Gen.KernelIdeal.Regions
import Idealize.ShloMosaic.Lib.ValueIdx

set_option maxRecDepth 16384

noncomputable section

namespace Cert.KernelIdeal.Hand

open Idealize.ShloMosaic Idealize.ShloMosaic.ValueIdx
open Cert.KernelIdeal Cert.KernelIdeal.Gen

open Idealize.ShloMosaic.TcCoe

variable (m : (ℓ : Loc nD τ sig) → Buf (Elt Ideal) ℓ) (outs : Outs (F := Ideal)) (c : Dev nD)

/-- The arguments on core `c`, at their array types. -/
abbrev aH : S50000x128.Idx → EReal := m ((c : Thread nD τ).loc main_arg0)
abbrev aP : S50000x3.Idx → EReal := m ((c : Thread nD τ).loc main_arg1)
abbrev aEI : S2x640000.Idx → BitVec 32 := m ((c : Thread nD τ).loc main_arg2)
abbrev aEA : S640000x8.Idx → EReal := m ((c : Thread nD τ).loc main_arg3)
abbrev aB1 : S128.Idx → EReal := m ((c : Thread nD τ).loc main_arg5)
abbrev aB2 : S128.Idx → EReal := m ((c : Thread nD τ).loc main_arg7)
abbrev aAb : S1.Idx → EReal := m ((c : Thread nD τ).loc main_arg9)
abbrev aNb1 : S128.Idx → EReal := m ((c : Thread nD τ).loc main_arg11)
abbrev aNb2 : S128.Idx → EReal := m ((c : Thread nD τ).loc main_arg13)

/-- The receiving-node position words as the scatters take them: the first row of the edge list as a column. -/
abbrev rowCol : S640000x1.Idx → BitVec 32 :=
  broadcastInDim S640000x1 ![0] bcast_S640000_S640000x1_0
    (shapeCast S640000 (extractStridedSlice S1x640000 ![0, 0] (aEI m c) slices_S2x640000_S1x640000_0_0) shapeCasts_S1x640000_S640000)

end Cert.KernelIdeal.Hand

end
-- ==== Proof.LibGatherRows.lean ====
/-
  A gather of whole rows of a table, and of entries of a vector, read at one element. The start indices are an
  n × 1 column of position words; result row e is the table's row at position word e read signed and clipped into the
  table (a negative word reads row 0, one past the end reads the last row).
-/
import Idealize.ShloMosaic.PureOps.ShapeOps
import Idealize.ShloMosaic.PureOps.Dims
import Idealize.ShloMosaic.Lib.ValueIdx
import Idealize.ShloMosaic.Lib.StableHlo.Predicate

noncomputable section

namespace Cert.LibGatherRows

open Idealize.ShloMosaic Idealize.ShloMosaic.ValueIdx

/-- Rows of an N × D table gathered at n position words: result (e, k) is the table at the clipped position of word e and column k. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  have h0 : (d.operandIdx (ix2 e k) idx (0 : Fin 2)).val = min (idx (ix2 e (0 : Fin 1))).toInt.toNat (N - 1) := by
    show d.start (ix2 e k) idx (0 : Fin 2) + d.batchCoord (ix2 e k) (0 : Fin 2) + d.offCoord (ix2 e k) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e (0 : Fin 1) := by
      subst hd
      funext b; refine Fin.ext ?_
      match b with
      | ⟨0, _⟩ => rfl
      | ⟨1, _⟩ => rfl
    rw [hsi]
    rfl
  have h1 : (d.operandIdx (ix2 e k) idx (1 : Fin 2)).val = k.val := by
    show d.start (ix2 e k) idx (1 : Fin 2) + d.batchCoord (ix2 e k) (1 : Fin 2) + d.offCoord (ix2 e k) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-- Entries of an N-vector gathered at n position words: result e is the vector at the clipped position of word e. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.KI.HostK.lean ====
/-
  What the host operations of the kernel's program leave in the buffers the two pallas_calls read, at the extended reals, in
  terms of the arguments. Where every node position word lies in [0, 50000) the row gathers fill nothing in: the gathered
  feature and position rows are the rows of the edge's two nodes; the twelve extra columns of an edge are its position
  difference, the squared length of that difference, and its eight attributes; the reshaped biases are the biases.
-/
import proofs.«406677_j84052509983239_1_alg».proof.Proof.Gen.KernelIdeal.Regions
import proofs.«406677_j84052509983239_1_alg».proof.Proof.KI.Args
import proofs.«406677_j84052509983239_1_alg».proof.Proof.Spec
import proofs.«406677_j84052509983239_1_alg».proof.Proof.LibGatherRows
import proofs.«406677_j84052509983239_1_alg».proof.Proof.LibTypedRef
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.Hand

open Idealize.ShloMosaic Idealize.ShloMosaic.ValueIdx
open Cert.KernelIdeal Cert.KernelIdeal.Gen

open Idealize.ShloMosaic.TcCoe

variable (m : (ℓ : Loc nD τ sig) → Buf (Elt Ideal) ℓ) (outs : Outs (F := Ideal)) (c : Dev nD)

/-- Every node position word of the edge list lies in [0, 50000), read signed. -/
def IdxOk : Prop := ∀ (r : Fin 2) (e : Fin 640000), 0 ≤ (aEI m c (ix2 r e)).toInt ∧ (aEI m c (ix2 r e)).toInt < 50000

/-- The position difference of edge `e`'s two nodes. -/
abbrev pdiff (e : Fin 640000) (d : Fin 3) : EReal :=
  aP m c (ix2 (Cert.Spec.node (aEI m c) 0 e) d) - aP m c (ix2 (Cert.Spec.node (aEI m c) 1 e) d)

/-! ## Position words in range compare as their values -/

/-- A word that reads non-negative is kept by the normalisation. -/
theorem hk_wrapW_of_nonneg (w : BitVec 32) (h0 : 0 ≤ w.toInt) : Cert.Spec.wrapW w = w := by
  have hs : IntOp.cmpi .slt w 0#32 = 0#1 := by
    show BitVec.ofBool (decide (w.toInt < (0#32 : BitVec 32).toInt)) = 0#1
    rw [show (0#32 : BitVec 32).toInt = 0 by decide, decide_eq_false (by omega)]
    rfl
  unfold Cert.Spec.wrapW
  rw [hs]
  exact select_zero _ _

/-- A word that reads non-negative passes the lower test. -/
theorem hk_sge_zero (w : BitVec 32) (h0 : 0 ≤ w.toInt) : IntOp.cmpi .sge w 0#32 = 1#1 := by
  show BitVec.ofBool (decide ((0#32 : BitVec 32).toInt ≤ w.toInt)) = 1#1
  rw [show (0#32 : BitVec 32).toInt = 0 by decide, decide_eq_true h0]
  rfl

/-- A word that reads below 50000 passes the upper test. -/
theorem hk_sle_last (w : BitVec 32) (h1 : w.toInt < 50000) : IntOp.cmpi .sle w 49999#32 = 1#1 := by
  show BitVec.ofBool (decide (w.toInt ≤ (49999#32 : BitVec 32).toInt)) = 1#1
  rw [show (49999#32 : BitVec 32).toInt = 49999 by decide, decide_eq_true (by omega)]
  rfl

/-- A fold over the one coordinate of a unit axis is one application. -/
theorem hk_fold_fin1 {α : Type} (f : α → α → α) [Std.Commutative f] [Std.Associative f] (b : α) (g : Fin 1 → α) :
    (Finset.univ : Finset (Fin 1)).fold f b g = f (g 0) b := by
  rw [Finset.univ_unique]
  exact Finset.fold_singleton ..

/-! ## Vectors over the edges laid out as columns and along rows -/

/-- A vector over the edges as a one-column array reads, at (e, 0), the vector at e. -/
theorem hk_bcast_col {α : Type} (v : S640000.Idx → α) (e : Fin 640000) :
    broadcastInDim S640000x1 ![0] bcast_S640000_S640000x1_0 v (ix2 e (0 : Fin 1)) = v (ix1 e) :=
  broadcastInDim_apply ![0] bcast_S640000_S640000x1_0 v (ix2 e (0 : Fin 1)) (ix1 e) (fun a => by
    match a with
    | ⟨0, _⟩ =>
      show e.val = if (640000 : ℕ) = 1 then 0 else e.val
      rw [if_neg (by omega)])

/-- A vector over the edges repeated along each row of an array with D columns reads, at (e, k), the vector at e. -/
theorem hk_bcast_rows {α : Type} {D : Nat} (hbm : S640000.BroadcastsInDim ⟨2, ![640000, D]⟩ ![0]) (v : S640000.Idx → α)
    (e : Fin 640000) (k : Fin D) : broadcastInDim ⟨2, ![640000, D]⟩ ![0] hbm v (ix2 e k) = v (ix1 e) :=
  broadcastInDim_apply ![0] hbm v (ix2 e k) (ix1 e) (fun a => by
    match a with
    | ⟨0, _⟩ =>
      show e.val = if (640000 : ℕ) = 1 then 0 else e.val
      rw [if_neg (by omega)])

/-! ## A gather of rows by position words, out-of-range words filled in, read at one element -/

section Take

/-- The position words normalised: a negative word counts from the end of the 50000 rows. -/
abbrev hk_norm (w : S640000.Idx → BitVec 32) : S640000.Idx → BitVec 32 :=
  select (cmpi .slt w (broadcastInDim S640000 ![] bcast_S_S640000 (constantI S_ 32 0#32)))
    (addi w (broadcastInDim S640000 ![] bcast_S_S640000 (constantI S_ 32 50000#32))) w

/-- The normalised words as a column of start indices. -/
abbrev hk_col (w : S640000.Idx → BitVec 32) : S640000x1.Idx → BitVec 32 :=
  broadcastInDim S640000x1 ![0] bcast_S640000_S640000x1_0 (hk_norm w)

/-- The two range tests on the column of start indices, joined. -/
abbrev hk_tests (w : S640000.Idx → BitVec 32) : S640000x1.Idx → BitVec 1 :=
  andi (cmpi .sge (hk_col w) (broadcastInDim S640000x1 ![] bcast_S_S640000x1 (constantI S_ 32 0#32)))
    (cmpi .sle (hk_col w) (broadcastInDim S640000x1 ![0, 1] bcast_S1x1_S640000x1_0_1
      (broadcastInDim S1x1 ![1] bcast_S1_S1x1_1 (constantI S1 32 49999#32))))

/-- Per word: does the normalised word lie in [0, 49999]. -/
abbrev hk_inRange (w : S640000.Idx → BitVec 32) : S640000.Idx → BitVec 1 :=
  Host.reduce IntOp.andi (hk_tests w) (constantI S_ 1 1#1) reducesTo_S640000x1_S640000_d1 h_S_

variable {D : Nat}

/-- The gathered row where the word is in range, a fill value elsewhere. -/
abbrev hk_take (gd : GatherDims ⟨2, ![50000, D]⟩ S640000x1 ⟨2, ![640000, D]⟩)
    (hbm : S640000.BroadcastsInDim ⟨2, ![640000, D]⟩ ![0]) (hbn : S_.BroadcastsInDim ⟨2, ![640000, D]⟩ ![])
    (x : (⟨2, ![50000, D]⟩ : Shape).Idx → EReal) (w : S640000.Idx → BitVec 32) : (⟨2, ![640000, D]⟩ : Shape).Idx → EReal :=
  select (broadcastInDim ⟨2, ![640000, D]⟩ ![0] hbm (hk_inRange w)) (Host.gather gd x (hk_col w))
    (broadcastInDim ⟨2, ![640000, D]⟩ ![] hbn (constant (F := Ideal) S_ .f32 0x7FC00000#32))

theorem hk_norm_apply (w : S640000.Idx → BitVec 32) (i : S640000.Idx) : hk_norm w i = Cert.Spec.wrapW (w i) := rfl

theorem hk_col_apply (w : S640000.Idx → BitVec 32) (e : Fin 640000) :
    hk_col w (ix2 e (0 : Fin 1)) = Cert.Spec.wrapW (w (ix1 e)) :=
  (hk_bcast_col (hk_norm w) e).trans (hk_norm_apply w (ix1 e))

theorem hk_tests_apply (w : S640000.Idx → BitVec 32) (j : S640000x1.Idx) :
    hk_tests w j = IntOp.andi (IntOp.cmpi .sge (hk_col w j) 0#32) (IntOp.cmpi .sle (hk_col w j) 49999#32) := rfl

/-- The reduction of a one-column array over its columns reads, at e, the column at (e, 0) joined with the initial value. -/
theorem hk_reduce_col (t : S640000x1.Idx → BitVec 1) (e : Fin 640000) :
    Host.reduce IntOp.andi t (constantI S_ 1 1#1) reducesTo_S640000x1_S640000_d1 h_S_ (ix1 e)
      = IntOp.andi (t (ix2 e (0 : Fin 1))) 1#1 := by
  have hR : S640000x1.Reduces [1] S640000 :=
    ⟨reducesTo_S640000x1_S640000_d1.1, Nat.one_pos, reducesTo_S640000x1_S640000_d1.2⟩
  have hl : hR.lift (ix1 e) (⟨0, Nat.one_pos⟩ : Fin 1) = ix2 e (0 : Fin 1) :=
    funext fun a => Fin.ext (by match a with | ⟨0, _⟩ => rfl | ⟨1, _⟩ => rfl)
  rw [Host.reduce_eq_fold_single IntOp.andi t _ reducesTo_S640000x1_S640000_d1 hR h_S_ (ix1 e)]
  refine (hk_fold_fin1 IntOp.andi _ _).trans ?_
  show IntOp.andi (t (hR.lift (ix1 e) (⟨0, Nat.one_pos⟩ : Fin 1))) 1#1 = _
  rw [hl]

theorem hk_inRange_apply (w : S640000.Idx → BitVec 32) (e : Fin 640000) (h0 : 0 ≤ (w (ix1 e)).toInt)
    (h1 : (w (ix1 e)).toInt < 50000) : hk_inRange w (ix1 e) = 1#1 := by
  refine (hk_reduce_col (hk_tests w) e).trans ?_
  rw [hk_tests_apply, hk_col_apply, hk_wrapW_of_nonneg _ h0, hk_sge_zero _ h0, hk_sle_last _ h1]
  rfl

theorem hk_take_apply (gd : GatherDims ⟨2, ![50000, D]⟩ S640000x1 ⟨2, ![640000, D]⟩)
    (hoff : gd.offsetDims = [1]) (hcoll : gd.collapsedSliceDims = [0]) (hob : gd.operandBatchingDims = [])
    (hsb : gd.startIndicesBatchingDims = []) (hsim : gd.startIndexMap = [0]) (hivd : gd.indexVectorDim = 1)
    (hbm : S640000.BroadcastsInDim ⟨2, ![640000, D]⟩ ![0]) (hbn : S_.BroadcastsInDim ⟨2, ![640000, D]⟩ ![])
    (x : (⟨2, ![50000, D]⟩ : Shape).Idx → EReal) (w : S640000.Idx → BitVec 32) (e : Fin 640000) (k : Fin D)
    (h0 : 0 ≤ (w (ix1 e)).toInt) (h1 : (w (ix1 e)).toInt < 50000) :
    hk_take gd hbm hbn x w (ix2 e k) = x (ix2 (Cert.Spec.nodeOf (Cert.Spec.wrapW (w (ix1 e)))) k) := by
  have hm : broadcastInDim ⟨2, ![640000, D]⟩ ![0] hbm (hk_inRange w) (ix2 e k) = 1#1 :=
    (hk_bcast_rows hbm (hk_inRange w) e k).trans (hk_inRange_apply w e h0 h1)
  have hg := Cert.LibGatherRows.gather_rows_apply gd hoff hcoll hob hsb hsim hivd x (hk_col w) e k (by omega)
  have hc := hk_col_apply w e
  show Scalar.select (broadcastInDim ⟨2, ![640000, D]⟩ ![0] hbm (hk_inRange w) (ix2 e k))
    (Host.gather gd x (hk_col w) (ix2 e k)) _ = _
  rw [hm, select_one, hg]
  exact congrArg x (congrArg (fun r => ix2 r k) (Fin.ext (by
    show min (hk_col w (ix2 e (0 : Fin 1))).toInt.toNat (50000 - 1) = min (Cert.Spec.wrapW (w (ix1 e))).toInt.toNat (50000 - 1)
    rw [hc])))

end Take

/-! ## The words of the two rows of the edge list -/

/-- Row r of the edge list sliced out and flattened reads, at e, the list at (r, e). -/
theorem hk_row0_words {α : Type} (x : S2x640000.Idx → α) (e : Fin 640000) :
    shapeCast S640000 (extractStridedSlice S1x640000 ![0, 0] x slices_S2x640000_S1x640000_0_0) shapeCasts_S1x640000_S640000 (ix1 e)
      = x (ix2 (0 : Fin 2) e) :=
  (shapeCast_1a_a_apply _ shapeCasts_S1x640000_S640000 e).trans
    (extractStridedSlice_apply ![0, 0] x slices_S2x640000_S1x640000_0_0 (ix2 (0 : Fin 1) e) (ix2 (0 : Fin 2) e) (fun a => by
      match a with
      | ⟨0, _⟩ => rfl
      | ⟨1, _⟩ => exact (Nat.zero_add e.val).symm))

theorem hk_row1_words {α : Type} (x : S2x640000.Idx → α) (e : Fin 640000) :
    shapeCast S640000 (extractStridedSlice S1x640000 ![1, 0] x slices_S2x640000_S1x640000_1_0) shapeCasts_S1x640000_S640000 (ix1 e)
      = x (ix2 (1 : Fin 2) e) :=
  (shapeCast_1a_a_apply _ shapeCasts_S1x640000_S640000 e).trans
    (extractStridedSlice_apply ![1, 0] x slices_S2x640000_S1x640000_1_0 (ix2 (0 : Fin 1) e) (ix2 (1 : Fin 2) e) (fun a => by
      match a with
      | ⟨0, _⟩ => rfl
      | ⟨1, _⟩ => exact (Nat.zero_add e.val).symm))

/-- The receiving-node words after the first host stretch: the first row of the edge list. -/
theorem hk_v1_apply (e : Fin 640000) : (V1 m c main_v1 : S640000.Idx → BitVec 32) (ix1 e) = aEI m c (ix2 (0 : Fin 2) e) := by
  have e1 : (V1 m c main_v1 : S640000.Idx → BitVec 32)
      = shapeCast S640000 (extractStridedSlice S1x640000 ![0, 0] (aEI m c) slices_S2x640000_S1x640000_0_0) shapeCasts_S1x640000_S640000 := by
    show StableHlo.after hostOps0 _ (Proc.devRef .tc main_v1) = _
    after_results
    rfl
  exact (congrFun e1 (ix1 e)).trans (hk_row0_words (aEI m c) e)

/-- The sending-node words after the first host stretch: the second row of the edge list. -/
theorem hk_v3_apply (e : Fin 640000) : (V1 m c main_v3 : S640000.Idx → BitVec 32) (ix1 e) = aEI m c (ix2 (1 : Fin 2) e) := by
  have e1 : (V1 m c main_v3 : S640000.Idx → BitVec 32)
      = shapeCast S640000 (extractStridedSlice S1x640000 ![1, 0] (aEI m c) slices_S2x640000_S1x640000_1_0) shapeCasts_S1x640000_S640000 := by
    show StableHlo.after hostOps0 _ (Proc.devRef .tc main_v3) = _
    after_results
    rfl
  exact (congrFun e1 (ix1 e)).trans (hk_row1_words (aEI m c) e)

/-! ## What each gathering stretch leaves, from any contents before it -/

/-- Contents read through a typed reference are the contents. -/
theorem hk_ofBuf_heq {Val : EltTy → Type} {T : BufTy} (x : StableHlo.TRef sig T) (Y : x.ref.ty.Contents Val) : HEq (x.ofBuf Y) Y :=
  cast_heq _ _

theorem hk_stretch1 (X : Valuation τ sig (Elt Ideal)) :
    (StableHlo.after hostOps0_1 X (Proc.devRef .tc main_v4) : S640000x128.Idx → EReal)
      = hk_take gather_S50000x128_S640000x1_S640000x128_1_0_n_n_0_1_1128 bcast_S640000_S640000x128_0 bcast_S_S640000x128
          (X (Proc.devRef .tc main_arg0)) (X (Proc.devRef .tc main_v1)) := by
  have e : (.of main_v4 : StableHlo.TRef sig ⟨S640000x128, .f32⟩).ofBuf (StableHlo.after hostOps0_1 X (Proc.devRef .tc main_v4))
      = hk_take gather_S50000x128_S640000x1_S640000x128_1_0_n_n_0_1_1128 bcast_S640000_S640000x128_0 bcast_S_S640000x128
          ((.of main_arg0 : StableHlo.TRef sig ⟨S50000x128, .f32⟩).ofBuf (X (Proc.devRef .tc main_arg0)))
          ((.of main_v1 : StableHlo.TRef sig ⟨S640000, .i32⟩).ofBuf (X (Proc.devRef .tc main_v1))) := by
    after_results_simp
    simp only [Cert.LibTypedRef.ofBuf_toBuf]
  rw [eq_of_heq (hk_ofBuf_heq (.of main_v4 : StableHlo.TRef sig ⟨S640000x128, .f32⟩) _),
    eq_of_heq (hk_ofBuf_heq (.of main_arg0 : StableHlo.TRef sig ⟨S50000x128, .f32⟩) _),
    eq_of_heq (hk_ofBuf_heq (.of main_v1 : StableHlo.TRef sig ⟨S640000, .i32⟩) _)] at e
  exact e

theorem hk_stretch2 (X : Valuation τ sig (Elt Ideal)) :
    (StableHlo.after hostOps0_2 X (Proc.devRef .tc main_v5) : S640000x128.Idx → EReal)
      = hk_take gather_S50000x128_S640000x1_S640000x128_1_0_n_n_0_1_1128 bcast_S640000_S640000x128_0 bcast_S_S640000x128
          (X (Proc.devRef .tc main_arg0)) (X (Proc.devRef .tc main_v3)) := by
  have e : (.of main_v5 : StableHlo.TRef sig ⟨S640000x128, .f32⟩).ofBuf (StableHlo.after hostOps0_2 X (Proc.devRef .tc main_v5))
      = hk_take gather_S50000x128_S640000x1_S640000x128_1_0_n_n_0_1_1128 bcast_S640000_S640000x128_0 bcast_S_S640000x128
          ((.of main_arg0 : StableHlo.TRef sig ⟨S50000x128, .f32⟩).ofBuf (X (Proc.devRef .tc main_arg0)))
          ((.of main_v3 : StableHlo.TRef sig ⟨S640000, .i32⟩).ofBuf (X (Proc.devRef .tc main_v3))) := by
    after_results_simp
    simp only [Cert.LibTypedRef.ofBuf_toBuf]
  rw [eq_of_heq (hk_ofBuf_heq (.of main_v5 : StableHlo.TRef sig ⟨S640000x128, .f32⟩) _),
    eq_of_heq (hk_ofBuf_heq (.of main_arg0 : StableHlo.TRef sig ⟨S50000x128, .f32⟩) _),
    eq_of_heq (hk_ofBuf_heq (.of main_v3 : StableHlo.TRef sig ⟨S640000, .i32⟩) _)] at e
  exact e

theorem hk_stretch3 (X : Valuation τ sig (Elt Ideal)) :
    (StableHlo.after hostOps0_3 X (Proc.devRef .tc main_v6) : S640000x3.Idx → EReal)
      = hk_take gather_S50000x3_S640000x1_S640000x3_1_0_n_n_0_1_13 bcast_S640000_S640000x3_0 bcast_S_S640000x3
          (X (Proc.devRef .tc main_arg1)) (X (Proc.devRef .tc main_v1)) := by
  have e : (.of main_v6 : StableHlo.TRef sig ⟨S640000x3, .f32⟩).ofBuf (StableHlo.after hostOps0_3 X (Proc.devRef .tc main_v6))
      = hk_take gather_S50000x3_S640000x1_S640000x3_1_0_n_n_0_1_13 bcast_S640000_S640000x3_0 bcast_S_S640000x3
          ((.of main_arg1 : StableHlo.TRef sig ⟨S50000x3, .f32⟩).ofBuf (X (Proc.devRef .tc main_arg1)))
          ((.of main_v1 : StableHlo.TRef sig ⟨S640000, .i32⟩).ofBuf (X (Proc.devRef .tc main_v1))) := by
    after_results_simp
    simp only [Cert.LibTypedRef.ofBuf_toBuf]
  rw [eq_of_heq (hk_ofBuf_heq (.of main_v6 : StableHlo.TRef sig ⟨S640000x3, .f32⟩) _),
    eq_of_heq (hk_ofBuf_heq (.of main_arg1 : StableHlo.TRef sig ⟨S50000x3, .f32⟩) _),
    eq_of_heq (hk_ofBuf_heq (.of main_v1 : StableHlo.TRef sig ⟨S640000, .i32⟩) _)] at e
  exact e

theorem hk_stretch4 (X : Valuation τ sig (Elt Ideal)) :
    (StableHlo.after hostOps0_4 X (Proc.devRef .tc main_v7) : S640000x3.Idx → EReal)
      = hk_take gather_S50000x3_S640000x1_S640000x3_1_0_n_n_0_1_13 bcast_S640000_S640000x3_0 bcast_S_S640000x3
          (X (Proc.devRef .tc main_arg1)) (X (Proc.devRef .tc main_v3)) := by
  have e : (.of main_v7 : StableHlo.TRef sig ⟨S640000x3, .f32⟩).ofBuf (StableHlo.after hostOps0_4 X (Proc.devRef .tc main_v7))
      = hk_take gather_S50000x3_S640000x1_S640000x3_1_0_n_n_0_1_13 bcast_S640000_S640000x3_0 bcast_S_S640000x3
          ((.of main_arg1 : StableHlo.TRef sig ⟨S50000x3, .f32⟩).ofBuf (X (Proc.devRef .tc main_arg1)))
          ((.of main_v3 : StableHlo.TRef sig ⟨S640000, .i32⟩).ofBuf (X (Proc.devRef .tc main_v3))) := by
    after_results_simp
    simp only [Cert.LibTypedRef.ofBuf_toBuf]
  rw [eq_of_heq (hk_ofBuf_heq (.of main_v7 : StableHlo.TRef sig ⟨S640000x3, .f32⟩) _),
    eq_of_heq (hk_ofBuf_heq (.of main_arg1 : StableHlo.TRef sig ⟨S50000x3, .f32⟩) _),
    eq_of_heq (hk_ofBuf_heq (.of main_v3 : StableHlo.TRef sig ⟨S640000, .i32⟩) _)] at e
  exact e

/-! ## The twelve extra columns of an edge -/

/-- A three-operand operation's result, each operand's contents at its own reference. -/
theorem hk_nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The three pieces laid side by side: the difference of two position arrays, the squared length of each of its rows as a
    column, the attribute rows. -/
abbrev hk_pieces (p q : FVec Ideal S640000x3 .f32) (ea : S640000x8.Idx → EReal) : List ((s : Shape) × (s.Idx → EReal)) :=
  [⟨S640000x3, subf (F := Ideal) p q⟩,
   ⟨S640000x1, broadcastInDim S640000x1 ![0] bcast_S640000_S640000x1_0
      (Host.reduceAdd (F := Ideal) (mulf (F := Ideal) (subf (F := Ideal) p q) (subf (F := Ideal) p q)) (constant (F := Ideal) S_ .f32 0x00000000#32)
        reducesTo_S640000x3_S640000_d1 h_S_)⟩,
   ⟨S640000x8, ea⟩]

/-- The twelve columns. -/
abbrev hk_extra (p q : FVec Ideal S640000x3 .f32) (ea : S640000x8.Idx → EReal) : S640000x12.Idx → EReal :=
  concatenate S640000x12 1 (hk_pieces p q ea) concatenates_S640000x3_S640000x1_S640000x8_S640000x12_d1

theorem hk_stretch5 (X : Valuation τ sig (Elt Ideal)) :
    (StableHlo.after hostOps0_5 X (Proc.devRef .tc main_v12) : S640000x12.Idx → EReal)
      = hk_extra (X (Proc.devRef .tc main_v6)) (X (Proc.devRef .tc main_v7)) (X (Proc.devRef .tc main_arg3)) := by
  simp only [StableHlo.after_cons, StableHlo.after_nil]
  repeat (first
    | rw [hk_nary3_result]
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

/-- The first three columns: the difference. -/
theorem hk_extra_pd (p q : FVec Ideal S640000x3 .f32) (ea : S640000x8.Idx → EReal) (e : Fin 640000) (d : Fin 3) :
    hk_extra p q ea (ix2 e (⟨d.val, by omega⟩ : Fin 12)) = p (ix2 e d) - q (ix2 e d) :=
  concatenate_apply_piece (t := S640000x12) (α := EReal) (1 : Fin 2) (hk_pieces p q ea) concatenates_S640000x3_S640000x1_S640000x8_S640000x12_d1
    (ix2 e (⟨d.val, by omega⟩ : Fin 12)) 0 (Nat.succ_pos 2) S640000x3 (subf (F := Ideal) p q) rfl rfl 0 rfl (ix2 e d)
    (fun b => by
      match b with
      | ⟨0, _⟩ => exact fun _ => rfl
      | ⟨1, _⟩ => exact fun h => absurd rfl h)
    (Nat.zero_add d.val)

/-- The fourth column: the squared length of the difference. -/
theorem hk_extra_dsq (p q : FVec Ideal S640000x3 .f32) (ea : S640000x8.Idx → EReal) (e : Fin 640000) :
    hk_extra p q ea (ix2 e (3 : Fin 12)) = ∑ d : Fin 3, (p (ix2 e d) - q (ix2 e d)) * (p (ix2 e d) - q (ix2 e d)) := by
  have hR : S640000x3.Reduces [1] S640000 :=
    ⟨reducesTo_S640000x3_S640000_d1.1, Nat.one_pos, reducesTo_S640000x3_S640000_d1.2⟩
  have hl : ∀ d : Fin 3, hR.lift (ix1 e) d = ix2 e d := fun d =>
    funext fun a => Fin.ext (by match a with | ⟨0, _⟩ => rfl | ⟨1, _⟩ => rfl)
  refine (concatenate_apply_piece (t := S640000x12) (α := EReal) (1 : Fin 2) (hk_pieces p q ea) concatenates_S640000x3_S640000x1_S640000x8_S640000x12_d1
    (ix2 e (3 : Fin 12)) 1 (Nat.succ_lt_succ (Nat.succ_pos 1)) S640000x1 _ rfl rfl 3 rfl (ix2 e (0 : Fin 1))
    (fun b => by
      match b with
      | ⟨0, _⟩ => exact fun _ => rfl
      | ⟨1, _⟩ => exact fun h => absurd rfl h)
    rfl).trans ?_
  refine (hk_bcast_col _ e).trans ?_
  show Ideal.hostReduceAdd reducesTo_S640000x3_S640000_d1 (mulf (F := Ideal) (subf (F := Ideal) p q) (subf (F := Ideal) p q))
    (Ideal.ofBits .f32 0x00000000#32) (ix1 e) = _
  rw [Ideal.hostReduceAdd_single reducesTo_S640000x3_S640000_d1 hR, Ideal.ofBits_zero_f32, zero_add]
  show ∑ d : Fin 3, mulf (F := Ideal) (subf (F := Ideal) p q) (subf (F := Ideal) p q) (hR.lift (ix1 e) d) = _
  refine Finset.sum_congr rfl fun d _ => ?_
  rw [hl d]
  rfl

/-- The last eight columns: the attributes. -/
theorem hk_extra_ea (p q : FVec Ideal S640000x3 .f32) (ea : S640000x8.Idx → EReal) (e : Fin 640000) (a : Fin 8) :
    hk_extra p q ea (ix2 e (⟨4 + a.val, by omega⟩ : Fin 12)) = ea (ix2 e a) :=
  concatenate_apply_piece (t := S640000x12) (α := EReal) (1 : Fin 2) (hk_pieces p q ea) concatenates_S640000x3_S640000x1_S640000x8_S640000x12_d1
    (ix2 e (⟨4 + a.val, by omega⟩ : Fin 12)) 2 (Nat.lt_succ_self 2) S640000x8 ea rfl rfl 4 rfl (ix2 e a)
    (fun b => by
      match b with
      | ⟨0, _⟩ => exact fun _ => rfl
      | ⟨1, _⟩ => exact fun h => absurd rfl h)
    rfl

/-! ## The arguments and the position words between the stretches -/

theorem hk_arg0_V1 : V1 m c main_arg0 = aH m c := V1_of m c main_arg0 (by decide)
theorem hk_arg0_V2 : V2 m c main_arg0 = aH m c := (V2_of m c main_arg0 (by decide)).trans (hk_arg0_V1 m c)
theorem hk_arg1_V3 : V3 m c main_arg1 = aP m c :=
  (V3_of m c main_arg1 (by decide)).trans <| (V2_of m c main_arg1 (by decide)).trans (V1_of m c main_arg1 (by decide))
theorem hk_arg1_V4 : V4 m c main_arg1 = aP m c := (V4_of m c main_arg1 (by decide)).trans (hk_arg1_V3 m c)
theorem hk_arg3_V5 : V5 m c main_arg3 = aEA m c :=
  (V5_of m c main_arg3 (by decide)).trans <| (V4_of m c main_arg3 (by decide)).trans <| (V3_of m c main_arg3 (by decide)).trans <|
    (V2_of m c main_arg3 (by decide)).trans (V1_of m c main_arg3 (by decide))
theorem hk_v3_V2 : V2 m c main_v3 = V1 m c main_v3 := V2_of m c main_v3 (by decide)
theorem hk_v1_V3 : V3 m c main_v1 = V1 m c main_v1 := (V3_of m c main_v1 (by decide)).trans (V2_of m c main_v1 (by decide))
theorem hk_v3_V4 : V4 m c main_v3 = V1 m c main_v3 :=
  (V4_of m c main_v3 (by decide)).trans <| (V3_of m c main_v3 (by decide)).trans (V2_of m c main_v3 (by decide))

/-! ## The gathered rows and the extra columns the edge kernel's pallas_call reads -/

theorem v4_apply (h : IdxOk m c) (e : Fin 640000) (k : Fin 128) :
    (V6 m c main_v4 : S640000x128.Idx → EReal) (ix2 e k) = aH m c (ix2 (Cert.Spec.node (aEI m c) 0 e) k) := by
  have e1 : V6 m c main_v4 = V2 m c main_v4 :=
    (V6_of m c main_v4 (by decide)).trans <| (V5_of m c main_v4 (by decide)).trans <| (V4_of m c main_v4 (by decide)).trans
      (V3_of m c main_v4 (by decide))
  have e2 := hk_stretch1 (V1 m c)
  have hw := hk_v1_apply m c e
  rw [e1]
  refine (congrFun e2 (ix2 e k)).trans ?_
  rw [hk_take_apply _ rfl rfl rfl rfl rfl rfl _ _ _ _ e k (by rw [hw]; exact (h 0 e).1) (by rw [hw]; exact (h 0 e).2), hw,
    hk_arg0_V1]
  rfl

theorem v5_apply (h : IdxOk m c) (e : Fin 640000) (k : Fin 128) :
    (V6 m c main_v5 : S640000x128.Idx → EReal) (ix2 e k) = aH m c (ix2 (Cert.Spec.node (aEI m c) 1 e) k) := by
  have e1 : V6 m c main_v5 = V3 m c main_v5 :=
    (V6_of m c main_v5 (by decide)).trans <| (V5_of m c main_v5 (by decide)).trans (V4_of m c main_v5 (by decide))
  have e2 := hk_stretch2 (V2 m c)
  have hw : (V2 m c main_v3 : S640000.Idx → BitVec 32) (ix1 e) = aEI m c (ix2 (1 : Fin 2) e) := by
    rw [hk_v3_V2]; exact hk_v3_apply m c e
  rw [e1]
  refine (congrFun e2 (ix2 e k)).trans ?_
  rw [hk_take_apply _ rfl rfl rfl rfl rfl rfl _ _ _ _ e k (by rw [hw]; exact (h 1 e).1) (by rw [hw]; exact (h 1 e).2), hw,
    hk_arg0_V2]
  rfl

/-- The gathered position row of the receiving node. -/
theorem hk_v6_apply (h : IdxOk m c) (e : Fin 640000) (d : Fin 3) :
    (V5 m c main_v6 : S640000x3.Idx → EReal) (ix2 e d) = aP m c (ix2 (Cert.Spec.node (aEI m c) 0 e) d) := by
  have e1 : V5 m c main_v6 = V4 m c main_v6 := V5_of m c main_v6 (by decide)
  have e2 := hk_stretch3 (V3 m c)
  have hw : (V3 m c main_v1 : S640000.Idx → BitVec 32) (ix1 e) = aEI m c (ix2 (0 : Fin 2) e) := by
    rw [hk_v1_V3]; exact hk_v1_apply m c e
  rw [e1]
  refine (congrFun e2 (ix2 e d)).trans ?_
  rw [hk_take_apply _ rfl rfl rfl rfl rfl rfl _ _ _ _ e d (by rw [hw]; exact (h 0 e).1) (by rw [hw]; exact (h 0 e).2), hw,
    hk_arg1_V3]
  rfl

/-- The gathered position row of the sending node. -/
theorem hk_v7_apply (h : IdxOk m c) (e : Fin 640000) (d : Fin 3) :
    (V5 m c main_v7 : S640000x3.Idx → EReal) (ix2 e d) = aP m c (ix2 (Cert.Spec.node (aEI m c) 1 e) d) := by
  have e2 := hk_stretch4 (V4 m c)
  have hw : (V4 m c main_v3 : S640000.Idx → BitVec 32) (ix1 e) = aEI m c (ix2 (1 : Fin 2) e) := by
    rw [hk_v3_V4]; exact hk_v3_apply m c e
  refine (congrFun e2 (ix2 e d)).trans ?_
  rw [hk_take_apply _ rfl rfl rfl rfl rfl rfl _ _ _ _ e d (by rw [hw]; exact (h 1 e).1) (by rw [hw]; exact (h 1 e).2), hw,
    hk_arg1_V4]
  rfl

theorem v12_pd (h : IdxOk m c) (e : Fin 640000) (d : Fin 3) :
    (V6 m c main_v12 : S640000x12.Idx → EReal) (ix2 e (⟨d.val, by omega⟩ : Fin 12)) = pdiff m c e d := by
  refine (congrFun (hk_stretch5 (V5 m c)) _).trans ?_
  rw [hk_extra_pd, hk_v6_apply m c h, hk_v7_apply m c h]

theorem v12_dsq (h : IdxOk m c) (e : Fin 640000) :
    (V6 m c main_v12 : S640000x12.Idx → EReal) (ix2 e (3 : Fin 12)) = Cert.Spec.dsq (pdiff m c e) := by
  have key : hk_extra (V5 m c main_v6) (V5 m c main_v7) (V5 m c main_arg3) (ix2 e (3 : Fin 12)) = Cert.Spec.dsq (pdiff m c e) := by
    rw [hk_extra_dsq]
    unfold Cert.Spec.dsq
    refine Finset.sum_congr rfl fun d _ => ?_
    rw [hk_v6_apply m c h, hk_v7_apply m c h]
  exact (congrFun (hk_stretch5 (V5 m c)) _).trans key

theorem v12_ea (e : Fin 640000) (a : Fin 8) :
    (V6 m c main_v12 : S640000x12.Idx → EReal) (ix2 e (⟨4 + a.val, by omega⟩ : Fin 12)) = aEA m c (ix2 e a) := by
  refine (congrFun (hk_stretch5 (V5 m c)) _).trans ?_
  rw [hk_extra_ea, hk_arg3_V5]

end Cert.KernelIdeal.Hand

end
-- ==== Proof.KI.HostK2.lean ====
/-
  What the host operations of the kernel's program leave in the remaining buffers the two pallas_calls read, and the position
  result: the reshaped biases are the biases, the weight arguments are untouched, the aggregated messages are the message array
  scatter-added by receiving node, and the new positions are the positions plus the scatter-added updates over the clipped count.
-/
import proofs.«406677_j84052509983239_1_alg».proof.Proof.Gen.KernelIdeal.Regions
import proofs.«406677_j84052509983239_1_alg».proof.Proof.KI.Args
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.Hand

open Idealize.ShloMosaic Idealize.ShloMosaic.ValueIdx
open Cert.KernelIdeal Cert.KernelIdeal.Gen

open Idealize.ShloMosaic.TcCoe

variable (m : (ℓ : Loc nD τ sig) → Buf (Elt Ideal) ℓ) (outs : Outs (F := Ideal)) (c : Dev nD)

/-! ## What the two stretches compute, over any contents they are entered from -/

section Stretches

variable (X : Valuation τ sig (Elt Ideal))

/-- The first bias of the edge network, as a row. -/
theorem h2_stretch5_v13 : (StableHlo.after hostOps0_5 X main_v13 : S1x128.Idx → EReal)
    = shapeCast S1x128 (X main_arg5 : S128.Idx → EReal) shapeCasts_S128_S1x128 := by
  after_results <;> rfl
theorem h2_stretch5_v14 : (StableHlo.after hostOps0_5 X main_v14 : S1x128.Idx → EReal)
    = shapeCast S1x128 (X main_arg7 : S128.Idx → EReal) shapeCasts_S128_S1x128 := by
  after_results <;> rfl
theorem h2_stretch5_v15 : (StableHlo.after hostOps0_5 X main_v15 : S1x1.Idx → EReal)
    = shapeCast S1x1 (X main_arg9 : S1.Idx → EReal) shapeCasts_S1_S1x1 := by
  after_results <;> rfl
theorem h2_stretch5_v16 : (StableHlo.after hostOps0_5 X main_v16 : S1x128.Idx → EReal)
    = shapeCast S1x128 (X main_arg11 : S128.Idx → EReal) shapeCasts_S128_S1x128 := by
  after_results <;> rfl
theorem h2_stretch5_v17 : (StableHlo.after hostOps0_5 X main_v17 : S1x128.Idx → EReal)
    = shapeCast S1x128 (X main_arg13 : S128.Idx → EReal) shapeCasts_S128_S1x128 := by
  after_results <;> rfl

/-- The receiving-node position words, flattened from the first row of the edge list. -/
theorem h2_stretch0_v1 : (StableHlo.after hostOps0 X main_v1 : S640000.Idx → BitVec 32)
    = shapeCast S640000 (extractStridedSlice S1x640000 ![0, 0] (X main_arg2 : S2x640000.Idx → BitVec 32) slices_S2x640000_S1x640000_0_0) shapeCasts_S1x640000_S640000 := by
  after_results <;> rfl

/-- The aggregated messages over the entering contents. -/
theorem h2_stretch1_v33 : (StableHlo.after hostOps1 X main_v33 : S50000x128.Idx → EReal)
    = Host.scatterAdd (F := Ideal) scatter_S50000x128_S640000x1_S640000x128_1_0_0_1
        (broadcastInDim S50000x128 ![] bcast_S_S50000x128 (constant S_ .f32 0x00000000#32))
        (broadcastInDim S640000x1 ![0] bcast_S640000_S640000x1_0 (X main_v1 : S640000.Idx → BitVec 32))
        (X main_v18_0 : S640000x128.Idx → EReal) := by
  after_results <;> rfl

/-- The new positions over the entering contents. -/
theorem h2_stretch1_v30 : (StableHlo.after hostOps1 X main_v30 : S50000x3.Idx → EReal)
    = addf (F := Ideal) (X main_arg1 : S50000x3.Idx → EReal) (Host.divf
        (Host.scatterAdd scatter_S50000x3_S640000x1_S640000x3_1_0_0_1
          (broadcastInDim S50000x3 ![] bcast_S_S50000x3 (constant S_ .f32 0x00000000#32))
          (broadcastInDim S640000x1 ![0] bcast_S640000_S640000x1_0 (X main_v1 : S640000.Idx → BitVec 32))
          (X main_v18_1 : S640000x3.Idx → EReal))
        (broadcastInDim S50000x3 ![0, 1] bcast_S50000x1_S50000x3_0_1
          (maximumf
            (Host.scatterAdd scatter_S50000x1_S640000x1_S640000x1_1_0_0_1
              (broadcastInDim S50000x1 ![] bcast_S_S50000x1 (constant S_ .f32 0x00000000#32))
              (broadcastInDim S640000x1 ![0] bcast_S640000_S640000x1_0 (X main_v1 : S640000.Idx → BitVec 32))
              (broadcastInDim S640000x1 ![] bcast_S_S640000x1 (constant S_ .f32 0x3F800000#32)))
            (broadcastInDim S50000x1 ![] bcast_S_S50000x1 (constant S_ .f32 0x3F800000#32))))) := by
  after_results_simp <;> rfl

end Stretches

/-! ## The arguments and the row words, as the later stretches find them -/

theorem h2_V5_arg5 : V5 m c main_arg5 = m ((c : Thread nD τ).loc main_arg5) :=
  (V5_of m c main_arg5 (by decide)).trans <| (V4_of m c main_arg5 (by decide)).trans <| (V3_of m c main_arg5 (by decide)).trans <| (V2_of m c main_arg5 (by decide)).trans <| (V1_of m c main_arg5 (by decide)).trans rfl
theorem h2_V5_arg7 : V5 m c main_arg7 = m ((c : Thread nD τ).loc main_arg7) :=
  (V5_of m c main_arg7 (by decide)).trans <| (V4_of m c main_arg7 (by decide)).trans <| (V3_of m c main_arg7 (by decide)).trans <| (V2_of m c main_arg7 (by decide)).trans <| (V1_of m c main_arg7 (by decide)).trans rfl
theorem h2_V5_arg9 : V5 m c main_arg9 = m ((c : Thread nD τ).loc main_arg9) :=
  (V5_of m c main_arg9 (by decide)).trans <| (V4_of m c main_arg9 (by decide)).trans <| (V3_of m c main_arg9 (by decide)).trans <| (V2_of m c main_arg9 (by decide)).trans <| (V1_of m c main_arg9 (by decide)).trans rfl
theorem h2_V5_arg11 : V5 m c main_arg11 = m ((c : Thread nD τ).loc main_arg11) :=
  (V5_of m c main_arg11 (by decide)).trans <| (V4_of m c main_arg11 (by decide)).trans <| (V3_of m c main_arg11 (by decide)).trans <| (V2_of m c main_arg11 (by decide)).trans <| (V1_of m c main_arg11 (by decide)).trans rfl
theorem h2_V5_arg13 : V5 m c main_arg13 = m ((c : Thread nD τ).loc main_arg13) :=
  (V5_of m c main_arg13 (by decide)).trans <| (V4_of m c main_arg13 (by decide)).trans <| (V3_of m c main_arg13 (by decide)).trans <| (V2_of m c main_arg13 (by decide)).trans <| (V1_of m c main_arg13 (by decide)).trans rfl

/-- The row words reach the second stretch as the first stretch left them. -/
theorem h2_V7_v1 : (V7 m outs c main_v1 : S640000.Idx → BitVec 32)
    = shapeCast S640000 (extractStridedSlice S1x640000 ![0, 0] (aEI m c) slices_S2x640000_S1x640000_0_0) shapeCasts_S1x640000_S640000 :=
  (V7_of m outs c main_v1 (by decide)).trans <| (V6_of m c main_v1 (by decide)).trans <| (V5_of m c main_v1 (by decide)).trans <| (V4_of m c main_v1 (by decide)).trans <| (V3_of m c main_v1 (by decide)).trans <| (V2_of m c main_v1 (by decide)).trans <| h2_stretch0_v1 (V0 m c)

theorem h2_V7_arg1 : V7 m outs c main_arg1 = m ((c : Thread nD τ).loc main_arg1) :=
  (V7_of m outs c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

/-- The messages and the position updates, as the edge kernel's pallas_call left them. -/
theorem h2_V7_v18_0 : V7 m outs c main_v18_0 = outs 7 main_v18_0 c := by
  show Function.update (Function.update (V6 m c) main_v18_0 (outs 7 main_v18_0 c)) main_v18_1 (outs 7 main_v18_1 c) main_v18_0 = _
  rw [Function.update_of_ne (StableHlo.devRef_ne_of_ne (by decide)), Function.update_self]
theorem h2_V7_v18_1 : V7 m outs c main_v18_1 = outs 7 main_v18_1 c := by
  show Function.update (Function.update (V6 m c) main_v18_0 (outs 7 main_v18_0 c)) main_v18_1 (outs 7 main_v18_1 c) main_v18_1 = _
  rw [Function.update_self]

/-! ## Biases, untouched arguments, aggregated messages, new positions -/

theorem v13_apply (i : Fin 128) : (V6 m c main_v13 : S1x128.Idx → EReal) (ix2 (0 : Fin 1) i) = aB1 m c (ix1 i) := by
  rw [show (V6 m c main_v13 : S1x128.Idx → EReal) = _ from h2_stretch5_v13 (V5 m c), h2_V5_arg5]
  exact shapeCast_a_1a_apply _ _ _ _
theorem v14_apply (i : Fin 128) : (V6 m c main_v14 : S1x128.Idx → EReal) (ix2 (0 : Fin 1) i) = aB2 m c (ix1 i) := by
  rw [show (V6 m c main_v14 : S1x128.Idx → EReal) = _ from h2_stretch5_v14 (V5 m c), h2_V5_arg7]
  exact shapeCast_a_1a_apply _ _ _ _
theorem v15_apply : (V6 m c main_v15 : S1x1.Idx → EReal) (ix2 (0 : Fin 1) (0 : Fin 1)) = aAb m c (ix1 (0 : Fin 1)) := by
  rw [show (V6 m c main_v15 : S1x1.Idx → EReal) = _ from h2_stretch5_v15 (V5 m c), h2_V5_arg9]
  exact shapeCast_a_1a_apply _ _ _ _
theorem V6_arg4 : V6 m c main_arg4 = m ((c : Thread nD τ).loc main_arg4) :=
  (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem V6_arg6 : V6 m c main_arg6 = m ((c : Thread nD τ).loc main_arg6) :=
  (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
theorem V6_arg8 : V6 m c main_arg8 = m ((c : Thread nD τ).loc main_arg8) :=
  (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl
theorem V6_arg14 : V6 m c main_arg14 = m ((c : Thread nD τ).loc main_arg14) :=
  (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide)).trans <| rfl

/-! ## The buffers the node kernel's pallas_call reads, and the position result -/

theorem v16_apply (i : Fin 128) : (V8 m outs c main_v16 : S1x128.Idx → EReal) (ix2 (0 : Fin 1) i) = aNb1 m c (ix1 i) := by
  rw [show (V8 m outs c main_v16 : S1x128.Idx → EReal) = _ from
    (V8_of m outs c main_v16 (by decide)).trans <| (V7_of m outs c main_v16 (by decide)).trans <| h2_stretch5_v16 (V5 m c), h2_V5_arg11]
  exact shapeCast_a_1a_apply _ _ _ _
theorem v17_apply (i : Fin 128) : (V8 m outs c main_v17 : S1x128.Idx → EReal) (ix2 (0 : Fin 1) i) = aNb2 m c (ix1 i) := by
  rw [show (V8 m outs c main_v17 : S1x128.Idx → EReal) = _ from
    (V8_of m outs c main_v17 (by decide)).trans <| (V7_of m outs c main_v17 (by decide)).trans <| h2_stretch5_v17 (V5 m c), h2_V5_arg13]
  exact shapeCast_a_1a_apply _ _ _ _
theorem V8_arg0 : V8 m outs c main_arg0 = m ((c : Thread nD τ).loc main_arg0) :=
  (V8_of m outs c main_arg0 (by decide)).trans <| (V7_of m outs c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem V8_arg10 : V8 m outs c main_arg10 = m ((c : Thread nD τ).loc main_arg10) :=
  (V8_of m outs c main_arg10 (by decide)).trans <| (V7_of m outs c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans <| rfl
theorem V8_arg12 : V8 m outs c main_arg12 = m ((c : Thread nD τ).loc main_arg12) :=
  (V8_of m outs c main_arg12 (by decide)).trans <| (V7_of m outs c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans <| rfl

/-- The aggregated messages: the message array scatter-added by receiving node into zeros. -/
theorem v33_eq : (V8 m outs c main_v33 : S50000x128.Idx → EReal)
    = Host.scatterAdd (F := Ideal) scatter_S50000x128_S640000x1_S640000x128_1_0_0_1
        (broadcastInDim S50000x128 ![] bcast_S_S50000x128 (constant S_ .f32 0x00000000#32)) (rowCol m c) (outs 7 main_v18_0 c) := by
  rw [show (V8 m outs c main_v33 : S50000x128.Idx → EReal) = _ from h2_stretch1_v33 (V7 m outs c), h2_V7_v1, h2_V7_v18_0]

/-- The new positions: the positions plus the scatter-added position updates divided by the edge count clipped below at 1. -/
theorem v30_eq : (V8 m outs c main_v30 : S50000x3.Idx → EReal)
    = addf (F := Ideal) (aP m c) (Host.divf
        (Host.scatterAdd scatter_S50000x3_S640000x1_S640000x3_1_0_0_1
          (broadcastInDim S50000x3 ![] bcast_S_S50000x3 (constant S_ .f32 0x00000000#32)) (rowCol m c) (outs 7 main_v18_1 c))
        (broadcastInDim S50000x3 ![0, 1] bcast_S50000x1_S50000x3_0_1
          (maximumf
            (Host.scatterAdd scatter_S50000x1_S640000x1_S640000x1_1_0_0_1
              (broadcastInDim S50000x1 ![] bcast_S_S50000x1 (constant S_ .f32 0x00000000#32)) (rowCol m c)
              (broadcastInDim S640000x1 ![] bcast_S_S640000x1 (constant S_ .f32 0x3F800000#32)))
            (broadcastInDim S50000x1 ![] bcast_S_S50000x1 (constant S_ .f32 0x3F800000#32))))) := by
  rw [show (V8 m outs c main_v30 : S50000x3.Idx → EReal) = _ from h2_stretch1_v30 (V7 m outs c), h2_V7_v1, h2_V7_v18_1, h2_V7_arg1]

end Cert.KernelIdeal.Hand

end
-- ==== Proof.Ref.lean ====
/-
  The reference program read at one entry. Its message array at (e, j) is the edge network's message at column j of edge e's
  row — the feature rows of the edge's two nodes, the squared length of their position difference, the edge's attributes —,
  its position update at (e, d) is the position difference times the network's scalar, and its new feature array at (n, j) is
  the node update of node n's features beside its aggregated messages.
-/
import proofs.«406677_j84052509983239_1_alg».proof.Defs
import proofs.«406677_j84052509983239_1_alg».proof.Proof.Gen.ReferenceIdeal
import proofs.«406677_j84052509983239_1_alg».proof.Proof.Gen.ReferenceIdeal.Run
import proofs.«406677_j84052509983239_1_alg».proof.Proof.Gen.ReferenceIdeal.Read
import proofs.«406677_j84052509983239_1_alg».proof.Proof.Spec
import proofs.«406677_j84052509983239_1_alg».proof.Proof.LibGatherRows
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

variable (x0 : (⟨S50000x128, .f32⟩ : BufTy).Contents (Elt Ideal)) (x1 : (⟨S50000x3, .f32⟩ : BufTy).Contents (Elt Ideal)) (x2 : (⟨S2x640000, .i32⟩ : BufTy).Contents (Elt Ideal))
  (x3 : (⟨S640000x8, .f32⟩ : BufTy).Contents (Elt Ideal)) (x4 : (⟨S265x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal)) (x8 : (⟨S128x1, .f32⟩ : BufTy).Contents (Elt Ideal))
  (x9 : (⟨S1, .f32⟩ : BufTy).Contents (Elt Ideal)) (x10 : (⟨S256x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal)) (x14 : (⟨S128x1, .f32⟩ : BufTy).Contents (Elt Ideal))

/-- Edge e's input row to the edge network, from the arguments. -/
abbrev refRow (e : Fin 640000) : Fin 265 → EReal :=
  Cert.Spec.ein (fun k => x0 (ix2 (Cert.Spec.node x2 0 e) k)) (fun k => x0 (ix2 (Cert.Spec.node x2 1 e) k))
    (Cert.Spec.dsq (fun d => x1 (ix2 (Cert.Spec.node x2 0 e) d) - x1 (ix2 (Cert.Spec.node x2 1 e) d)))
    (fun a => x3 (ix2 e a))

/-- A rank-2 index is the pair of its coordinates. -/
theorem idx2_ext {A B : Nat} (j : (⟨2, ![A, B]⟩ : Shape).Idx) (p : Fin A) (q : Fin B)
    (h0 : (j 0).val = p.val) (h1 : (j 1).val = q.val) : j = ix2 p q := by
  funext a
  match a with
  | ⟨0, _⟩ => exact Fin.ext h0
  | ⟨1, _⟩ => exact Fin.ext h1

/-- A rank-1 index is its coordinate. -/
theorem idx1_ext {A : Nat} (j : (⟨1, ![A]⟩ : Shape).Idx) (p : Fin A) (h0 : (j 0).val = p.val) : j = ix1 p := by
  funext a
  match a with
  | ⟨0, _⟩ => exact Fin.ext h0

/-- x · (1 / (1 + e⁻ˣ)), as the program spells it, is silu x. -/
theorem silu_spelled (v : EReal) :
    FloatOps.mulf (F := Ideal) (φ := .f32) v (FloatOps.hostDivf (F := Ideal) (φ := .f32) (FloatOps.ofBits (F := Ideal) .f32 0x3F800000#32)
      (FloatOps.addf (F := Ideal) (φ := .f32) (FloatOps.ofBits (F := Ideal) .f32 0x3F800000#32) (FloatOps.hostUnary (F := Ideal) (φ := .f32) .exp (FloatOps.hostNegf (F := Ideal) (φ := .f32) v))))
      = Cert.Spec.silu v := by
  show v * Ideal.div (Ideal.ofBits .f32 0x3F800000#32) (Ideal.ofBits .f32 0x3F800000#32 + Ideal.exp (-v)) = v * Ideal.logistic v
  rw [Ideal.ofBits_one_f32]
  rfl

/-- 1 / (1 + e⁻ˣ), as the program spells it, is σ x. -/
theorem logistic_spelled (v : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32) (FloatOps.hostUnary (F := Ideal) (φ := .f32) .exp (FloatOps.hostNegf (F := Ideal) (φ := .f32) v)))
      = Ideal.logistic v := by
  show Ideal.div (Ideal.ofBits .f32 0x3F800000#32) (Ideal.ofBits .f32 0x3F800000#32 + Ideal.exp (-v)) = Ideal.logistic v
  rw [Ideal.ofBits_one_f32]
  rfl

/-! The four normalised position words of edge e: the receiving and the sending node's, once for the positions and once for
    the features. -/

theorem word_v9 (e : Fin 640000) :
    val_main_v9 (F := Ideal) x2 (ix2 e (0 : Fin 1)) = Cert.Spec.wrapW (x2 (ix2 (0 : Fin 2) e)) := by
  rw [val_main_v9_apply, val_main_v8_apply, val_main_v5_apply, val_main_v7_apply, val_main_v4_apply, val_main_v6_apply,
    val_main_c_apply, val_main_c_0_apply, val_main_v1_apply, val_main_v0_apply]
  have h : idx_main_v0 (idx_main_v1 (idx_main_v9 (ix2 e (0 : Fin 1)))) = ix2 (0 : Fin 2) e :=
    idx2_ext _ _ _ rfl (Nat.mod_eq_of_lt e.isLt)
  rw [h]
  rfl

theorem word_v16 (e : Fin 640000) :
    val_main_v16 (F := Ideal) x2 (ix2 e (0 : Fin 1)) = Cert.Spec.wrapW (x2 (ix2 (1 : Fin 2) e)) := by
  rw [val_main_v16_apply, val_main_v15_apply, val_main_v12_apply, val_main_v14_apply, val_main_v11_apply, val_main_v13_apply,
    val_main_c_1_apply, val_main_c_2_apply, val_main_v3_apply, val_main_v2_apply]
  have h : idx_main_v2 (idx_main_v3 (idx_main_v16 (ix2 e (0 : Fin 1)))) = ix2 (1 : Fin 2) e :=
    idx2_ext _ _ _ rfl (Nat.mod_eq_of_lt e.isLt)
  rw [h]
  rfl

theorem word_v27 (e : Fin 640000) :
    val_main_v27 (F := Ideal) x2 (ix2 e (0 : Fin 1)) = Cert.Spec.wrapW (x2 (ix2 (0 : Fin 2) e)) := by
  rw [val_main_v27_apply, val_main_v26_apply, val_main_v23_apply, val_main_v25_apply, val_main_v22_apply, val_main_v24_apply,
    val_main_c_3_apply, val_main_c_4_apply, val_main_v1_apply, val_main_v0_apply]
  have h : idx_main_v0 (idx_main_v1 (idx_main_v27 (ix2 e (0 : Fin 1)))) = ix2 (0 : Fin 2) e :=
    idx2_ext _ _ _ rfl (Nat.mod_eq_of_lt e.isLt)
  rw [h]
  rfl

theorem word_v34 (e : Fin 640000) :
    val_main_v34 (F := Ideal) x2 (ix2 e (0 : Fin 1)) = Cert.Spec.wrapW (x2 (ix2 (1 : Fin 2) e)) := by
  rw [val_main_v34_apply, val_main_v33_apply, val_main_v30_apply, val_main_v32_apply, val_main_v29_apply, val_main_v31_apply,
    val_main_c_5_apply, val_main_c_6_apply, val_main_v3_apply, val_main_v2_apply]
  have h : idx_main_v2 (idx_main_v3 (idx_main_v34 (ix2 e (0 : Fin 1)))) = ix2 (1 : Fin 2) e :=
    idx2_ext _ _ _ rfl (Nat.mod_eq_of_lt e.isLt)
  rw [h]
  rfl

/-! The four gathers: rows of the position and feature tables at the edge's two nodes. -/

theorem pos_row (e : Fin 640000) (d : Fin 3) :
    val_main_v10 (F := Ideal) x1 x2 (ix2 e d) = x1 (ix2 (Cert.Spec.node x2 0 e) d) := by
  unfold val_main_v10
  refine (Cert.LibGatherRows.gather_rows_apply gather_S50000x3_S640000x1_S640000x3_1_0_n_n_0_1_13 rfl rfl rfl rfl rfl rfl x1
    (val_main_v9 (F := Ideal) x2) e d (by decide)).trans ?_
  exact congrArg (fun w => x1 (ix2 (Cert.Spec.nodeOf w) d)) (word_v9 x2 e)

theorem pos_col (e : Fin 640000) (d : Fin 3) :
    val_main_v17 (F := Ideal) x1 x2 (ix2 e d) = x1 (ix2 (Cert.Spec.node x2 1 e) d) := by
  unfold val_main_v17
  refine (Cert.LibGatherRows.gather_rows_apply gather_S50000x3_S640000x1_S640000x3_1_0_n_n_0_1_13 rfl rfl rfl rfl rfl rfl x1
    (val_main_v16 (F := Ideal) x2) e d (by decide)).trans ?_
  exact congrArg (fun w => x1 (ix2 (Cert.Spec.nodeOf w) d)) (word_v16 x2 e)

theorem feat_row (e : Fin 640000) (k : Fin 128) :
    val_main_v28 (F := Ideal) x0 x2 (ix2 e k) = x0 (ix2 (Cert.Spec.node x2 0 e) k) := by
  unfold val_main_v28
  refine (Cert.LibGatherRows.gather_rows_apply gather_S50000x128_S640000x1_S640000x128_1_0_n_n_0_1_1128 rfl rfl rfl rfl rfl rfl x0
    (val_main_v27 (F := Ideal) x2) e k (by decide)).trans ?_
  exact congrArg (fun w => x0 (ix2 (Cert.Spec.nodeOf w) k)) (word_v27 x2 e)

theorem feat_col (e : Fin 640000) (k : Fin 128) :
    val_main_v35 (F := Ideal) x0 x2 (ix2 e k) = x0 (ix2 (Cert.Spec.node x2 1 e) k) := by
  unfold val_main_v35
  refine (Cert.LibGatherRows.gather_rows_apply gather_S50000x128_S640000x1_S640000x128_1_0_n_n_0_1_1128 rfl rfl rfl rfl rfl rfl x0
    (val_main_v34 (F := Ideal) x2) e k (by decide)).trans ?_
  exact congrArg (fun w => x0 (ix2 (Cert.Spec.nodeOf w) k)) (word_v34 x2 e)

/-- The position difference of edge e at coordinate d. -/
theorem pos_diff (e : Fin 640000) (d : Fin 3) :
    val_main_v18 (F := Ideal) x1 x2 (ix2 e d)
      = x1 (ix2 (Cert.Spec.node x2 0 e) d) - x1 (ix2 (Cert.Spec.node x2 1 e) d) := by
  rw [val_main_v18_apply, pos_row, pos_col]
  rfl

/-- The squared distance of edge e. -/
theorem dist_sq (e : Fin 640000) :
    val_main_v21 (F := Ideal) x1 x2 (ix2 e (0 : Fin 1))
      = Cert.Spec.dsq (fun d => x1 (ix2 (Cert.Spec.node x2 0 e) d) - x1 (ix2 (Cert.Spec.node x2 1 e) d)) := by
  rw [val_main_v21_apply, val_main_v20_apply, val_main_cst_apply, Ideal.ofBits_def, Ideal.ofBits_zero_f32, zero_add]
  unfold Cert.Spec.dsq
  refine Finset.sum_congr rfl fun d _ => ?_
  have h : idx_main_v20 (idx_main_v21 (ix2 e (0 : Fin 1))) d = ix2 e d := idx2_ext _ _ _ rfl rfl
  rw [h, val_main_v19_apply, pos_diff]
  rfl

/-- The edge network's input array at (e, k): the four-way split of the concatenation. -/
theorem edge_in (e : Fin 640000) (k : Fin 265) :
    val_main_v36 (F := Ideal) x0 x1 x2 x3 (ix2 e k) = refRow x0 x1 x2 x3 e k := by
  unfold val_main_v36
  show _ = Cert.Spec.ein _ _ _ _ k
  unfold Cert.Spec.ein
  by_cases h1 : k.val < 128
  · rw [dif_pos h1]
    refine (concatenate_apply_piece (t := S640000x265) 1 [⟨S640000x128, val_main_v28 (F := Ideal) x0 x2⟩, ⟨S640000x128, val_main_v35 (F := Ideal) x0 x2⟩, ⟨S640000x1, val_main_v21 (F := Ideal) x1 x2⟩, ⟨S640000x8, x3⟩] concatenates_S640000x128_S640000x128_S640000x1_S640000x8_S640000x265_d1 (ix2 e k)
      0 (by show 0 < 4; omega) S640000x128 (val_main_v28 (F := Ideal) x0 x2) rfl rfl 0 rfl (ix2 e (⟨k.val, h1⟩ : Fin 128))
      (fun b hb => match b with | ⟨0, _⟩ => rfl | ⟨1, _⟩ => absurd rfl hb) (by show 0 + k.val = k.val; omega)).trans ?_
    exact feat_row x0 x2 e ⟨k.val, h1⟩
  · rw [dif_neg h1]
    by_cases h2 : k.val < 256
    · rw [dif_pos h2]
      refine (concatenate_apply_piece (t := S640000x265) 1 [⟨S640000x128, val_main_v28 (F := Ideal) x0 x2⟩, ⟨S640000x128, val_main_v35 (F := Ideal) x0 x2⟩, ⟨S640000x1, val_main_v21 (F := Ideal) x1 x2⟩, ⟨S640000x8, x3⟩] concatenates_S640000x128_S640000x128_S640000x1_S640000x8_S640000x265_d1 (ix2 e k)
        1 (by show 1 < 4; omega) S640000x128 (val_main_v35 (F := Ideal) x0 x2) rfl rfl 128 rfl (ix2 e (⟨k.val - 128, by omega⟩ : Fin 128))
        (fun b hb => match b with | ⟨0, _⟩ => rfl | ⟨1, _⟩ => absurd rfl hb) (by show 128 + (k.val - 128) = k.val; omega)).trans ?_
      exact feat_col x0 x2 e ⟨k.val - 128, by omega⟩
    · rw [dif_neg h2]
      by_cases h3 : k.val < 257
      · rw [dif_pos h3]
        refine (concatenate_apply_piece (t := S640000x265) 1 [⟨S640000x128, val_main_v28 (F := Ideal) x0 x2⟩, ⟨S640000x128, val_main_v35 (F := Ideal) x0 x2⟩, ⟨S640000x1, val_main_v21 (F := Ideal) x1 x2⟩, ⟨S640000x8, x3⟩] concatenates_S640000x128_S640000x128_S640000x1_S640000x8_S640000x265_d1 (ix2 e k)
          2 (by show 2 < 4; omega) S640000x1 (val_main_v21 (F := Ideal) x1 x2) rfl rfl 256 rfl (ix2 e (0 : Fin 1))
          (fun b hb => match b with | ⟨0, _⟩ => rfl | ⟨1, _⟩ => absurd rfl hb) (by show 256 + 0 = k.val; omega)).trans ?_
        exact dist_sq x1 x2 e
      · rw [dif_neg h3]
        have hk := k.isLt
        refine (concatenate_apply_piece (t := S640000x265) 1 [⟨S640000x128, val_main_v28 (F := Ideal) x0 x2⟩, ⟨S640000x128, val_main_v35 (F := Ideal) x0 x2⟩, ⟨S640000x1, val_main_v21 (F := Ideal) x1 x2⟩, ⟨S640000x8, x3⟩] concatenates_S640000x128_S640000x128_S640000x1_S640000x8_S640000x265_d1 (ix2 e k)
          3 (by show 3 < 4; omega) S640000x8 x3 rfl rfl 257 rfl (ix2 e (⟨k.val - 257, by omega⟩ : Fin 8))
          (fun b hb => match b with | ⟨0, _⟩ => rfl | ⟨1, _⟩ => absurd rfl hb) (by show 257 + (k.val - 257) = k.val; omega)).trans ?_
        rfl

/-! The edge network, one layer at a time. -/

theorem pre1 (e : Fin 640000) (j : Fin 128) :
    val_main_v40 (F := Ideal) x0 x1 x2 x3 x4 x5 (ix2 e j)
      = Cert.Spec.dot (refRow x0 x1 x2 x3 e) (fun k => x4 (ix2 k j)) + x5 (ix1 j) := by
  rw [val_main_v40_apply, val_main_v37_apply, val_main_v39_apply, val_main_v38_apply]
  have hb : idx_main_v38 (idx_main_v39 (ix2 e j)) = ix1 j := idx1_ext _ _ rfl
  rw [hb]
  refine congrArg (· + x5 (ix1 j)) ?_
  unfold Cert.Spec.dot
  refine Finset.sum_congr rfl fun k _ => ?_
  have hl : lidx_main_v37 (ix2 e j) k = ix2 e k := idx2_ext _ _ _ rfl rfl
  have hr : ridx_main_v37 (ix2 e j) k = ix2 k j := idx2_ext _ _ _ rfl rfl
  rw [hl, hr, edge_in]

theorem act1 (e : Fin 640000) (j : Fin 128) :
    val_main_v41 (F := Ideal) x0 x1 x2 x3 x4 x5 (ix2 e j)
      = Cert.Spec.hid1 (refRow x0 x1 x2 x3 e) (fun k i => x4 (ix2 k i)) (fun i => x5 (ix1 i)) j := by
  rw [val_main_v41_apply, val_main_call0_v5_apply, val_main_call0_v4_apply, val_main_call0_cst_0_apply, val_main_call0_v3_apply,
    val_main_call0_v2_apply, val_main_call0_cst_apply, val_main_call0_v1_apply, val_main_call0_v0_apply]
  refine (silu_spelled _).trans ?_
  rw [pre1]
  rfl

theorem pre2 (e : Fin 640000) (j : Fin 128) :
    val_main_v45 (F := Ideal) x0 x1 x2 x3 x4 x5 x6 x7 (ix2 e j)
      = Cert.Spec.dot (Cert.Spec.hid1 (refRow x0 x1 x2 x3 e) (fun k i => x4 (ix2 k i)) (fun i => x5 (ix1 i))) (fun k => x6 (ix2 k j))
        + x7 (ix1 j) := by
  rw [val_main_v45_apply, val_main_v42_apply, val_main_v44_apply, val_main_v43_apply]
  have hb : idx_main_v43 (idx_main_v44 (ix2 e j)) = ix1 j := idx1_ext _ _ rfl
  rw [hb]
  refine congrArg (· + x7 (ix1 j)) ?_
  unfold Cert.Spec.dot
  refine Finset.sum_congr rfl fun k _ => ?_
  have hl : lidx_main_v42 (ix2 e j) k = ix2 e k := idx2_ext _ _ _ rfl rfl
  have hr : ridx_main_v42 (ix2 e j) k = ix2 k j := idx2_ext _ _ _ rfl rfl
  rw [hl, hr, act1]

theorem act2 (e : Fin 640000) (j : Fin 128) :
    val_main_v46 (F := Ideal) x0 x1 x2 x3 x4 x5 x6 x7 (ix2 e j)
      = Cert.Spec.hid2 (refRow x0 x1 x2 x3 e) (fun k i => x4 (ix2 k i)) (fun i => x5 (ix1 i)) (fun k i => x6 (ix2 k i))
          (fun i => x7 (ix1 i)) j := by
  rw [val_main_v46_apply, val_main_call1_v5_apply, val_main_call1_v4_apply, val_main_call1_cst_0_apply, val_main_call1_v3_apply,
    val_main_call1_v2_apply, val_main_call1_cst_apply, val_main_call1_v1_apply, val_main_call1_v0_apply]
  refine (silu_spelled _).trans ?_
  rw [pre2]
  rfl

theorem pre_gate (e : Fin 640000) :
    val_main_v50 (F := Ideal) x0 x1 x2 x3 x4 x5 x6 x7 x8 x9 (ix2 e (0 : Fin 1))
      = Cert.Spec.dot (Cert.Spec.hid2 (refRow x0 x1 x2 x3 e) (fun k i => x4 (ix2 k i)) (fun i => x5 (ix1 i)) (fun k i => x6 (ix2 k i))
          (fun i => x7 (ix1 i))) (fun k => x8 (ix2 k (0 : Fin 1))) + x9 (ix1 (0 : Fin 1)) := by
  rw [val_main_v50_apply, val_main_v47_apply, val_main_v49_apply, val_main_v48_apply]
  have hb : idx_main_v48 (idx_main_v49 (ix2 e (0 : Fin 1))) = ix1 (0 : Fin 1) := idx1_ext _ _ rfl
  rw [hb]
  refine congrArg (· + x9 (ix1 (0 : Fin 1))) ?_
  unfold Cert.Spec.dot
  refine Finset.sum_congr rfl fun k _ => ?_
  have hl : lidx_main_v47 (ix2 e (0 : Fin 1)) k = ix2 e k := idx2_ext _ _ _ rfl rfl
  have hr : ridx_main_v47 (ix2 e (0 : Fin 1)) k = ix2 k (0 : Fin 1) := idx2_ext _ _ _ rfl rfl
  rw [hl, hr, act2]

theorem gate_val (e : Fin 640000) :
    val_main_v56 (F := Ideal) x0 x1 x2 x3 x4 x5 x6 x7 x8 x9 (ix2 e (0 : Fin 1))
      = Cert.Spec.gate (refRow x0 x1 x2 x3 e) (fun k i => x4 (ix2 k i)) (fun i => x5 (ix1 i)) (fun k i => x6 (ix2 k i))
          (fun i => x7 (ix1 i)) (fun k => x8 (ix2 k (0 : Fin 1))) (x9 (ix1 (0 : Fin 1))) := by
  rw [val_main_v56_apply, val_main_v55_apply, val_main_cst_8_apply, val_main_v54_apply, val_main_v53_apply, val_main_cst_7_apply,
    val_main_v52_apply, val_main_v51_apply]
  refine (logistic_spelled _).trans ?_
  rw [pre_gate]
  rfl

/-- The message array at (e, j). -/
theorem ref_msg (e : Fin 640000) (j : Fin 128) :
    val_main_v58 (F := Ideal) x0 x1 x2 x3 x4 x5 x6 x7 x8 x9 (ix2 e j)
      = Cert.Spec.msg (refRow x0 x1 x2 x3 e) (fun k i => x4 (ix2 k i)) (fun i => x5 (ix1 i)) (fun k i => x6 (ix2 k i))
          (fun i => x7 (ix1 i)) (fun k => x8 (ix2 k (0 : Fin 1))) (x9 (ix1 (0 : Fin 1))) j := by
  rw [val_main_v58_apply, val_main_v57_apply]
  have h : idx_main_v57 (ix2 e j) = ix2 e (0 : Fin 1) := idx2_ext _ _ _ rfl rfl
  rw [h, act2, gate_val]
  rfl

theorem tsc_val (e : Fin 640000) :
    val_main_v59 (F := Ideal) x0 x1 x2 x3 x4 x5 x6 x7 x8 x9 x14 (ix2 e (0 : Fin 1))
      = Cert.Spec.tsc (refRow x0 x1 x2 x3 e) (fun k i => x4 (ix2 k i)) (fun i => x5 (ix1 i)) (fun k i => x6 (ix2 k i))
          (fun i => x7 (ix1 i)) (fun k => x8 (ix2 k (0 : Fin 1))) (x9 (ix1 (0 : Fin 1))) (fun k => x14 (ix2 k (0 : Fin 1))) := by
  rw [val_main_v59_apply]
  unfold Cert.Spec.tsc Cert.Spec.dot
  refine Finset.sum_congr rfl fun k _ => ?_
  have hl : lidx_main_v59 (ix2 e (0 : Fin 1)) k = ix2 e k := idx2_ext _ _ _ rfl rfl
  have hr : ridx_main_v59 (ix2 e (0 : Fin 1)) k = ix2 k (0 : Fin 1) := idx2_ext _ _ _ rfl rfl
  rw [hl, hr, ref_msg]

/-- The position-update array at (e, d). -/
theorem ref_trans (e : Fin 640000) (d : Fin 3) :
    val_main_v61 (F := Ideal) x0 x1 x2 x3 x4 x5 x6 x7 x8 x9 x14 (ix2 e d)
      = (x1 (ix2 (Cert.Spec.node x2 0 e) d) - x1 (ix2 (Cert.Spec.node x2 1 e) d))
        * Cert.Spec.tsc (refRow x0 x1 x2 x3 e) (fun k i => x4 (ix2 k i)) (fun i => x5 (ix1 i)) (fun k i => x6 (ix2 k i))
            (fun i => x7 (ix1 i)) (fun k => x8 (ix2 k (0 : Fin 1))) (x9 (ix1 (0 : Fin 1))) (fun k => x14 (ix2 k (0 : Fin 1))) := by
  rw [val_main_v61_apply, val_main_v60_apply]
  have h : idx_main_v60 (ix2 e d) = ix2 e (0 : Fin 1) := idx2_ext _ _ _ rfl rfl
  rw [h, pos_diff, tsc_val]
  rfl

/-! The node network. -/

/-- The node network's input array at (n, k): the node's features beside its aggregated messages. -/
theorem node_in (n : Fin 50000) (k : Fin 256) :
    val_main_v77 (F := Ideal) x0 x1 x2 x3 x4 x5 x6 x7 x8 x9 (ix2 n k)
      = Cert.Spec.nin (fun k => x0 (ix2 n k)) (fun k => val_main_v76 (F := Ideal) x0 x1 x2 x3 x4 x5 x6 x7 x8 x9 (ix2 n k)) k := by
  unfold val_main_v77 Cert.Spec.nin
  by_cases h1 : k.val < 128
  · rw [dif_pos h1]
    exact concatenate_pair_apply_left (t := S50000x256) 1 x0 (val_main_v76 (F := Ideal) x0 x1 x2 x3 x4 x5 x6 x7 x8 x9)
      concatenates_S50000x128_S50000x128_S50000x256_d1 (ix2 n k) rfl (ix2 n (⟨k.val, h1⟩ : Fin 128))
      (fun b => match b with | ⟨0, _⟩ => rfl | ⟨1, _⟩ => rfl)
  · rw [dif_neg h1]
    have hk := k.isLt
    exact concatenate_pair_apply_right (t := S50000x256) 1 x0 (val_main_v76 (F := Ideal) x0 x1 x2 x3 x4 x5 x6 x7 x8 x9)
      concatenates_S50000x128_S50000x128_S50000x256_d1 (ix2 n k) rfl rfl (ix2 n (⟨k.val - 128, by omega⟩ : Fin 128))
      (fun b hb => match b with | ⟨0, _⟩ => rfl | ⟨1, _⟩ => absurd rfl hb) (by show (k.val - 128) + 128 = k.val; omega)

theorem node_pre (n : Fin 50000) (k : Fin 128) :
    val_main_v81 (F := Ideal) x0 x1 x2 x3 x4 x5 x6 x7 x8 x9 x10 x11 (ix2 n k)
      = Cert.Spec.dot (Cert.Spec.nin (fun k => x0 (ix2 n k)) (fun k => val_main_v76 (F := Ideal) x0 x1 x2 x3 x4 x5 x6 x7 x8 x9 (ix2 n k)))
          (fun i => x10 (ix2 i k)) + x11 (ix1 k) := by
  rw [val_main_v81_apply, val_main_v78_apply, val_main_v80_apply, val_main_v79_apply]
  have hb : idx_main_v79 (idx_main_v80 (ix2 n k)) = ix1 k := idx1_ext _ _ rfl
  rw [hb]
  refine congrArg (· + x11 (ix1 k)) ?_
  unfold Cert.Spec.dot
  refine Finset.sum_congr rfl fun i _ => ?_
  have hl : lidx_main_v78 (ix2 n k) i = ix2 n i := idx2_ext _ _ _ rfl rfl
  have hr : ridx_main_v78 (ix2 n k) i = ix2 i k := idx2_ext _ _ _ rfl rfl
  rw [hl, hr, node_in]

theorem node_act (n : Fin 50000) (k : Fin 128) :
    val_main_v82 (F := Ideal) x0 x1 x2 x3 x4 x5 x6 x7 x8 x9 x10 x11 (ix2 n k)
      = Cert.Spec.silu (Cert.Spec.dot (Cert.Spec.nin (fun k => x0 (ix2 n k)) (fun k => val_main_v76 (F := Ideal) x0 x1 x2 x3 x4 x5 x6 x7 x8 x9 (ix2 n k)))
          (fun i => x10 (ix2 i k)) + x11 (ix1 k)) := by
  rw [val_main_v82_apply, val_main_call2_v5_apply, val_main_call2_v4_apply, val_main_call2_cst_0_apply, val_main_call2_v3_apply,
    val_main_call2_v2_apply, val_main_call2_cst_apply, val_main_call2_v1_apply, val_main_call2_v0_apply]
  refine (silu_spelled _).trans ?_
  rw [node_pre]

/-- The new feature array at (n, j), over the aggregated message array. -/
theorem ref_hnew (n : Fin 50000) (j : Fin 128) :
    val_main_v87 (F := Ideal) x0 x1 x2 x3 x4 x5 x6 x7 x8 x9 x10 x11 x12 x13 (ix2 n j)
      = Cert.Spec.hnew (fun k => x0 (ix2 n k)) (fun k => val_main_v76 (F := Ideal) x0 x1 x2 x3 x4 x5 x6 x7 x8 x9 (ix2 n k))
          (fun k i => x10 (ix2 k i)) (fun i => x11 (ix1 i)) (fun k i => x12 (ix2 k i)) (fun i => x13 (ix1 i)) j := by
  rw [val_main_v87_apply, val_main_v86_apply, val_main_v83_apply, val_main_v85_apply, val_main_v84_apply]
  have hb : idx_main_v84 (idx_main_v85 (ix2 n j)) = ix1 j := idx1_ext _ _ rfl
  rw [hb]
  unfold Cert.Spec.hnew
  refine congrArg (fun s => s + x13 (ix1 j) + x0 (ix2 n j)) ?_
  unfold Cert.Spec.dot
  refine Finset.sum_congr rfl fun k _ => ?_
  have hl : lidx_main_v83 (ix2 n j) k = ix2 n k := idx2_ext _ _ _ rfl rfl
  have hr : ridx_main_v83 (ix2 n j) k = ix2 k j := idx2_ext _ _ _ rfl rfl
  rw [hl, hr, node_act]
  rfl

end Cert.ReferenceIdeal.RefValue

end
-- ==== Proof.PreIdx.lean ====
/-
  Reading the precondition: when the printed predicate holds of the arguments, every node position word of the edge list lies in
  [0, 50000) read signed.
-/
import proofs.«406677_j84052509983239_1_alg».proof.Pre_finite_inputs
import Idealize.ShloMosaic.Lib.ValueIdx
import Idealize.ShloMosaic.Lib.ReduceAll
import Idealize.ShloMosaic.Lib.StableHlo.Predicate

noncomputable section

namespace Cert.Hand

open Idealize.ShloMosaic Idealize.ShloMosaic.ValueIdx
open Cert.Pre_finite_inputs

variable {F : FTy → Type} [FloatOps F] [Cert.Pre_finite_inputs.Facts]

/-- If the precondition is all ones then each of the 2 × 640000 position words is at least 0 and below 50000, read signed. -/
theorem idx_of_pre (a0 : FVec F S50000x128 .f32) (a1 : FVec F S50000x3 .f32) (a2 : IVec S2x640000 32) (a3 : FVec F S640000x8 .f32)
    (a4 : FVec F S265x128 .f32) (a5 : FVec F S128 .f32) (a6 : FVec F S128x128 .f32) (a7 : FVec F S128 .f32) (a8 : FVec F S128x1 .f32)
    (a9 : FVec F S1 .f32) (a10 : FVec F S256x128 .f32) (a11 : FVec F S128 .f32) (a12 : FVec F S128x128 .f32) (a13 : FVec F S128 .f32)
    (a14 : FVec F S128x1 .f32)
    (h : Cert.Pre_finite_inputs.fn (F := F) a0 a1 a2 a3 a4 a5 a6 a7 a8 a9 a10 a11 a12 a13 a14 = fun _ => 1#1)
    (r : Fin 2) (e : Fin 640000) :
    0 ≤ (a2 (ix2 r e)).toInt ∧ (a2 (ix2 r e)).toInt < 50000 := by
  -- the predicate word at the one scalar index
  have h0 := congrFun h ix0
  dsimp only [fn, fn_part1, fn_part2, fn_part3, fn_part4] at h0
  -- the last conjunct: the conjunction over every position word is one
  have h1 := (IntOp.andi_eq_one.1 h0).2
  haveI : Subsingleton S_.Idx := ⟨fun a b => funext fun d => d.elim0⟩
  -- so the compared pair is one at the position (r, e)
  have h2 := Host.reduce_andi_all _ _ _ _ _ h1 (ix2 r e)
  obtain ⟨hge, hlt⟩ := IntOp.andi_eq_one.1 h2
  have hge' := IntOp.cmpi_sge.1 hge
  have hlt' := IntOp.cmpi_slt.1 hlt
  rw [StableHlo.Predicate.bcast_scalar _ Facts.h_S_] at hge' hlt'
  have e0 : (0#32 : BitVec 32).toInt = 0 := by decide
  have e5 : (50000#32 : BitVec 32).toInt = 50000 := by decide
  simp only [constantI] at hge' hlt'
  rw [e0] at hge'
  rw [e5] at hlt'
  exact ⟨hge', hlt'⟩

end Cert.Hand

end
-- ==== Proof.Bridge.lean ====
/-
  The two programs compute the same three results. Where every node position word lies in [0, 50000):
  * the message array the edge kernel's pallas_call leaves is the reference's message array: at (e, j) both are the edge
    network's message at column j of edge e's row, the kernel's read off its gathered rows and extra columns, which are the
    rows of the edge's two nodes, the squared length of their position difference and the edge's attributes;
  * likewise the position-update array, so the new positions — the positions plus the updates scatter-added by receiving node
    over the clipped edge count, the same host operations in both programs — agree;
  * the aggregated messages are the same scatter-add of equal arrays, so the node kernel's pallas_call leaves the reference's
    new feature array: at (n, j) both are the node update of node n's features beside its aggregated messages.
-/
import proofs.«406677_j84052509983239_1_alg».proof.Defs
import proofs.«406677_j84052509983239_1_alg».proof.Proof.KI.Regs
import proofs.«406677_j84052509983239_1_alg».proof.Proof.KI.Arr0
import proofs.«406677_j84052509983239_1_alg».proof.Proof.KI.Arr1
import proofs.«406677_j84052509983239_1_alg».proof.Proof.KI.HostK
import proofs.«406677_j84052509983239_1_alg».proof.Proof.KI.HostK2
import proofs.«406677_j84052509983239_1_alg».proof.Proof.Ref
import proofs.«406677_j84052509983239_1_alg».proof.Proof.PreIdx
import proofs.«406677_j84052509983239_1_alg».proof.Proof.Gen.Pre_finite_inputs

set_option maxRecDepth 16384

noncomputable section

namespace Cert.Proof.Bridge

open Idealize.ShloMosaic Idealize.ShloMosaic.ValueIdx Idealize.ShloMosaic.TcCoe Idealize.SL.Sem
open Cert.KernelIdeal Cert.KernelIdeal.Gen Cert.KernelIdeal.Hand
open Cert.ReferenceIdeal.Read Cert.ReferenceIdeal.RefValue

variable (m : (ℓ : Loc nD τ sig) → Buf (Elt Ideal) ℓ) (c : Dev nD)

/-! The kernel's arguments on core `c`, as the reference's value functions take them. -/
abbrev b0 : (⟨Cert.ReferenceIdeal.S50000x128, .f32⟩ : BufTy).Contents (Elt Ideal) := m ((c.tc : Thread nD τ).loc main_arg0)
abbrev b1 : (⟨Cert.ReferenceIdeal.S50000x3, .f32⟩ : BufTy).Contents (Elt Ideal) := m ((c.tc : Thread nD τ).loc main_arg1)
abbrev b2 : (⟨Cert.ReferenceIdeal.S2x640000, .i32⟩ : BufTy).Contents (Elt Ideal) := m ((c.tc : Thread nD τ).loc main_arg2)
abbrev b3 : (⟨Cert.ReferenceIdeal.S640000x8, .f32⟩ : BufTy).Contents (Elt Ideal) := m ((c.tc : Thread nD τ).loc main_arg3)
abbrev b4 : (⟨Cert.ReferenceIdeal.S265x128, .f32⟩ : BufTy).Contents (Elt Ideal) := m ((c.tc : Thread nD τ).loc main_arg4)
abbrev b5 : (⟨Cert.ReferenceIdeal.S128, .f32⟩ : BufTy).Contents (Elt Ideal) := m ((c.tc : Thread nD τ).loc main_arg5)
abbrev b6 : (⟨Cert.ReferenceIdeal.S128x128, .f32⟩ : BufTy).Contents (Elt Ideal) := m ((c.tc : Thread nD τ).loc main_arg6)
abbrev b7 : (⟨Cert.ReferenceIdeal.S128, .f32⟩ : BufTy).Contents (Elt Ideal) := m ((c.tc : Thread nD τ).loc main_arg7)
abbrev b8 : (⟨Cert.ReferenceIdeal.S128x1, .f32⟩ : BufTy).Contents (Elt Ideal) := m ((c.tc : Thread nD τ).loc main_arg8)
abbrev b9 : (⟨Cert.ReferenceIdeal.S1, .f32⟩ : BufTy).Contents (Elt Ideal) := m ((c.tc : Thread nD τ).loc main_arg9)
abbrev b10 : (⟨Cert.ReferenceIdeal.S256x128, .f32⟩ : BufTy).Contents (Elt Ideal) := m ((c.tc : Thread nD τ).loc main_arg10)
abbrev b11 : (⟨Cert.ReferenceIdeal.S128, .f32⟩ : BufTy).Contents (Elt Ideal) := m ((c.tc : Thread nD τ).loc main_arg11)
abbrev b12 : (⟨Cert.ReferenceIdeal.S128x128, .f32⟩ : BufTy).Contents (Elt Ideal) := m ((c.tc : Thread nD τ).loc main_arg12)
abbrev b13 : (⟨Cert.ReferenceIdeal.S128, .f32⟩ : BufTy).Contents (Elt Ideal) := m ((c.tc : Thread nD τ).loc main_arg13)
abbrev b14 : (⟨Cert.ReferenceIdeal.S128x1, .f32⟩ : BufTy).Contents (Elt Ideal) := m ((c.tc : Thread nD τ).loc main_arg14)

/-- The message array the edge kernel's pallas_call leaves is the reference's message array. -/
theorem msg_arr_eq (h : IdxOk m c) :
    (outs m 7 main_v18_0 c : S640000x128.Idx → EReal) = val_main_v58 (F := Ideal) (b0 m c) (b1 m c) (b2 m c) (b3 m c) (b4 m c) (b5 m c) (b6 m c) (b7 m c) (b8 m c) (b9 m c) := by
  funext i
  obtain ⟨e, j, rfl⟩ : ∃ (e : Fin 640000) (j : Fin 128), i = ix2 e j := ⟨i 0, i 1, eq_ix2 i⟩
  rw [outs_7_v18_0]
  refine ((final0_10 (VR0 m) c e j).trans ?_).trans (ref_msg (b0 m c) (b1 m c) (b2 m c) (b3 m c) (b4 m c) (b5 m c) (b6 m c) (b7 m c) (b8 m c) (b9 m c) e j).symm
  refine Cert.Spec.msg_congr (Cert.Spec.ein_congr ?_ ?_ ?_ ?_) ?_ ?_ ?_ ?_ ?_ ?_ j
  · funext k; exact v4_apply m c h e k
  · funext k; exact v5_apply m c h e k
  · exact v12_dsq m c h e
  · funext a; exact v12_ea m c e a
  · funext k i; exact congrFun (V6_arg4 m c) (ix2 k i)
  · funext i; exact v13_apply m c i
  · funext k i; exact congrFun (V6_arg6 m c) (ix2 k i)
  · funext i; exact v14_apply m c i
  · funext k; exact congrFun (V6_arg8 m c) (ix2 k (0 : Fin 1))
  · exact v15_apply m c

/-- The position-update array the edge kernel's pallas_call leaves is the reference's. -/
theorem trans_arr_eq (h : IdxOk m c) :
    (outs m 7 main_v18_1 c : S640000x3.Idx → EReal) = val_main_v61 (F := Ideal) (b0 m c) (b1 m c) (b2 m c) (b3 m c) (b4 m c) (b5 m c) (b6 m c) (b7 m c) (b8 m c) (b9 m c) (b14 m c) := by
  funext i
  obtain ⟨e, d, rfl⟩ : ∃ (e : Fin 640000) (d : Fin 3), i = ix2 e d := ⟨i 0, i 1, eq_ix2 i⟩
  rw [outs_7_v18_1]
  refine ((final0_11 (VR0 m) c e d).trans ?_).trans (ref_trans (b0 m c) (b1 m c) (b2 m c) (b3 m c) (b4 m c) (b5 m c) (b6 m c) (b7 m c) (b8 m c) (b9 m c) (b14 m c) e d).symm
  refine congr (congrArg (HMul.hMul (α := EReal) (β := EReal) (γ := EReal)) (v12_pd m c h e d)) ?_
  refine Cert.Spec.tsc_congr (Cert.Spec.ein_congr ?_ ?_ ?_ ?_) ?_ ?_ ?_ ?_ ?_ ?_ ?_
  · funext k; exact v4_apply m c h e k
  · funext k; exact v5_apply m c h e k
  · exact v12_dsq m c h e
  · funext a; exact v12_ea m c e a
  · funext k i; exact congrFun (V6_arg4 m c) (ix2 k i)
  · funext i; exact v13_apply m c i
  · funext k i; exact congrFun (V6_arg6 m c) (ix2 k i)
  · funext i; exact v14_apply m c i
  · funext k; exact congrFun (V6_arg8 m c) (ix2 k (0 : Fin 1))
  · exact v15_apply m c
  · funext k; exact congrFun (V6_arg14 m c) (ix2 k (0 : Fin 1))

/-- The message result: the kernel's run ends with the reference's message array. -/
theorem res_msg (h : IdxOk m c) :
    val_main_v58 (F := Ideal) (b0 m c) (b1 m c) (b2 m c) (b3 m c) (b4 m c) (b5 m c) (b6 m c) (b7 m c) (b8 m c) (b9 m c) = V9 m (outs m) c main_v18_0 := by
  rw [← msg_arr_eq m c h]
  refine ((V9_of m (outs m) c main_v18_0 (by decide)).trans ((V8_of m (outs m) c main_v18_0 (by decide)).trans ?_)).symm
  simp only [V7, Function.update_self, Function.update_of_ne (StableHlo.devRef_ne_of_ne (by decide) : (Proc.devRef .tc main_v18_0 : DevRef τ sig) ≠ Proc.devRef .tc main_v18_1)]

/-- The position result: both programs add to the positions the same scatter-added updates over the same clipped counts. -/
theorem res_pos (h : IdxOk m c) :
    val_main_v73 (F := Ideal) (b0 m c) (b1 m c) (b2 m c) (b3 m c) (b4 m c) (b5 m c) (b6 m c) (b7 m c) (b8 m c) (b9 m c) (b14 m c) = V9 m (outs m) c main_v30 := by
  refine ((V9_of m (outs m) c main_v30 (by decide)).trans ?_).symm
  refine (v30_eq m (outs m) c).trans ?_
  rw [trans_arr_eq m c h]
  rfl

/-- The feature result: the node kernel's pallas_call leaves the reference's new feature array. -/
theorem res_feat (h : IdxOk m c) :
    val_main_v87 (F := Ideal) (b0 m c) (b1 m c) (b2 m c) (b3 m c) (b4 m c) (b5 m c) (b6 m c) (b7 m c) (b8 m c) (b9 m c) (b10 m c) (b11 m c) (b12 m c) (b13 m c) = V9 m (outs m) c main_v34 := by
  have hv : V9 m (outs m) c main_v34 = outs m 9 main_v34 c := by simp only [V9, Function.update_self]
  rw [hv, outs_9_v34]
  funext i
  obtain ⟨n, j, rfl⟩ : ∃ (n : Fin 50000) (j : Fin 128), i = ix2 n j := ⟨i 0, i 1, eq_ix2 i⟩
  refine (ref_hnew (b0 m c) (b1 m c) (b2 m c) (b3 m c) (b4 m c) (b5 m c) (b6 m c) (b7 m c) (b8 m c) (b9 m c) (b10 m c) (b11 m c) (b12 m c) (b13 m c) n j).trans (Eq.trans ?_ (final1_6 (VR1 m) c n j).symm)
  have hagg : (V8 m (outs m) c main_v33 : S50000x128.Idx → EReal) = val_main_v76 (F := Ideal) (b0 m c) (b1 m c) (b2 m c) (b3 m c) (b4 m c) (b5 m c) (b6 m c) (b7 m c) (b8 m c) (b9 m c) := by
    rw [v33_eq m (outs m) c, msg_arr_eq m c h]
    rfl
  refine Cert.Spec.hnew_congr ?_ ?_ ?_ ?_ ?_ ?_ j
  · funext k; exact (congrFun (V8_arg0 m (outs m) c) (ix2 n k)).symm
  · funext k; exact (congrFun hagg (ix2 n k)).symm
  · funext k i; exact (congrFun (V8_arg10 m (outs m) c) (ix2 k i)).symm
  · funext i; exact (v16_apply m (outs m) c i).symm
  · funext k i; exact (congrFun (V8_arg12 m (outs m) c) (ix2 k i)).symm
  · funext i; exact (v17_apply m (outs m) c i).symm

end Cert.Proof.Bridge

end
-- ==== Proof.lean ====
/-
  An EGNN-style message-passing layer: for each of 640000 edges the kernel gathers the feature and position rows of the edge's two
  nodes, runs the edge network on [h_row | h_col | |Δpos|² | edge_attr] in blocks of 2000 edges (bf16 matrix products, which at the
  extended reals are exact), scatter-adds messages and position updates by receiving node, and runs the node network on
  [h | aggregated messages] in blocks of 2000 nodes. The reference does the same with whole-array operations. The gathers
  differ only outside the table: the kernel's fill a missing row with a not-a-number pattern where the reference's clip, so the
  claim is stated where every node position word lies in [0, 50000), the range the reference's own indexing presupposes.

  The three frames: each kernel program is its host stretches and two pallas_calls, run region by region (KI/Regs, K/Regs over the
  bodies' triples); the reference is a straight line of host operations. The idealization rewrote nothing. The equivalence:
  Bridge.lean, over the blocks-to-arrays lemmas, the bodies read at an entry, the host operations read at an entry on both sides
  and the specification Spec.lean.
-/
import proofs.«406677_j84052509983239_1_alg».proof.Defs
import proofs.«406677_j84052509983239_1_alg».proof.Proof.Gen.Kernel
import proofs.«406677_j84052509983239_1_alg».proof.Proof.Gen.KernelIdeal
import proofs.«406677_j84052509983239_1_alg».proof.Proof.Gen.ReferenceIdeal
import proofs.«406677_j84052509983239_1_alg».proof.Proof.Gen.Pre_finite_inputs
import proofs.«406677_j84052509983239_1_alg».proof.Proof.K.Regs
import proofs.«406677_j84052509983239_1_alg».proof.Proof.KI.Regs
import proofs.«406677_j84052509983239_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ

/-- The idealized program runs and leaves its arguments as launched. -/
theorem frame_ki : Cert.frame_KernelIdeal := fun m ρ _ => Cert.KernelIdeal.Hand.frame m ρ

/-- The reference runs and leaves its arguments as launched: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with the same three results. -/
theorem algebraic : Cert.algebraic_KernelIdeal_ReferenceIdeal := by
  intro m ρ m' ρ' hpre hagree
  have hok : ∀ c, Cert.KernelIdeal.Hand.IdxOk m c := fun c r e =>
    Cert.Hand.idx_of_pre _ _ _ _ _ _ _ _ _ _ _ _ _ _ _ (hpre c) r e
  refine ⟨fun c => Cert.KernelIdeal.Gen.V9 m (Cert.KernelIdeal.Hand.outs m) c Cert.KernelIdeal.main_v34,
    fun c => Cert.KernelIdeal.Gen.V9 m (Cert.KernelIdeal.Hand.outs m) c Cert.KernelIdeal.main_v30,
    fun c => Cert.KernelIdeal.Gen.V9 m (Cert.KernelIdeal.Hand.outs m) c Cert.KernelIdeal.main_v18_0, ?_, ?_⟩
  · refine (θ_run Cert.KernelIdeal.defs _ _).mono (fun r h c => ?_) (Cert.KernelIdeal.Hand.run_vals m ρ)
    have hb : ∀ b : Ref Cert.KernelIdeal.sig .tc, ¬ (Proc.devRef .tc b : DevRef Cert.KernelIdeal.τ Cert.KernelIdeal.sig).isScoped →
        r.2.mem ((c.tc : Thread Cert.KernelIdeal.nD Cert.KernelIdeal.τ).loc b)
          = Cert.KernelIdeal.Gen.V9 m (Cert.KernelIdeal.Hand.outs m) c b :=
      fun b hb => h c _ (Finset.mem_filter.mpr ⟨StableHlo.devRef_mem_tcRefs b, hb⟩)
    exact ⟨hb Cert.KernelIdeal.main_v34 (by decide), hb Cert.KernelIdeal.main_v30 (by decide), hb Cert.KernelIdeal.main_v18_0 (by decide),
      (hb Cert.KernelIdeal.main_arg0 (by decide)).trans (Cert.KernelIdeal.Gen.V9_main_arg0 m _ c), (hb Cert.KernelIdeal.main_arg1 (by decide)).trans (Cert.KernelIdeal.Gen.V9_main_arg1 m _ c),
      (hb Cert.KernelIdeal.main_arg2 (by decide)).trans (Cert.KernelIdeal.Gen.V9_main_arg2 m _ c), (hb Cert.KernelIdeal.main_arg3 (by decide)).trans (Cert.KernelIdeal.Gen.V9_main_arg3 m _ c),
      (hb Cert.KernelIdeal.main_arg4 (by decide)).trans (Cert.KernelIdeal.Gen.V9_main_arg4 m _ c), (hb Cert.KernelIdeal.main_arg5 (by decide)).trans (Cert.KernelIdeal.Gen.V9_main_arg5 m _ c),
      (hb Cert.KernelIdeal.main_arg6 (by decide)).trans (Cert.KernelIdeal.Gen.V9_main_arg6 m _ c), (hb Cert.KernelIdeal.main_arg7 (by decide)).trans (Cert.KernelIdeal.Gen.V9_main_arg7 m _ c),
      (hb Cert.KernelIdeal.main_arg8 (by decide)).trans (Cert.KernelIdeal.Gen.V9_main_arg8 m _ c), (hb Cert.KernelIdeal.main_arg9 (by decide)).trans (Cert.KernelIdeal.Gen.V9_main_arg9 m _ c),
      (hb Cert.KernelIdeal.main_arg10 (by decide)).trans (Cert.KernelIdeal.Gen.V9_main_arg10 m _ c), (hb Cert.KernelIdeal.main_arg11 (by decide)).trans (Cert.KernelIdeal.Gen.V9_main_arg11 m _ c),
      (hb Cert.KernelIdeal.main_arg12 (by decide)).trans (Cert.KernelIdeal.Gen.V9_main_arg12 m _ c), (hb Cert.KernelIdeal.main_arg13 (by decide)).trans (Cert.KernelIdeal.Gen.V9_main_arg13 m _ c),
      (hb Cert.KernelIdeal.main_arg14 (by decide)).trans (Cert.KernelIdeal.Gen.V9_main_arg14 m _ c)⟩
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6, e7, e8, e9, e10, e11, e12, e13, e14⟩ := hagree c
    refine ⟨h0.trans ?_, h1.trans ?_, h2.trans ?_, hargs⟩
    · rw [Cert.ReferenceIdeal.Read.val_main_v87_eq, e0, e1, e2, e3, e4, e5, e6, e7, e8, e9, e10, e11, e12, e13]
      exact Cert.Proof.Bridge.res_feat m c (hok c)
    · rw [Cert.ReferenceIdeal.Read.val_main_v73_eq, e0, e1, e2, e3, e4, e5, e6, e7, e8, e9, e14]
      exact Cert.Proof.Bridge.res_pos m c (hok c)
    · rw [Cert.ReferenceIdeal.Read.val_main_v58_eq, e0, e1, e2, e3, e4, e5, e6, e7, e8, e9]
      exact Cert.Proof.Bridge.res_msg m c (hok c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
